-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S100000 32) (main_arg3 : FVec F S64x128 .f32) (main_arg4 : FVec F S128 .f32) (main_arg5 : FVec F S128x128 .f32) (main_arg6 : FVec F S128 .f32) (main_arg7 : FVec F S128x128 .f32) (main_arg8 : FVec F S128 .f32) (main_arg9 : FVec F S128x10 .f32) (main_arg10 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S2000x64 : Shape := ⟨2, ![2000, 64]⟩
abbrev S2000x1 : Shape := ⟨2, ![2000, 1]⟩
abbrev S2000x128 : Shape := ⟨2, ![2000, 128]⟩
abbrev S1700000x128 : Shape := ⟨2, ![1700000, 128]⟩
abbrev S1x128 : Shape := ⟨2, ![1, 128]⟩
abbrev S1000 : Shape := ⟨1, ![1000]⟩
abbrev S1000x1 : Shape := ⟨2, ![1000, 1]⟩
abbrev S1x10 : Shape := ⟨2, ![1, 10]⟩
abbrev S1000x10 : Shape := ⟨2, ![1000, 10]⟩
abbrev S1000x128 : Shape := ⟨2, ![1000, 128]⟩
abbrev S2000x1000 : Shape := ⟨2, ![2000, 1000]⟩

abbrev nBuf : Space → Nat
  | .hbm => 94
  | .vmem => 35
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x1, .i32⟩
  | .hbm, ⟨37, _⟩ => ⟨S100000x128, .bf16⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000x128, .bf16⟩
  | .hbm, ⟨47, _⟩ => ⟨S1700000x128, .f32⟩
  | .hbm, ⟨48, _⟩ => ⟨S_, .f32⟩
  | .hbm, ⟨49, _⟩ => ⟨S100000x128, .f32⟩
  | .hbm, ⟨50, _⟩ => ⟨S1700000x1, .i32⟩
  | .hbm, ⟨51, _⟩ => ⟨S100000x128, .f32⟩
  | .hbm, ⟨52, _⟩ => ⟨S1x128, .f32⟩
  | .hbm, ⟨53, _⟩ => ⟨S100000x128, .bf16⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .bf16⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .bf16⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .bf16⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S_, .f32⟩
  | .hbm, ⟨85, _⟩ => ⟨S100000, .f32⟩
  | .hbm, ⟨86, _⟩ => ⟨S_, .f32⟩
  | .hbm, ⟨87, _⟩ => ⟨S1000, .f32⟩
  | .hbm, ⟨88, _⟩ => ⟨S100000x1, .i32⟩
  | .hbm, ⟨89, _⟩ => ⟨S1000, .f32⟩
  | .hbm, ⟨90, _⟩ => ⟨S1000x1, .f32⟩
  | .hbm, ⟨91, _⟩ => ⟨S1x128, .f32⟩
  | .hbm, ⟨92, _⟩ => ⟨S1x10, .f32⟩
  | .hbm, ⟨93, _⟩ => ⟨S1000x10, .f32⟩
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S128x128, .f32⟩
  | .local _ .vmem, ⟨11, _⟩ => ⟨S2000x1, .f32⟩
  | .local _ .vmem, ⟨12, _⟩ => ⟨S2000x1, .f32⟩
  | .local _ .vmem, ⟨13, _⟩ => ⟨S2000x128, .bf16⟩
  | .local _ .vmem, ⟨14, _⟩ => ⟨S2000x128, .bf16⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S128x128, .f32⟩
  | .local _ .vmem, ⟨19, _⟩ => ⟨S2000x1, .f32⟩
  | .local _ .vmem, ⟨20, _⟩ => ⟨S2000x1, .f32⟩
  | .local _ .vmem, ⟨21, _⟩ => ⟨S2000x128, .bf16⟩
  | .local _ .vmem, ⟨22, _⟩ => ⟨S2000x128, .bf16⟩
  | .local _ .vmem, ⟨23, _⟩ => ⟨S2000x128, .f32⟩
  | .local _ .vmem, ⟨24, _⟩ => ⟨S2000x128, .f32⟩
  | .local _ .vmem, ⟨25, _⟩ => ⟨S1x128, .f32⟩
  | .local _ .vmem, ⟨26, _⟩ => ⟨S2000x1, .f32⟩
  | .local _ .vmem, ⟨27, _⟩ => ⟨S2000x1, .f32⟩
  | .local _ .vmem, ⟨28, _⟩ => ⟨S2000x1, .i32⟩
  | .local _ .vmem, ⟨29, _⟩ => ⟨S2000x1, .i32⟩
  | .local _ .vmem, ⟨30, _⟩ => ⟨S1000x1, .f32⟩
  | .local _ .vmem, ⟨31, _⟩ => ⟨S128x10, .f32⟩
  | .local _ .vmem, ⟨32, _⟩ => ⟨S1x10, .f32⟩
  | .local _ .vmem, ⟨33, _⟩ => ⟨S1000x10, .f32⟩
  | .local _ .vmem, ⟨34, _⟩ => ⟨S1000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_cst_13 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_scratch0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem5_0 : DmaSem sig := 31
abbrev cc3_sem6_0 : DmaSem sig := 32
abbrev cc3_sem7_0 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def k3_cond2 (i : grid3.Coords) : BitVec 1 :=
  let arg0 : BitVec 32 := BitVec.ofNat 32 (i 0).val
  let c49_i32 : BitVec 32 := 49#32
  let v30 : BitVec 1 := Scalar.cmpi .eq arg0 c49_i32
  let v31 : BitVec 32 := Scalar.extui v30
  let c0_i32_13 : BitVec 32 := 0#32
  let v32 : BitVec 1 := Scalar.cmpi .ne v31 c0_i32_13
  v32

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1000x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1000x10 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  bcast_S_S1000 : S_.BroadcastsInDim S1000 (![] : Fin 0 → Fin S1000.rank)
  bcast_S100000_S100000x1_0 : S100000.BroadcastsInDim S100000x1 (![0] : Fin 1 → Fin S100000x1.rank)
  shapeCasts_S1000_S1000x1 : S1000.ShapeCasts S1000x1
  shapeCasts_S10_S1x10 : S10.ShapeCasts S1x10
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  iota_S2000x1000_d1_w32 : S2000x1000.Iotas .tc 32 [1]
  broadcasts_S2000x1_S2000x1000 : S2000x1.Broadcasts S2000x1000
  natLt_1_32 : 1 < 32
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1000x10 : S1x10.Broadcasts S1000x10
  inb_S1000x10_S1000x10_0_0 : ∀ a, (![0, 0] : Fin 2 → Nat) a + S1000x10.size a ≤ S1000x10.size a
  h_S1000x10 : 0 < S1000x10.numel
  scatter_S100000_S1700000x1_S1700000_n_0_0_1_wf : ScatterDims.WF S100000 S1700000x1 S1700000 [] [0] [0] 1
  dot_S2000x64_S64x128_S2000x128_1_0_0_1_n_n_wf : DotDims.WF S2000x64 S64x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x128_S2000x128_1_0_0_1_n_n_wf : DotDims.WF S2000x128 S128x128 S2000x128 [1] [0] [0] [1] [] []
  scatter_S1000_S100000x1_S100000_n_0_0_1_wf : ScatterDims.WF S1000 S100000x1 S100000 [] [0] [0] 1
  dot_S2000x1000_S2000x128_S1000x128_0_0_1_1_n_n_wf : DotDims.WF S2000x1000 S2000x128 S1000x128 [0] [0] [1] [1] [] []
  dot_S1000x128_S128x10_S1000x10_1_0_0_1_n_n_wf : DotDims.WF S1000x128 S128x10 S1000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .bf16 = 32 ∨ (Rect.block (s := S100000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .bf16 = 32 ∨ (Rect.block (s := S100000x128) S2000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .f32 = 32 ∨ (Rect.block (s := S100000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .bf16 = 32 ∨ (Rect.block (s := S100000x128) S2000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S100000x1.size a
  hwx3_3 : ∀ i : grid3.Coords, EltTy.bits .i32 = 32 ∨ (Rect.block (s := S100000x1) S2000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1000x1.size a ≤ S1000x1.size a
  hwx3_4 : ∀ i : grid3.Coords, EltTy.bits .f32 = 32 ∨ (Rect.block (s := S1000x1) S1000x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x10.size a ≤ S128x10.size a
  hwx3_5 : ∀ i : grid3.Coords, EltTy.bits .f32 = 32 ∨ (Rect.block (s := S128x10) S128x10.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x10.size a ≤ S1x10.size a
  hwx3_6 : ∀ i : grid3.Coords, EltTy.bits .f32 = 32 ∨ (Rect.block (s := S1x10) S1x10.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1000x10.size a ≤ S1000x10.size a
  hwx3_7 : ∀ i : grid3.Coords, EltTy.bits .f32 = 32 ∨ (Rect.block (s := S1000x10) S1000x10.size (cc3_transform_7 i) (hinb3_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S2000x1000_S2000x128_S1000x128_0_0_1_1_n_n : DotDims S2000x1000 S2000x128 S1000x128 where
  lhsContracting := [0]
  rhsContracting := [0]
  lhsNonContracting := [1]
  rhsNonContracting := [1]
  lhsBatch := []
  rhsBatch := []
  wf := dot_S2000x1000_S2000x128_S1000x128_0_0_1_1_n_n_wf
def dot_S1000x128_S128x10_S1000x10_1_0_0_1_n_n : DotDims S1000x128 S128x10 S1000x10 where
  lhsContracting := [1]
  rhsContracting := [0]
  lhsNonContracting := [0]
  rhsNonContracting := [1]
  lhsBatch := []
  rhsBatch := []
  wf := dot_S1000x128_S128x10_S1000x10_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v32) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v45) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v56) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1000x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg9) S128x10.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v63) S1x10.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v64) S1000x10.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S1000x128 : Shape := ⟨2, ![1000, 128]⟩
abbrev S100000x1 : Shape := ⟨2, ![100000, 1]⟩
abbrev S1000 : Shape := ⟨1, ![1000]⟩
abbrev S1000x1 : Shape := ⟨2, ![1000, 1]⟩
abbrev S1000x10 : Shape := ⟨2, ![1000, 10]⟩
abbrev S1x10 : Shape := ⟨2, ![1, 10]⟩

abbrev nBuf : Space → Nat
  | .hbm => 143
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x128, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x128, .f32⟩
  | 87 => ⟨S1700000x1, .f32⟩
  | 88 => ⟨S1700000x128, .f32⟩
  | 89 => ⟨S1700000x128, .f32⟩
  | 90 => ⟨S_, .f32⟩
  | 91 => ⟨S100000x128, .f32⟩
  | 92 => ⟨S1700000x1, .i32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x128, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x128, .f32⟩
  | 110 => ⟨S1700000x1, .f32⟩
  | 111 => ⟨S1700000x128, .f32⟩
  | 112 => ⟨S1700000x128, .f32⟩
  | 113 => ⟨S_, .f32⟩
  | 114 => ⟨S100000x128, .f32⟩
  | 115 => ⟨S1700000x1, .i32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S_, .f32⟩
  | 124 => ⟨S1000x128, .f32⟩
  | 125 => ⟨S100000x1, .i32⟩
  | 126 => ⟨S1000x128, .f32⟩
  | 127 => ⟨S_, .f32⟩
  | _ => ⟨S100000x64, .f32⟩

abbrev hbmTy0_1 (i : Nat) : BufTy := match i % 128 with
  | 0 => ⟨S100000, .f32⟩
  | 1 => ⟨S_, .f32⟩
  | 2 => ⟨S1000, .f32⟩
  | 3 => ⟨S100000x1, .i32⟩
  | 4 => ⟨S1000, .f32⟩
  | 5 => ⟨S_, .f32⟩
  | 6 => ⟨S1000, .f32⟩
  | 7 => ⟨S1000, .f32⟩
  | 8 => ⟨S1000x1, .f32⟩
  | 9 => ⟨S1000x128, .f32⟩
  | 10 => ⟨S1000x128, .f32⟩
  | 11 => ⟨S1000x10, .f32⟩
  | 12 => ⟨S1x10, .f32⟩
  | 13 => ⟨S1000x10, .f32⟩
  | 14 => ⟨S1000x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_call3_cst : Ref sig .tc := ⟨.hbm, 120, rfl⟩
abbrev main_call3_v0 : Ref sig .tc := ⟨.hbm, 121, rfl⟩
abbrev main_v85 : Ref sig .tc := ⟨.hbm, 122, rfl⟩
abbrev main_cst_16 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_17 : Ref sig .tc := ⟨.hbm, 127, rfl⟩
abbrev main_v89 : Ref sig .tc := ⟨.hbm, 128, rfl⟩
abbrev main_cst_18 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_19 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1000x128 : S_.BroadcastsInDim S1000x128 (![] : Fin 0 → Fin S1000x128.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S1000x128_S100000x1_S100000x128_1_0_0_1_wf : ScatterDims.WF S1000x128 S100000x1 S100000x128 [1] [0] [0] 1
  scatter_S1000_S100000x1_S100000_n_0_0_1_wf : ScatterDims.WF S1000 S100000x1 S100000 [] [0] [0] 1
  dot_S1000x128_S128x10_S1000x10_1_0_0_1_n_n_wf : DotDims.WF S1000x128 S128x10 S1000x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x128_S128x10_S1000x10_1_0_0_1_n_n : DotDims S1000x128 S128x10 S1000x10 where
  lhsContracting := [1]
  rhsContracting := [0]
  lhsNonContracting := [0]
  rhsNonContracting := [1]
  lhsBatch := []
  rhsBatch := []
  wf := dot_S1000x128_S128x10_S1000x10_1_0_0_1_n_n_wf

class Facts : Prop extends Facts₀ where

variable [Facts]
-- ==== Proof.FrA0.lean ====
/- REGION 0 of @main, the first matmul call (`cc0__matmul_prescale_kernel`, pipeline 0), stated at a PARAMETER `V`: the
   TensorCore's buffer contents when the region is entered. One grid point handles a tile of 2000 rows of the node
   features: it reads the tile `x` (2000 x 64), the whole first weight matrix `W1` (64 x 128) and the tile's column of
   per-node factors (2000 x 1), and writes the 2000 x 128 tile of `bf16( (bf16 x · bf16 W1) * factor )` — a matrix
   product accumulated in f32 from bf16 operands, each row scaled by its node's factor, rounded to bf16 — over the
   whole output staging buffer in one store. Nothing is carried from one point to the next, so what the body leaves
   in the output buffer is a closed function of the three input blocks at the point (`out0_3`).

   Here: each window's block at a point (`iblk0`), what the body finds in the input buffers (`before0_W`), the body's
   triple (`sound_kernel0`), the pipeline's proof data (`dat0`) and the body obligation (`body_obligation0`). -/
import proofs.«404431_j37108517437514_3_alg».proof.Proof.Gen.KernelIdeal.Launch
import proofs.«404431_j37108517437514_3_alg».proof.Proof.Gen.KernelIdeal.Skeleton
import proofs.«404431_j37108517437514_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator's structural look recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`): for the feature tile, the factor
    column and the output, rows `2000 t … 2000 t + 1999` of the array; for the weight matrix, all of it at every point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the feature tile)'s current staging buffer holds its block at every point, for ANY proof data whose array is `V`'s (`hA`) and whose body leaves the block in place (`hafter`): where the
    pipeline does not fetch the window its block index has not moved, so the buffer still holds this point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, fetched at the first point only)'s staging buffer holds the matrix at every point, for ANY proof data whose array is `V`'s (`hA`) and whose body leaves the block in place (`hafter`): where the
    pipeline does not fetch the window its block index has not moved, so the buffer still holds this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the factor column)'s current staging buffer holds its block at every point, for ANY proof data whose array is `V`'s (`hA`) and whose body leaves the block in place (`hafter`): where the
    pipeline does not fetch the window its block index has not moved, so the buffer still holds this point's block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, through one rectangle -/

abbrev r0_0 : Rect S2000x64 := Rect.unit (s := S2000x64) ![0, 0] S2000x64.size inb_S2000x64_S2000x64_0_0
abbrev r0_1 : Rect S64x128 := Rect.unit (s := S64x128) ![0, 0] S64x128.size inb_S64x128_S64x128_0_0
abbrev r0_2 : Rect S2000x1 := Rect.unit (s := S2000x1) ![0, 0] S2000x1.size inb_S2000x1_S2000x1_0_0
abbrev r0_3 : Rect S2000x128 := Rect.unit (s := S2000x128) ![0, 0] S2000x128.size inb_S2000x128_S2000x128_0_0

/-! ## What the body leaves in the output window's buffer -/

/-- The output staging buffer after the body, from the three input blocks: its one store, over the whole buffer, of
    the scaled product of the tile `x0` with the weights `x1`, rows scaled by `x2`. -/
def out0_3 (x0 : Vec F S2000x64 .f32) (x1 : Vec F S64x128 .f32) (x2 : Vec F S2000x1 .f32) : Vec F S2000x128 .bf16 :=
  View.canon [⟨r0_3, k0_pay1 (View.ld x0 r0_0) (View.ld x1 r0_1) (View.ld x2 r0_2)⟩]

/-- The one store's rectangle is the whole buffer, so it covers it. -/
theorem cover0_3 (p0 : Vec F S2000x128 .bf16) (y : S2000x128.Idx) :
    ∃ pc ∈ ([⟨r0_3, p0⟩] : List (View.Piece (Elt F) S2000x128 .bf16)), y ∈ pc.1.set :=
  View.cover_of_tiled [⟨r0_3, p0⟩] S2000x128.size (by rfl) y

/-! ## The body's triple -/

set_option maxHeartbeats 1000000 in
/-- The kernel body on whole staging memrefs, the three inputs' at read contents `x0 x1 x2` and the output's at anything,
    runs to the continuation holding the inputs' as they were and the output's at `out0_3 x0 x1 x2`. The body also loads
    the output buffer before storing over it; the value loaded is not used. -/
theorem sound_kernel0 (c : Dev nD) (E : Set ℕ) (i : grid0.Coords)
    (arg1 : Memref sig .tc .vmem S2000x64 .f32) (harg1 : arg1.IsWhole) (arg2 : Memref sig .tc .vmem S64x128 .f32) (harg2 : arg2.IsWhole)
    (arg3 : Memref sig .tc .vmem S2000x1 .f32) (harg3 : arg3.IsWhole) (arg4 : Memref sig .tc .vmem S2000x128 .bf16) (harg4 : arg4.IsWhole)
    (x0 : Vec F S2000x64 .f32) (x1 : Vec F S64x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_prescale_kernel i arg1 harg1 arg2 harg2 arg3 harg3 arg4 harg4) K := by
  simp only [cc0__matmul_prescale_kernel_eq_skeleton]; unfold cc0__matmul_prescale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the three input blocks; the invariant keeps the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's debts, and the four current staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the invariant
    and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Fr

end
-- ==== Proof.FrA1.lean ====
/- REGION 1 of @main (custom_call 1, `cc1__bias_relu_matmul_prescale_kernel`, pipeline 1) at a PARAMETER `V` — the
   TensorCore's buffer contents when the region is entered. The kernel, at each of the grid's 50 points, takes a tile of
   2000 rows of the aggregate (window 0, [2000,128] f32), the bias row (window 1, [1,128] f32, whole), the weight matrix
   (window 2, [128,128] f32, whole) and the same 2000 rows of the per-node factor (window 3, [2000,1] f32); it scales the
   tile's rows by the factor, adds the bias, clamps at zero, rounds to bf16, multiplies by the rounded weights, scales the
   rows by the factor again, and stores the result rounded to bf16 over the whole output tile (window 4, [2000,128] bf16).
   Here: each window's block at a point (`iblk1`), the output tile after the body as a function of the four input blocks
   (`out1_4`), the body's triple (`sound_kernel1`), the pipeline's proof data (`dat1`) and the body obligation
   (`body_obligation1`). -/
import proofs.«404431_j37108517437514_3_alg».proof.Proof.Gen.KernelIdeal.Launch
import proofs.«404431_j37108517437514_3_alg».proof.Proof.Gen.KernelIdeal.Skeleton
import proofs.«404431_j37108517437514_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator's structural look recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter this region's half is stated at
variable (V : (c : Dev nD) → (b : Ref sig .tc) → Buf (Elt F) ((c : Thread nD τ).loc b))

/-! # REGION 1 of @main: custom_call 1, `cc1__bias_relu_matmul_prescale_kernel` (pipeline 1), at the entry contents `V` -/

/-! ## The windows' blocks -/

/-- Window `w`'s block at point `t`, read off its array as the region finds it (`V`): for windows 0, 3 and 4 the
    2000 rows numbered `2000·t …` of the array, for windows 1 and 2 the whole array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's (the aggregate's tile) current staging buffer holds its block at every point, fetched there or not, for ANY
    proof data whose array is `V`'s (`hA`) and whose body leaves the block in place (`hafter`): where the pipeline does not
    fetch, the block index has not moved since the last fetch. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's (the bias row) current staging buffer holds its block at every point, fetched there or not, for ANY
    proof data whose array is `V`'s (`hA`) and whose body leaves the block in place (`hafter`): where the pipeline does not
    fetch, the block index has not moved since the last fetch. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's (the weight matrix) current staging buffer holds its block at every point, fetched there or not, for ANY
    proof data whose array is `V`'s (`hA`) and whose body leaves the block in place (`hafter`): where the pipeline does not
    fetch, the block index has not moved since the last fetch. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's (the factor's tile) current staging buffer holds its block at every point, fetched there or not, for ANY
    proof data whose array is `V`'s (`hA`) and whose body leaves the block in place (`hafter`): where the pipeline does not
    fetch, the block index has not moved since the last fetch. The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole staging buffer -/

abbrev r1_0 : Rect S2000x1 := Rect.unit (s := S2000x1) ![0, 0] S2000x1.size inb_S2000x1_S2000x1_0_0
abbrev r1_1 : Rect S2000x128 := Rect.unit (s := S2000x128) ![0, 0] S2000x128.size inb_S2000x128_S2000x128_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0

/-! ## What the body leaves in the output window's buffer -/

/-- Window 4's staging buffer after the body, from the input windows' blocks (`x0` the aggregate's tile, `x1` the bias
    row, `x2` the weights, `x3` the factor's tile): its one store, over the whole buffer, of the skeleton's payload — which
    takes the factor first, then the tile, the bias, the weights. -/
def out1_4 (x0 : Vec F S2000x128 .f32) (x1 : Vec F S1x128 .f32) (x2 : Vec F S128x128 .f32) (x3 : Vec F S2000x1 .f32) : Vec F S2000x128 .bf16 :=
  View.canon [⟨r1_1, k1_pay1 (View.ld x3 r1_0) (View.ld x0 r1_1) (View.ld x1 r1_2) (View.ld x2 r1_3)⟩]

/-- The one store takes the whole buffer (checked by evaluation), so it covers it. -/
theorem cover1_4 (p0 : Vec F S2000x128 .bf16) (y : S2000x128.Idx) :
    ∃ pc ∈ ([⟨r1_1, p0⟩] : List (View.Piece (Elt F) S2000x128 .bf16)), y ∈ pc.1.set :=
  View.cover_of_tiled [⟨r1_1, p0⟩] S2000x128.size (by rfl) y

/-! ## The body's triple -/

set_option maxHeartbeats 1000000 in
/-- The kernel body on whole staging memrefs, the four inputs' at read contents `x0 … x3` and the output's at anything,
    runs to the continuation holding the inputs' as they were and the output's at `out1_4` of the inputs': the printed
    function is its skeleton — four loads of the inputs, a load of the output buffer that nothing reads, one store. -/
theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S128x128 .f32) (harg3 : arg3.IsWhole) (arg4 : Memref sig .tc .vmem S2000x1 .f32) (harg4 : arg4.IsWhole)
    (arg5 : Memref sig .tc .vmem S2000x128 .bf16) (harg5 : arg5.IsWhole)
    (x0 : Vec F S2000x128 .f32) (x1 : Vec F S1x128 .f32) (x2 : Vec F S128x128 .f32) (x3 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__bias_relu_matmul_prescale_kernel i arg1 harg1 arg2 harg2 arg3 harg3 arg4 harg4 arg5 harg5) K := by
  simp only [cc1__bias_relu_matmul_prescale_kernel_eq_skeleton]; unfold cc1__bias_relu_matmul_prescale_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point `t`
    each input's buffer at its block and the output's at `out1_4` of the four input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Fr

end
-- ==== Proof.FrA2.lean ====
/- REGION 2 of @main (custom_call 2, `cc2__bias_relu_matmul_prescale_kernel`, pipeline 2) at a PARAMETER `V` — the
   TensorCore's buffer contents when the region is entered. The kernel, at each of the grid's 50 points, takes a tile of
   2000 rows of the aggregate (window 0, [2000,128] f32), the bias row (window 1, [1,128] f32, whole), the weight matrix
   (window 2, [128,128] f32, whole) and the same 2000 rows of the per-node factor (window 3, [2000,1] f32); it scales the
   tile's rows by the factor, adds the bias, clamps at zero, rounds to bf16, multiplies by the rounded weights, scales the
   rows by the factor again, and stores the result rounded to bf16 over the whole output tile (window 4, [2000,128] bf16).
   Here: each window's block at a point (`iblk2`), the output tile after the body as a function of the four input blocks
   (`out2_4`), the body's triple (`sound_kernel2`), the pipeline's proof data (`dat2`) and the body obligation
   (`body_obligation2`). -/
import proofs.«404431_j37108517437514_3_alg».proof.Proof.Gen.KernelIdeal.Launch
import proofs.«404431_j37108517437514_3_alg».proof.Proof.Gen.KernelIdeal.Skeleton
import proofs.«404431_j37108517437514_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator's structural look recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter this region's half is stated at
variable (V : (c : Dev nD) → (b : Ref sig .tc) → Buf (Elt F) ((c : Thread nD τ).loc b))

/-! # REGION 2 of @main: custom_call 2, `cc2__bias_relu_matmul_prescale_kernel` (pipeline 2), at the entry contents `V` -/

/-! ## The windows' blocks -/

/-- Window `w`'s block at point `t`, read off its array as the region finds it (`V`): for windows 0, 3 and 4 the
    2000 rows numbered `2000·t …` of the array, for windows 1 and 2 the whole array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's (the aggregate's tile) current staging buffer holds its block at every point, fetched there or not, for ANY
    proof data whose array is `V`'s (`hA`) and whose body leaves the block in place (`hafter`): where the pipeline does not
    fetch, the block index has not moved since the last fetch. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's (the bias row) current staging buffer holds its block at every point, fetched there or not, for ANY
    proof data whose array is `V`'s (`hA`) and whose body leaves the block in place (`hafter`): where the pipeline does not
    fetch, the block index has not moved since the last fetch. The window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's (the weight matrix) current staging buffer holds its block at every point, fetched there or not, for ANY
    proof data whose array is `V`'s (`hA`) and whose body leaves the block in place (`hafter`): where the pipeline does not
    fetch, the block index has not moved since the last fetch. The window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's (the factor's tile) current staging buffer holds its block at every point, fetched there or not, for ANY
    proof data whose array is `V`'s (`hA`) and whose body leaves the block in place (`hafter`): where the pipeline does not
    fetch, the block index has not moved since the last fetch. The window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole staging buffer -/

abbrev r2_0 : Rect S2000x1 := Rect.unit (s := S2000x1) ![0, 0] S2000x1.size inb_S2000x1_S2000x1_0_0
abbrev r2_1 : Rect S2000x128 := Rect.unit (s := S2000x128) ![0, 0] S2000x128.size inb_S2000x128_S2000x128_0_0
abbrev r2_2 : Rect S1x128 := Rect.unit (s := S1x128) ![0, 0] S1x128.size inb_S1x128_S1x128_0_0
abbrev r2_3 : Rect S128x128 := Rect.unit (s := S128x128) ![0, 0] S128x128.size inb_S128x128_S128x128_0_0

/-! ## What the body leaves in the output window's buffer -/

/-- Window 4's staging buffer after the body, from the input windows' blocks (`x0` the aggregate's tile, `x1` the bias
    row, `x2` the weights, `x3` the factor's tile): its one store, over the whole buffer, of the skeleton's payload — which
    takes the factor first, then the tile, the bias, the weights. -/
def out2_4 (x0 : Vec F S2000x128 .f32) (x1 : Vec F S1x128 .f32) (x2 : Vec F S128x128 .f32) (x3 : Vec F S2000x1 .f32) : Vec F S2000x128 .bf16 :=
  View.canon [⟨r2_1, k2_pay1 (View.ld x3 r2_0) (View.ld x0 r2_1) (View.ld x1 r2_2) (View.ld x2 r2_3)⟩]

/-- The one store takes the whole buffer (checked by evaluation), so it covers it. -/
theorem cover2_4 (p0 : Vec F S2000x128 .bf16) (y : S2000x128.Idx) :
    ∃ pc ∈ ([⟨r2_1, p0⟩] : List (View.Piece (Elt F) S2000x128 .bf16)), y ∈ pc.1.set :=
  View.cover_of_tiled [⟨r2_1, p0⟩] S2000x128.size (by rfl) y

/-! ## The body's triple -/

set_option maxHeartbeats 1000000 in
/-- The kernel body on whole staging memrefs, the four inputs' at read contents `x0 … x3` and the output's at anything,
    runs to the continuation holding the inputs' as they were and the output's at `out2_4` of the inputs': the printed
    function is its skeleton — four loads of the inputs, a load of the output buffer that nothing reads, one store. -/
theorem sound_kernel2 (c : Dev nD) (E : Set ℕ) (i : grid2.Coords)
    (arg1 : Memref sig .tc .vmem S2000x128 .f32) (harg1 : arg1.IsWhole) (arg2 : Memref sig .tc .vmem S1x128 .f32) (harg2 : arg2.IsWhole)
    (arg3 : Memref sig .tc .vmem S128x128 .f32) (harg3 : arg3.IsWhole) (arg4 : Memref sig .tc .vmem S2000x1 .f32) (harg4 : arg4.IsWhole)
    (arg5 : Memref sig .tc .vmem S2000x128 .bf16) (harg5 : arg5.IsWhole)
    (x0 : Vec F S2000x128 .f32) (x1 : Vec F S1x128 .f32) (x2 : Vec F S128x128 .f32) (x3 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__bias_relu_matmul_prescale_kernel i arg1 harg1 arg2 harg2 arg3 harg3 arg4 harg4 arg5 harg5) K := by
  simp only [cc2__bias_relu_matmul_prescale_kernel_eq_skeleton]; unfold cc2__bias_relu_matmul_prescale_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at point `t`
    each input's buffer at its block and the output's at `out2_4` of the four input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (the library's body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the invariant
    and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Fr

end
-- ==== Proof.FrR3.lean ====
import proofs.«404431_j37108517437514_3_alg».proof.Proof.Gen.KernelIdeal.Launch
import proofs.«404431_j37108517437514_3_alg».proof.Proof.Gen.KernelIdeal.Skeleton
import proofs.«404431_j37108517437514_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The pooled accumulator after point `n`: the per-graph sums start from zeros at the first point, and every
    point adds its 2000 rows' contribution (the one-hot graph matrix transposed times the activated rows). -/
def acc3 (c : Dev nD) : (n : ℕ) → n < cfg3.N → Vec F S1000x128 .f32
  | 0, h => k3_pay2 (iblk3 V c 2 ⟨0, h⟩) (iblk3 V c 0 ⟨0, h⟩) (iblk3 V c 1 ⟨0, h⟩) (iblk3 V c 3 ⟨0, h⟩) (k3_pay1 (F := F))
  | n + 1, h => k3_pay2 (iblk3 V c 2 ⟨n + 1, h⟩) (iblk3 V c 0 ⟨n + 1, h⟩) (iblk3 V c 1 ⟨n + 1, h⟩) (iblk3 V c 3 ⟨n + 1, h⟩) (acc3 c n (Nat.lt_of_succ_lt h))

/-- What the last point stores into the output block: the accumulated sums divided by the clamped counts, through
    the head. At the other points nothing consults it (the window is idle there). -/
def out3_7 (c : Dev nD) (t : Fin cfg3.N) : Vec F S1000x10 .f32 :=
  k3_pay3 (iblk3 V c 4 t) (acc3 V c t.val t.isLt) (iblk3 V c 5 t) (iblk3 V c 6 t)

/-- The accumulator the kernel keeps between points, as a whole memref. -/
abbrev scM3 : Memref sig .tc .vmem S1000x128 .f32 := Memref.whole cc3_scratch0

/-- The region's scoped buffers other than the accumulator, at some contents each. -/
abbrev others3 (c : Dev nD) : sProp 𝕄 :=
  Pipeline.scopedRestBut (Ix := Unit) (Name := ℕ) (U := UR sig nD τ) (Lvl := ℕ) (Val := Elt F) spec3 c [cc3_scratch0]

/-- The invariant before position `n`: on entry the class's; afterwards the accumulator at what the point before
    left in it, the other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn) ∗ others3 c) ∗ (∃ r, prngReg c r))

/-- The proof data of the pooling pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 V c t := by dsimp only [dat3]

/-! ## The body's two conditions -/

/-- The first conditional (the accumulator is zeroed): the grid coordinate is 0. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)

/-- The second conditional (the output block is stored): the grid coordinate is 49. -/
abbrev cond3_1 (i : grid3.Coords) : Prop := k3_cond2 i = 1#1
theorem hcond3_1 : ∀ t : Fin cfg3.N, cond3_1 (grid3.coords t) ↔ t.val = 49 :=
  (by decide +kernel : ∀ t : Fin grid3.N, cond3_1 (grid3.coords t) ↔ t.val = 49)

theorem idleAt3_7 : ∀ t : Fin cfg3.N, ¬cond3_1 (grid3.coords t) → cfg3.idle 7 (grid3.coords t) = true := by decide +kernel
theorem noFlush3_7 : ∀ t : Fin cfg3.N, ¬cond3_1 (grid3.coords t) → (cfg3.win 7).flush t = false := by decide +kernel
theorem liveAt3_7 : ∀ t : Fin cfg3.N, cond3_1 (grid3.coords t) → cfg3.idle 7 (grid3.coords t) = false := by decide +kernel

/-- The offsets of every access of this body are zero. -/
theorem hz2 : (![0, 0] : Fin 2 → ℕ) = fun _ => 0 := by
  funext a; fin_cases a <;> rfl

/-! ## The body's triple, case by case

On whole staging memrefs, the inputs' at their contents, the body runs to the continuation holding the inputs' as
they were and the accumulator at this point's sums over what it held; the output block's buffer is stored only in
the last case. -/

set_option maxHeartbeats 1000000 in
/-- The first point: the accumulator, at anything, is zeroed and then receives the point's sums. -/
theorem sound_kernel3_A (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S2000x1 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S128x10 .f32) (harg6 : arg6.IsWhole) (arg7 : Memref sig .tc .vmem S1x10 .f32) (harg7 : arg7.IsWhole) (arg8 : Memref sig .tc .vmem S1000x10 .f32) (harg8 : arg8.IsWhole) (arg9 : Memref sig .tc .vmem S1000x128 .f32) (harg9 : arg9.IsWhole) (hc0 : cond3_0 i) (hc1 : ¬cond3_1 i)
    (x0 : Vec F S2000x128 .f32) (x1 : Vec F S1x128 .f32) (x2 : Vec F S2000x1 .f32) (x3 : Vec F S2000x1 .i32) (x4 : Vec F S1000x1 .f32) (x5 : Vec F S128x10 .f32) (x6 : Vec F S1x10 .f32) (x7 : Vec F S1000x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ owns (c : Thread nD τ) arg9 fullShare (k3_pay2 x2 x0 x1 x3 (k3_pay1 (F := F)))) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
  subst hf0; subst hf1; subst hf2; subst hf3; subst hf4; subst hf5; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HS
  ipureintro
  sl_unfold_run_names
  refine (View.read_writes_eq_canon _ _ _ (fun y => ⟨_, List.mem_cons_self, View.mem_set_unit_zero hz2 inb_S1000x128_S1000x128_0_0 y⟩)).trans ?_
  rw [View.canon_cons_unit_zero hz2]
  simp only [View.readAt_eq_ld, View.ld_unit_zero (S := S2000x128) hz2, View.ld_unit_zero (S := S1x128) hz2, View.ld_unit_zero (S := S2000x1) hz2, View.ld_unit_zero (S := S1000x1) hz2, View.ld_unit_zero (S := S128x10) hz2, View.ld_unit_zero (S := S1x10) hz2, View.ld_unit_zero (S := S1000x128) hz2, View.ld_unit_zero (S := S1000x10) hz2, View.readCov_unit_zero (S := S1000x128) _ hz2]

set_option maxHeartbeats 1000000 in
/-- A point strictly between the first and the last: the accumulator receives the point's sums. -/
theorem sound_kernel3_B (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S2000x1 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S128x10 .f32) (harg6 : arg6.IsWhole) (arg7 : Memref sig .tc .vmem S1x10 .f32) (harg7 : arg7.IsWhole) (arg8 : Memref sig .tc .vmem S1000x10 .f32) (harg8 : arg8.IsWhole) (arg9 : Memref sig .tc .vmem S1000x128 .f32) (harg9 : arg9.IsWhole) (hc0 : ¬cond3_0 i) (hc1 : ¬cond3_1 i)
    (x0 : Vec F S2000x128 .f32) (x1 : Vec F S1x128 .f32) (x2 : Vec F S2000x1 .f32) (x3 : Vec F S2000x1 .i32) (x4 : Vec F S1000x1 .f32) (x5 : Vec F S128x10 .f32) (x6 : Vec F S1x10 .f32) (x7 : Vec F S1000x10 .f32) (xs : Vec F S1000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ owns (c : Thread nD τ) arg9 fullShare (k3_pay2 x2 x0 x1 x3 xs)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HS
  ipureintro
  sl_unfold_run_names
  refine (View.read_writes_eq_canon _ _ _ (fun y => ⟨_, List.mem_cons_self, View.mem_set_unit_zero hz2 inb_S1000x128_S1000x128_0_0 y⟩)).trans ?_
  rw [View.canon_unit_zero hz2]
  simp only [View.readAt_eq_ld, View.ld_unit_zero (S := S2000x128) hz2, View.ld_unit_zero (S := S1x128) hz2, View.ld_unit_zero (S := S2000x1) hz2, View.ld_unit_zero (S := S1000x1) hz2, View.ld_unit_zero (S := S128x10) hz2, View.ld_unit_zero (S := S1x10) hz2, View.ld_unit_zero (S := S1000x128) hz2, View.ld_unit_zero (S := S1000x10) hz2]

set_option maxHeartbeats 1000000 in
/-- The last point: the accumulator receives the point's sums, and the output block is computed from it. -/
theorem sound_kernel3_C (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S2000x1 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S128x10 .f32) (harg6 : arg6.IsWhole) (arg7 : Memref sig .tc .vmem S1x10 .f32) (harg7 : arg7.IsWhole) (arg8 : Memref sig .tc .vmem S1000x10 .f32) (harg8 : arg8.IsWhole) (arg9 : Memref sig .tc .vmem S1000x128 .f32) (harg9 : arg9.IsWhole) (hc0 : ¬cond3_0 i) (hc1 : cond3_1 i)
    (x0 : Vec F S2000x128 .f32) (x1 : Vec F S1x128 .f32) (x2 : Vec F S2000x1 .f32) (x3 : Vec F S2000x1 .i32) (x4 : Vec F S1000x1 .f32) (x5 : Vec F S128x10 .f32) (x6 : Vec F S1x10 .f32) (xs : Vec F S1000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ (∃ d, owns (c : Thread nD τ) arg8 fullShare d)
        ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare (k3_pay3 x4 (k3_pay2 x2 x0 x1 x3 xs) x5 x6)
        ∗ owns (c : Thread nD τ) arg9 fullShare (k3_pay2 x2 x0 x1 x3 xs)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  subst hf0; subst hf1; subst hf2; subst hf3; subst hf4; subst hf5; subst hf6; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    refine (View.read_writes_eq_canon _ _ _ (fun y => ⟨_, List.mem_cons_self, View.mem_set_unit_zero hz2 inb_S1000x10_S1000x10_0_0 y⟩)).trans ?_
    rw [View.canon_unit_zero hz2]
    simp only [View.readAt_eq_ld, View.ld_unit_zero (S := S2000x128) hz2, View.ld_unit_zero (S := S1x128) hz2, View.ld_unit_zero (S := S2000x1) hz2, View.ld_unit_zero (S := S1000x1) hz2, View.ld_unit_zero (S := S128x10) hz2, View.ld_unit_zero (S := S1x10) hz2, View.ld_unit_zero (S := S1000x128) hz2, View.ld_unit_zero (S := S1000x10) hz2, View.readCov_unit_zero (S := S1000x128) _ hz2]
  iexists _; isplitr
  swap; · iexact HS
  ipureintro
  sl_unfold_run_names
  refine (View.read_writes_eq_canon _ _ _ (fun y => ⟨_, List.mem_cons_self, View.mem_set_unit_zero hz2 inb_S1000x128_S1000x128_0_0 y⟩)).trans ?_
  rw [View.canon_unit_zero hz2]
  simp only [View.readAt_eq_ld, View.ld_unit_zero (S := S2000x128) hz2, View.ld_unit_zero (S := S1x128) hz2, View.ld_unit_zero (S := S2000x1) hz2, View.ld_unit_zero (S := S1000x1) hz2, View.ld_unit_zero (S := S128x10) hz2, View.ld_unit_zero (S := S1x10) hz2, View.ld_unit_zero (S := S1000x128) hz2, View.ld_unit_zero (S := S1000x10) hz2]

/-! ## The inputs' buffers hold their blocks -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl
theorem liveAt3_6 : ∀ t : Fin cfg3.N, cfg3.idle 6 (grid3.coords t) = false := fun _ => rfl

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The accumulator, point by point -/

/-- At the first point the accumulator is this point's sums over zeros. -/
theorem acc3_first (c : Dev nD) (t : Fin cfg3.N) (hz : t.val = 0) :
    acc3 V c t.val t.isLt = k3_pay2 (iblk3 V c 2 t) (iblk3 V c 0 t) (iblk3 V c 1 t) (iblk3 V c 3 t) (k3_pay1 (F := F)) := by
  obtain ⟨n, hn⟩ := t
  cases n with
  | zero => rfl
  | succ n => exact absurd hz (Nat.succ_ne_zero n)

/-- At a later point it is this point's sums over what the point before left. -/
theorem acc3_pos (c : Dev nD) (t : Fin cfg3.N) (hz : t.val ≠ 0) :
    acc3 V c t.val t.isLt = k3_pay2 (iblk3 V c 2 t) (iblk3 V c 0 t) (iblk3 V c 1 t) (iblk3 V c 3 t)
      (acc3 V c (t.val - 1) (Nat.lt_of_le_of_lt (Nat.sub_le _ _) t.isLt)) := by
  obtain ⟨n, hn⟩ := t
  cases n with
  | zero => exact absurd rfl hz
  | succ n => rfl

/-! ## The invariant -/

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn) ∗ others3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega)) ∗ others3 c) ∗ (∃ r, prngReg c r)) := by
  cases n with
  | zero => exact absurd rfl hz
  | succ n => rfl

/-- The class's invariant with the accumulator taken out of the scoped rest, as a memref owned at some contents. -/
theorem PhiA3_eq (c : Dev nD) :
    (Pipeline.ΦA spec3 c : sProp 𝕄)
      = iprop(iprop((∃ d, owns (c : Thread nD τ) scM3 fullShare d) ∗ others3 c) ∗ (∃ r, prngReg c r)) := by
  unfold Pipeline.ΦA
  rw [Pipeline.scopedRest_split_of_list spec3 c [cc3_scratch0] (by decide) (by decide)]
  simp only [Idealize.SL.BI.bigSepL_singleton, scM3, owns_whole]; try rfl

theorem PhiS3_castSucc (c : Dev nD) (t : Fin cfg3.N) :
    (dat3 V c).Φ t.castSucc = PhiS3 V c t.val (Nat.le_of_lt t.isLt) := by
  dsimp only [dat3]; simp only [Fin.coe_castSucc]

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in
/-- The body at any point. The inputs' buffers hold their blocks; the point is the first, the last or one between
    (the conditions' closed forms), and that case's triple applies: the invariant hands the body the accumulator (at
    anything at the first point, else at what the point before left) and takes it back at this point's sums; the
    output block's buffer comes back as found except at the last point, where it holds the head's result. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  rw [show (dat3 V c).leavesExact 5 t = owns (c : Thread nD τ) (st3_5 t) fullShare ((dat3 V c).after 5 t) from by
    unfold Dat.leavesExact; rw [liveAt3_5 t], after3_5]
  rw [show (dat3 V c).leavesExact 6 t = owns (c : Thread nD τ) (st3_6 t) fullShare ((dat3 V c).after 6 t) from by
    unfold Dat.leavesExact; rw [liveAt3_6 t], after3_6]
  have hN : t.val < 50 := lt_of_lt_of_eq t.isLt (show cfg3.N = 50 from N_3)
  by_cases h0 : t.val = 0
  · have h1 : ¬t.val = 49 := by omega
    rw [Dat.leavesExact_idle (dat3 V c) 7 t (idleAt3_7 t (fun h => h1 ((hcond3_1 t).mp h))) (noFlush3_7 t (fun h => h1 ((hcond3_1 t).mp h)))]
    rw [acc3_first V c t h0]
    rw [PhiS3_castSucc V c t, PhiS3_zero V c _ _ h0, PhiA3_eq]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel3_A c Set.univ (grid3.coords t) _ _ _ _ _ _ _ _ _ _ _ _ _ _ _ _ _ _ ((hcond3_0 t).mpr h0) (fun h => h1 ((hcond3_1 t).mp h))
      (iblk3 V c 0 t) (iblk3 V c 1 t) (iblk3 V c 2 t) (iblk3 V c 3 t) (iblk3 V c 4 t) (iblk3 V c 5 t) (iblk3 V c 6 t) ((dat3 V c).before 7 t d7) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7
  · by_cases h1 : t.val = 49
    · rw [show (dat3 V c).leavesExact 7 t = owns (c : Thread nD τ) (st3_7 t) fullShare ((dat3 V c).after 7 t) from by
        unfold Dat.leavesExact; rw [liveAt3_7 t ((hcond3_1 t).mpr h1)], after3_7]
      unfold out3_7
      rw [acc3_pos V c t h0]
      rw [PhiS3_castSucc V c t, PhiS3_pos V c _ _ h0]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3_C c Set.univ (grid3.coords t) _ _ _ _ _ _ _ _ _ _ _ _ _ _ _ _ _ _ (fun h => h0 ((hcond3_0 t).mp h)) ((hcond3_1 t).mpr h1)
        (iblk3 V c 0 t) (iblk3 V c 1 t) (iblk3 V c 2 t) (iblk3 V c 3 t) (iblk3 V c 4 t) (iblk3 V c 5 t) (iblk3 V c 6 t) (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    ·
      rw [Dat.leavesExact_idle (dat3 V c) 7 t (idleAt3_7 t (fun h => h1 ((hcond3_1 t).mp h))) (noFlush3_7 t (fun h => h1 ((hcond3_1 t).mp h)))]
      rw [acc3_pos V c t h0]
      rw [PhiS3_castSucc V c t, PhiS3_pos V c _ _ h0]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3_B c Set.univ (grid3.coords t) _ _ _ _ _ _ _ _ _ _ _ _ _ _ _ _ _ _ (fun h => h0 ((hcond3_0 t).mp h)) (fun h => h1 ((hcond3_1 t).mp h))
        (iblk3 V c 0 t) (iblk3 V c 1 t) (iblk3 V c 2 t) (iblk3 V c 3 t) (iblk3 V c 4 t) (iblk3 V c 5 t) (iblk3 V c 6 t) ((dat3 V c).before 7 t d7) (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulator's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, Hr⟩, Hg⟩
  isplitl [HS Hr]
  · isplitl [HS]
    · iexists _; iexact HS
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 50 := N_3; omega)

end Region3

end Cert.KernelIdeal.Fr

end
-- ==== Proof.FrRun.lean ====
/-
  The run of the kernel program's @main: four pipelined regions among stretches of host operations.

  The contents of the TensorCore's buffers are followed through @main as a fold from the launch memory: a stretch of host
  operations applies its operations' results; a region replaces its output window's array by what the write-backs of its fifty
  grid points leave and keeps every other buffer. Each region's proof data are stated at the contents the region is entered
  with. The launch over these segments ends with every unscoped buffer at the fold's last stage, from which the result
  array and the eleven argument arrays are read.
-/
import proofs.«404431_j37108517437514_3_alg».proof.Proof.FrA0
import proofs.«404431_j37108517437514_3_alg».proof.Proof.FrA1
import proofs.«404431_j37108517437514_3_alg».proof.Proof.FrA2
import proofs.«404431_j37108517437514_3_alg».proof.Proof.FrR3
import proofs.«404431_j37108517437514_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of @main -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c r = W0 m ρ c r :=
  StableHlo.after_of_writes_sub hostOps0 _ hostOps0_writes h

/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
theorem W2_of (c : Dev nD) (r : Ref sig .tc) (h : r ∉ hostOps0_1_W) : W2 m ρ c r = W1 m ρ c r :=
  StableHlo.after_of_writes_sub hostOps0_1 _ hostOps0_1_writes h

/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_of (c : Dev nD) (r : Ref sig .tc) (h : r ∉ hostOps0_2_W) : W3 m ρ c r = W2 m ρ c r :=
  StableHlo.after_of_writes_sub hostOps0_2 _ hostOps0_2_writes h

/-- At region 0's exit: its windows' arrays at what the pipeline leaves (an input as entered, the output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- An input window's array leaves region 0 as it entered. -/
theorem W4_in (c : Dev nD) (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hw _).trans (A_eq0 (V3 m ρ) c w))

/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
theorem W5_of (c : Dev nD) (r : Ref sig .tc) (h : r ∉ hostOps1_W) : W5 m ρ c r = W4 m ρ c r :=
  StableHlo.after_of_writes_sub hostOps1 _ hostOps1_writes h

/-- At region 1's exit: its windows' arrays at what the pipeline leaves (an input as entered, the output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- An input window's array leaves region 1 as it entered. -/
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))

/-- After the host stretch `hostOps2`. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
theorem W7_of (c : Dev nD) (r : Ref sig .tc) (h : r ∉ hostOps2_W) : W7 m ρ c r = W6 m ρ c r :=
  StableHlo.after_of_writes_sub hostOps2 _ hostOps2_writes h

/-- At region 2's exit: its windows' arrays at what the pipeline leaves (an input as entered, the output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- An input window's array leaves region 2 as it entered. -/
theorem W8_in (c : Dev nD) (w : Fin cfg2.W) (hw : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hw _).trans (A_eq2 (V7 m ρ) c w))

/-- After the host stretch `hostOps3`. -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
theorem W9_of (c : Dev nD) (r : Ref sig .tc) (h : r ∉ hostOps3_W) : W9 m ρ c r = W8 m ρ c r :=
  StableHlo.after_of_writes_sub hostOps3 _ hostOps3_writes h

/-- At region 3's exit: its windows' arrays at what the pipeline leaves (an input as entered, the output's write-backs
    folded), every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- The same read at the TensorCore's references. -/
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)
/-- An input window's array leaves region 3 as it entered. -/
theorem W10_in (c : Dev nD) (w : Fin cfg3.W) (hw : (cfg3.win w).isOut = false) :
    W10 m ρ c (Proc.devRef .tc (Pipeline.arrRef spec3 w)) = W9 m ρ c (Proc.devRef .tc (Pipeline.arrRef spec3 w)) :=
  (W10_arr m ρ c w).trans (((dat3 (V9 m ρ) c).arrAt_in w hw _).trans (A_eq3 (V9 m ρ) c w))

/-! ## A buffer no item writes keeps its launch contents -/

/-- Region 0 changes its output array only. -/
theorem W4_keep (c : Dev nD) (r : Ref sig .tc) (ho : r ≠ main_v19) : W4 m ρ c r = W3 m ρ c r := by
  by_cases h : ∃ w, Pipeline.arrRef spec0 w = r
  · obtain ⟨w, rfl⟩ := h
    exact W4_in m ρ c w (by
      match w with
      | 0 => rfl
      | 1 => rfl
      | 2 => rfl
      | 3 => exact absurd rfl ho)
  · exact W4_of_ne m ρ c r fun w e => h ⟨w, e⟩
/-- Region 1 changes its output array only. -/
theorem W6_keep (c : Dev nD) (r : Ref sig .tc) (ho : r ≠ main_v32) : W6 m ρ c r = W5 m ρ c r := by
  by_cases h : ∃ w, Pipeline.arrRef spec1 w = r
  · obtain ⟨w, rfl⟩ := h
    exact W6_in m ρ c w (by
      match w with
      | 0 => rfl
      | 1 => rfl
      | 2 => rfl
      | 3 => rfl
      | 4 => exact absurd rfl ho)
  · exact W6_of_ne m ρ c r fun w e => h ⟨w, e⟩
/-- Region 2 changes its output array only. -/
theorem W8_keep (c : Dev nD) (r : Ref sig .tc) (ho : r ≠ main_v45) : W8 m ρ c r = W7 m ρ c r := by
  by_cases h : ∃ w, Pipeline.arrRef spec2 w = r
  · obtain ⟨w, rfl⟩ := h
    exact W8_in m ρ c w (by
      match w with
      | 0 => rfl
      | 1 => rfl
      | 2 => rfl
      | 3 => rfl
      | 4 => exact absurd rfl ho)
  · exact W8_of_ne m ρ c r fun w e => h ⟨w, e⟩
/-- Region 3 changes its output array only. -/
theorem W10_keepR (c : Dev nD) (r : Ref sig .tc) (ho : r ≠ main_v64) : W10 m ρ c r = W9 m ρ c r := by
  by_cases h : ∃ w, Pipeline.arrRef spec3 w = r
  · obtain ⟨w, rfl⟩ := h
    exact W10_in m ρ c w (by
      match w with
      | 0 => rfl
      | 1 => rfl
      | 2 => rfl
      | 3 => rfl
      | 4 => rfl
      | 5 => rfl
      | 6 => rfl
      | 7 => exact absurd rfl ho)
  · exact W10_of_ne m ρ c r fun w e => h ⟨w, e⟩

/-- A reference that is no region's output and that no host stretch writes holds at the end what it held at launch. -/
theorem W10_launch (c : Dev nD) (r : Ref sig .tc)
    (h0 : r ∉ hostOps0_W) (h1 : r ∉ hostOps0_1_W) (h2 : r ∉ hostOps0_2_W) (h3 : r ∉ hostOps1_W) (h4 : r ∉ hostOps2_W) (h5 : r ∉ hostOps3_W)
    (ho0 : r ≠ main_v19) (ho1 : r ≠ main_v32) (ho2 : r ≠ main_v45) (ho3 : r ≠ main_v64) :
    W10 m ρ c r = m ((c : Thread nD τ).loc r) :=
  (W10_keepR m ρ c r ho3).trans <| (W9_of m ρ c r h5).trans <| (W8_keep m ρ c r ho2).trans <| (W7_of m ρ c r h4).trans <|
    (W6_keep m ρ c r ho1).trans <| (W5_of m ρ c r h3).trans <| (W4_keep m ρ c r ho0).trans <| (W3_of m ρ c r h2).trans <|
    (W2_of m ρ c r h1).trans <| (W1_of m ρ c r h0)

/-- The result array at the end is what region 3's write-backs leave. -/
theorem W10_result (c : Dev nD) : W10 m ρ c (Proc.devRef .tc main_v64) = (dat3 (V9 m ρ) c).arrAt 7 cfg3.N :=
  W10_arr m ρ c 7

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered with every unscoped buffer at `W3`, left with them at `W4`. Its windows'
    arrays are split out of the unscoped buffers and put back at what the write-backs leave; the generator register goes
    into the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. Its windows'
    arrays are split out of the unscoped buffers and put back at what the write-backs leave; the generator register goes
    into the region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left with them at `W8`. Its windows'
    arrays are split out of the unscoped buffers and put back at what the write-backs leave; the generator register goes
    into the region's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W9`, left with them at `W10`. Its windows'
    arrays are split out of the unscoped buffers and put back at what the write-backs leave; the generator register goes
    into the region's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V9 m ρ) c); unfold Pipeline.ΦA
    iintro ⟨Hp, -, Hr⟩
    isplitl [Hr]; · iexact Hr
    iexact Hp
  hout c := by
    rw [Pipeline.ownSems0_none]; refine (hout3 (V9 m ρ) c).trans ?_; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ) ]
/-- @main is the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates, nothing
    faulting, and every final state holds every unscoped buffer of every core at the fold's last stage `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The frame: every argument array ends as launched, and the result array ends at what region 3's write-backs leave. -/
theorem run_main : θ_run defs (onTc (τ := τ) (main (F := F))) ⟨m, fun _ => 0, ρ⟩ (fun r => ∀ c : Dev nD,
      r.2.mem ((c.tc : Thread nD τ).loc main_v64) = (dat3 (V9 m ρ) c).arrAt 7 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v64 (by decide))).trans (W10_result m ρ c),
      (h c _ (mem_uc main_arg0 (by decide))).trans (W10_launch m ρ c main_arg0 (by decide) (by decide) (by decide) (by decide) (by decide) (by decide) (by decide) (by decide) (by decide) (by decide)),
      (h c _ (mem_uc main_arg1 (by decide))).trans (W10_launch m ρ c main_arg1 (by decide) (by decide) (by decide) (by decide) (by decide) (by decide) (by decide) (by decide) (by decide) (by decide)),
      (h c _ (mem_uc main_arg2 (by decide))).trans (W10_launch m ρ c main_arg2 (by decide) (by decide) (by decide) (by decide) (by decide) (by decide) (by decide) (by decide) (by decide) (by decide)),
      (h c _ (mem_uc main_arg3 (by decide))).trans (W10_launch m ρ c main_arg3 (by decide) (by decide) (by decide) (by decide) (by decide) (by decide) (by decide) (by decide) (by decide) (by decide)),
      (h c _ (mem_uc main_arg4 (by decide))).trans (W10_launch m ρ c main_arg4 (by decide) (by decide) (by decide) (by decide) (by decide) (by decide) (by decide) (by decide) (by decide) (by decide)),
      (h c _ (mem_uc main_arg5 (by decide))).trans (W10_launch m ρ c main_arg5 (by decide) (by decide) (by decide) (by decide) (by decide) (by decide) (by decide) (by decide) (by decide) (by decide)),
      (h c _ (mem_uc main_arg6 (by decide))).trans (W10_launch m ρ c main_arg6 (by decide) (by decide) (by decide) (by decide) (by decide) (by decide) (by decide) (by decide) (by decide) (by decide)),
      (h c _ (mem_uc main_arg7 (by decide))).trans (W10_launch m ρ c main_arg7 (by decide) (by decide) (by decide) (by decide) (by decide) (by decide) (by decide) (by decide) (by decide) (by decide)),
      (h c _ (mem_uc main_arg8 (by decide))).trans (W10_launch m ρ c main_arg8 (by decide) (by decide) (by decide) (by decide) (by decide) (by decide) (by decide) (by decide) (by decide) (by decide)),
      (h c _ (mem_uc main_arg9 (by decide))).trans (W10_launch m ρ c main_arg9 (by decide) (by decide) (by decide) (by decide) (by decide) (by decide) (by decide) (by decide) (by decide) (by decide)),
      (h c _ (mem_uc main_arg10 (by decide))).trans (W10_launch m ρ c main_arg10 (by decide) (by decide) (by decide) (by decide) (by decide) (by decide) (by decide) (by decide) (by decide) (by decide))⟩)
    (run_all m ρ)

end Cert.KernelIdeal.Fr

end
-- ==== Proof.FrA0K.lean ====
/- REGION 0 of @main, the first matmul call (`cc0__matmul_prescale_kernel`, pipeline 0), stated at a PARAMETER `V`: the
   TensorCore's buffer contents when the region is entered. One grid point handles a tile of 2000 rows of the node
   features: it reads the tile `x` (2000 x 64), the whole first weight matrix `W1` (64 x 128) and the tile's column of
   per-node factors (2000 x 1), and writes the 2000 x 128 tile of `bf16( (bf16 x · bf16 W1) * factor )` — a matrix
   product accumulated in f32 from bf16 operands, each row scaled by its node's factor, rounded to bf16 — over the
   whole output staging buffer in one store. Nothing is carried from one point to the next, so what the body leaves
   in the output buffer is a closed function of the three input blocks at the point (`out0_3`).

   Here: each window's block at a point (`iblk0`), what the body finds in the input buffers (`before0_W`), the body's
   triple (`sound_kernel0`), the pipeline's proof data (`dat0`) and the body obligation (`body_obligation0`). -/
import proofs.«404431_j37108517437514_3_alg».proof.Proof.Gen.Kernel.Launch
import proofs.«404431_j37108517437514_3_alg».proof.Proof.Gen.Kernel.Skeleton
import proofs.«404431_j37108517437514_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator's structural look recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`): for the feature tile, the factor
    column and the output, rows `2000 t … 2000 t + 1999` of the array; for the weight matrix, all of it at every point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the feature tile)'s current staging buffer holds its block at every point, for ANY proof data whose array is `V`'s (`hA`) and whose body leaves the block in place (`hafter`): where the
    pipeline does not fetch the window its block index has not moved, so the buffer still holds this point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, fetched at the first point only)'s staging buffer holds the matrix at every point, for ANY proof data whose array is `V`'s (`hA`) and whose body leaves the block in place (`hafter`): where the
    pipeline does not fetch the window its block index has not moved, so the buffer still holds this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the factor column)'s current staging buffer holds its block at every point, for ANY proof data whose array is `V`'s (`hA`) and whose body leaves the block in place (`hafter`): where the
    pipeline does not fetch the window its block index has not moved, so the buffer still holds this point's block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, through one rectangle -/

abbrev r0_0 : Rect S2000x64 := Rect.unit (s := S2000x64) ![0, 0] S2000x64.size inb_S2000x64_S2000x64_0_0
abbrev r0_1 : Rect S64x128 := Rect.unit (s := S64x128) ![0, 0] S64x128.size inb_S64x128_S64x128_0_0
abbrev r0_2 : Rect S2000x1 := Rect.unit (s := S2000x1) ![0, 0] S2000x1.size inb_S2000x1_S2000x1_0_0
abbrev r0_3 : Rect S2000x128 := Rect.unit (s := S2000x128) ![0, 0] S2000x128.size inb_S2000x128_S2000x128_0_0

/-! ## What the body leaves in the output window's buffer -/

/-- The output staging buffer after the body, from the three input blocks: its one store, over the whole buffer, of
    the scaled product of the tile `x0` with the weights `x1`, rows scaled by `x2`. -/
def out0_3 (x0 : Vec F S2000x64 .f32) (x1 : Vec F S64x128 .f32) (x2 : Vec F S2000x1 .f32) : Vec F S2000x128 .bf16 :=
  View.canon [⟨r0_3, k0_pay1 (View.ld x0 r0_0) (View.ld x1 r0_1) (View.ld x2 r0_2)⟩]

/-- The one store's rectangle is the whole buffer, so it covers it. -/
theorem cover0_3 (p0 : Vec F S2000x128 .bf16) (y : S2000x128.Idx) :
    ∃ pc ∈ ([⟨r0_3, p0⟩] : List (View.Piece (Elt F) S2000x128 .bf16)), y ∈ pc.1.set :=
  View.cover_of_tiled [⟨r0_3, p0⟩] S2000x128.size (by rfl) y

/-! ## The body's triple -/

set_option maxHeartbeats 1000000 in
/-- The kernel body on whole staging memrefs, the three inputs' at read contents `x0 x1 x2` and the output's at anything,
    runs to the continuation holding the inputs' as they were and the output's at `out0_3 x0 x1 x2`. The body also loads
    the output buffer before storing over it; the value loaded is not used. -/
theorem sound_kernel0 (c : Dev nD) (E : Set ℕ) (i : grid0.Coords)
    (arg1 : Memref sig .tc .vmem S2000x64 .f32) (harg1 : arg1.IsWhole) (arg2 : Memref sig .tc .vmem S64x128 .f32) (harg2 : arg2.IsWhole)
    (arg3 : Memref sig .tc .vmem S2000x1 .f32) (harg3 : arg3.IsWhole) (arg4 : Memref sig .tc .vmem S2000x128 .bf16) (harg4 : arg4.IsWhole)
    (x0 : Vec F S2000x64 .f32) (x1 : Vec F S64x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_prescale_kernel i arg1 harg1 arg2 harg2 arg3 harg3 arg4 harg4) K := by
  simp only [cc0__matmul_prescale_kernel_eq_skeleton]; unfold cc0__matmul_prescale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the three input blocks; the invariant keeps the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's debts, and the four current staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the invariant
    and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Fr

end
-- ==== Proof.FrA1K.lean ====
/- REGION 1 of @main (custom_call 1, `cc1__bias_relu_matmul_prescale_kernel`, pipeline 1) at a PARAMETER `V` — the
   TensorCore's buffer contents when the region is entered. The kernel, at each of the grid's 50 points, takes a tile of
   2000 rows of the aggregate (window 0, [2000,128] f32), the bias row (window 1, [1,128] f32, whole), the weight matrix
   (window 2, [128,128] f32, whole) and the same 2000 rows of the per-node factor (window 3, [2000,1] f32); it scales the
   tile's rows by the factor, adds the bias, clamps at zero, rounds to bf16, multiplies by the rounded weights, scales the
   rows by the factor again, and stores the result rounded to bf16 over the whole output tile (window 4, [2000,128] bf16).
   Here: each window's block at a point (`iblk1`), the output tile after the body as a function of the four input blocks
   (`out1_4`), the body's triple (`sound_kernel1`), the pipeline's proof data (`dat1`) and the body obligation
   (`body_obligation1`). -/
import proofs.«404431_j37108517437514_3_alg».proof.Proof.Gen.Kernel.Launch
import proofs.«404431_j37108517437514_3_alg».proof.Proof.Gen.Kernel.Skeleton
import proofs.«404431_j37108517437514_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator's structural look recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter this region's half is stated at
variable (V : (c : Dev nD) → (b : Ref sig .tc) → Buf (Elt F) ((c : Thread nD τ).loc b))

/-! # REGION 1 of @main: custom_call 1, `cc1__bias_relu_matmul_prescale_kernel` (pipeline 1), at the entry contents `V` -/

/-! ## The windows' blocks -/

/-- Window `w`'s block at point `t`, read off its array as the region finds it (`V`): for windows 0, 3 and 4 the
    2000 rows numbered `2000·t …` of the array, for windows 1 and 2 the whole array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's (the aggregate's tile) current staging buffer holds its block at every point, fetched there or not, for ANY
    proof data whose array is `V`'s (`hA`) and whose body leaves the block in place (`hafter`): where the pipeline does not
    fetch, the block index has not moved since the last fetch. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's (the bias row) current staging buffer holds its block at every point, fetched there or not, for ANY
    proof data whose array is `V`'s (`hA`) and whose body leaves the block in place (`hafter`): where the pipeline does not
    fetch, the block index has not moved since the last fetch. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's (the weight matrix) current staging buffer holds its block at every point, fetched there or not, for ANY
    proof data whose array is `V`'s (`hA`) and whose body leaves the block in place (`hafter`): where the pipeline does not
    fetch, the block index has not moved since the last fetch. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's (the factor's tile) current staging buffer holds its block at every point, fetched there or not, for ANY
    proof data whose array is `V`'s (`hA`) and whose body leaves the block in place (`hafter`): where the pipeline does not
    fetch, the block index has not moved since the last fetch. The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole staging buffer -/

abbrev r1_0 : Rect S2000x1 := Rect.unit (s := S2000x1) ![0, 0] S2000x1.size inb_S2000x1_S2000x1_0_0
abbrev r1_1 : Rect S2000x128 := Rect.unit (s := S2000x128) ![0, 0] S2000x128.size inb_S2000x128_S2000x128_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0

/-! ## What the body leaves in the output window's buffer -/

/-- Window 4's staging buffer after the body, from the input windows' blocks (`x0` the aggregate's tile, `x1` the bias
    row, `x2` the weights, `x3` the factor's tile): its one store, over the whole buffer, of the skeleton's payload — which
    takes the factor first, then the tile, the bias, the weights. -/
def out1_4 (x0 : Vec F S2000x128 .f32) (x1 : Vec F S1x128 .f32) (x2 : Vec F S128x128 .f32) (x3 : Vec F S2000x1 .f32) : Vec F S2000x128 .bf16 :=
  View.canon [⟨r1_1, k1_pay1 (View.ld x3 r1_0) (View.ld x0 r1_1) (View.ld x1 r1_2) (View.ld x2 r1_3)⟩]

/-- The one store takes the whole buffer (checked by evaluation), so it covers it. -/
theorem cover1_4 (p0 : Vec F S2000x128 .bf16) (y : S2000x128.Idx) :
    ∃ pc ∈ ([⟨r1_1, p0⟩] : List (View.Piece (Elt F) S2000x128 .bf16)), y ∈ pc.1.set :=
  View.cover_of_tiled [⟨r1_1, p0⟩] S2000x128.size (by rfl) y

/-! ## The body's triple -/

set_option maxHeartbeats 1000000 in
/-- The kernel body on whole staging memrefs, the four inputs' at read contents `x0 … x3` and the output's at anything,
    runs to the continuation holding the inputs' as they were and the output's at `out1_4` of the inputs': the printed
    function is its skeleton — four loads of the inputs, a load of the output buffer that nothing reads, one store. -/
theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S128x128 .f32) (harg3 : arg3.IsWhole) (arg4 : Memref sig .tc .vmem S2000x1 .f32) (harg4 : arg4.IsWhole)
    (arg5 : Memref sig .tc .vmem S2000x128 .bf16) (harg5 : arg5.IsWhole)
    (x0 : Vec F S2000x128 .f32) (x1 : Vec F S1x128 .f32) (x2 : Vec F S128x128 .f32) (x3 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__bias_relu_matmul_prescale_kernel i arg1 harg1 arg2 harg2 arg3 harg3 arg4 harg4 arg5 harg5) K := by
  simp only [cc1__bias_relu_matmul_prescale_kernel_eq_skeleton]; unfold cc1__bias_relu_matmul_prescale_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point `t`
    each input's buffer at its block and the output's at `out1_4` of the four input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Fr

end
-- ==== Proof.FrA2K.lean ====
/- REGION 2 of @main (custom_call 2, `cc2__bias_relu_matmul_prescale_kernel`, pipeline 2) at a PARAMETER `V` — the
   TensorCore's buffer contents when the region is entered. The kernel, at each of the grid's 50 points, takes a tile of
   2000 rows of the aggregate (window 0, [2000,128] f32), the bias row (window 1, [1,128] f32, whole), the weight matrix
   (window 2, [128,128] f32, whole) and the same 2000 rows of the per-node factor (window 3, [2000,1] f32); it scales the
   tile's rows by the factor, adds the bias, clamps at zero, rounds to bf16, multiplies by the rounded weights, scales the
   rows by the factor again, and stores the result rounded to bf16 over the whole output tile (window 4, [2000,128] bf16).
   Here: each window's block at a point (`iblk2`), the output tile after the body as a function of the four input blocks
   (`out2_4`), the body's triple (`sound_kernel2`), the pipeline's proof data (`dat2`) and the body obligation
   (`body_obligation2`). -/
import proofs.«404431_j37108517437514_3_alg».proof.Proof.Gen.Kernel.Launch
import proofs.«404431_j37108517437514_3_alg».proof.Proof.Gen.Kernel.Skeleton
import proofs.«404431_j37108517437514_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator's structural look recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter this region's half is stated at
variable (V : (c : Dev nD) → (b : Ref sig .tc) → Buf (Elt F) ((c : Thread nD τ).loc b))

/-! # REGION 2 of @main: custom_call 2, `cc2__bias_relu_matmul_prescale_kernel` (pipeline 2), at the entry contents `V` -/

/-! ## The windows' blocks -/

/-- Window `w`'s block at point `t`, read off its array as the region finds it (`V`): for windows 0, 3 and 4 the
    2000 rows numbered `2000·t …` of the array, for windows 1 and 2 the whole array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's (the aggregate's tile) current staging buffer holds its block at every point, fetched there or not, for ANY
    proof data whose array is `V`'s (`hA`) and whose body leaves the block in place (`hafter`): where the pipeline does not
    fetch, the block index has not moved since the last fetch. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's (the bias row) current staging buffer holds its block at every point, fetched there or not, for ANY
    proof data whose array is `V`'s (`hA`) and whose body leaves the block in place (`hafter`): where the pipeline does not
    fetch, the block index has not moved since the last fetch. The window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's (the weight matrix) current staging buffer holds its block at every point, fetched there or not, for ANY
    proof data whose array is `V`'s (`hA`) and whose body leaves the block in place (`hafter`): where the pipeline does not
    fetch, the block index has not moved since the last fetch. The window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's (the factor's tile) current staging buffer holds its block at every point, fetched there or not, for ANY
    proof data whose array is `V`'s (`hA`) and whose body leaves the block in place (`hafter`): where the pipeline does not
    fetch, the block index has not moved since the last fetch. The window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole staging buffer -/

abbrev r2_0 : Rect S2000x1 := Rect.unit (s := S2000x1) ![0, 0] S2000x1.size inb_S2000x1_S2000x1_0_0
abbrev r2_1 : Rect S2000x128 := Rect.unit (s := S2000x128) ![0, 0] S2000x128.size inb_S2000x128_S2000x128_0_0
abbrev r2_2 : Rect S1x128 := Rect.unit (s := S1x128) ![0, 0] S1x128.size inb_S1x128_S1x128_0_0
abbrev r2_3 : Rect S128x128 := Rect.unit (s := S128x128) ![0, 0] S128x128.size inb_S128x128_S128x128_0_0

/-! ## What the body leaves in the output window's buffer -/

/-- Window 4's staging buffer after the body, from the input windows' blocks (`x0` the aggregate's tile, `x1` the bias
    row, `x2` the weights, `x3` the factor's tile): its one store, over the whole buffer, of the skeleton's payload — which
    takes the factor first, then the tile, the bias, the weights. -/
def out2_4 (x0 : Vec F S2000x128 .f32) (x1 : Vec F S1x128 .f32) (x2 : Vec F S128x128 .f32) (x3 : Vec F S2000x1 .f32) : Vec F S2000x128 .bf16 :=
  View.canon [⟨r2_1, k2_pay1 (View.ld x3 r2_0) (View.ld x0 r2_1) (View.ld x1 r2_2) (View.ld x2 r2_3)⟩]

/-- The one store takes the whole buffer (checked by evaluation), so it covers it. -/
theorem cover2_4 (p0 : Vec F S2000x128 .bf16) (y : S2000x128.Idx) :
    ∃ pc ∈ ([⟨r2_1, p0⟩] : List (View.Piece (Elt F) S2000x128 .bf16)), y ∈ pc.1.set :=
  View.cover_of_tiled [⟨r2_1, p0⟩] S2000x128.size (by rfl) y

/-! ## The body's triple -/

set_option maxHeartbeats 1000000 in
/-- The kernel body on whole staging memrefs, the four inputs' at read contents `x0 … x3` and the output's at anything,
    runs to the continuation holding the inputs' as they were and the output's at `out2_4` of the inputs': the printed
    function is its skeleton — four loads of the inputs, a load of the output buffer that nothing reads, one store. -/
theorem sound_kernel2 (c : Dev nD) (E : Set ℕ) (i : grid2.Coords)
    (arg1 : Memref sig .tc .vmem S2000x128 .f32) (harg1 : arg1.IsWhole) (arg2 : Memref sig .tc .vmem S1x128 .f32) (harg2 : arg2.IsWhole)
    (arg3 : Memref sig .tc .vmem S128x128 .f32) (harg3 : arg3.IsWhole) (arg4 : Memref sig .tc .vmem S2000x1 .f32) (harg4 : arg4.IsWhole)
    (arg5 : Memref sig .tc .vmem S2000x128 .bf16) (harg5 : arg5.IsWhole)
    (x0 : Vec F S2000x128 .f32) (x1 : Vec F S1x128 .f32) (x2 : Vec F S128x128 .f32) (x3 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__bias_relu_matmul_prescale_kernel i arg1 harg1 arg2 harg2 arg3 harg3 arg4 harg4 arg5 harg5) K := by
  simp only [cc2__bias_relu_matmul_prescale_kernel_eq_skeleton]; unfold cc2__bias_relu_matmul_prescale_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at point `t`
    each input's buffer at its block and the output's at `out2_4` of the four input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (the library's body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the invariant
    and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Fr

end
-- ==== Proof.FrR3K.lean ====
import proofs.«404431_j37108517437514_3_alg».proof.Proof.Gen.Kernel.Launch
import proofs.«404431_j37108517437514_3_alg».proof.Proof.Gen.Kernel.Skeleton
import proofs.«404431_j37108517437514_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The pooled accumulator after point `n`: the per-graph sums start from zeros at the first point, and every
    point adds its 2000 rows' contribution (the one-hot graph matrix transposed times the activated rows). -/
def acc3 (c : Dev nD) : (n : ℕ) → n < cfg3.N → Vec F S1000x128 .f32
  | 0, h => k3_pay2 (iblk3 V c 2 ⟨0, h⟩) (iblk3 V c 0 ⟨0, h⟩) (iblk3 V c 1 ⟨0, h⟩) (iblk3 V c 3 ⟨0, h⟩) (k3_pay1 (F := F))
  | n + 1, h => k3_pay2 (iblk3 V c 2 ⟨n + 1, h⟩) (iblk3 V c 0 ⟨n + 1, h⟩) (iblk3 V c 1 ⟨n + 1, h⟩) (iblk3 V c 3 ⟨n + 1, h⟩) (acc3 c n (Nat.lt_of_succ_lt h))

/-- What the last point stores into the output block: the accumulated sums divided by the clamped counts, through
    the head. At the other points nothing consults it (the window is idle there). -/
def out3_7 (c : Dev nD) (t : Fin cfg3.N) : Vec F S1000x10 .f32 :=
  k3_pay3 (iblk3 V c 4 t) (acc3 V c t.val t.isLt) (iblk3 V c 5 t) (iblk3 V c 6 t)

/-- The accumulator the kernel keeps between points, as a whole memref. -/
abbrev scM3 : Memref sig .tc .vmem S1000x128 .f32 := Memref.whole cc3_scratch0

/-- The region's scoped buffers other than the accumulator, at some contents each. -/
abbrev others3 (c : Dev nD) : sProp 𝕄 :=
  Pipeline.scopedRestBut (Ix := Unit) (Name := ℕ) (U := UR sig nD τ) (Lvl := ℕ) (Val := Elt F) spec3 c [cc3_scratch0]

/-- The invariant before position `n`: on entry the class's; afterwards the accumulator at what the point before
    left in it, the other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn) ∗ others3 c) ∗ (∃ r, prngReg c r))

/-- The proof data of the pooling pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 V c t := by dsimp only [dat3]

/-! ## The body's two conditions -/

/-- The first conditional (the accumulator is zeroed): the grid coordinate is 0. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)

/-- The second conditional (the output block is stored): the grid coordinate is 49. -/
abbrev cond3_1 (i : grid3.Coords) : Prop := k3_cond2 i = 1#1
theorem hcond3_1 : ∀ t : Fin cfg3.N, cond3_1 (grid3.coords t) ↔ t.val = 49 :=
  (by decide +kernel : ∀ t : Fin grid3.N, cond3_1 (grid3.coords t) ↔ t.val = 49)

theorem idleAt3_7 : ∀ t : Fin cfg3.N, ¬cond3_1 (grid3.coords t) → cfg3.idle 7 (grid3.coords t) = true := by decide +kernel
theorem noFlush3_7 : ∀ t : Fin cfg3.N, ¬cond3_1 (grid3.coords t) → (cfg3.win 7).flush t = false := by decide +kernel
theorem liveAt3_7 : ∀ t : Fin cfg3.N, cond3_1 (grid3.coords t) → cfg3.idle 7 (grid3.coords t) = false := by decide +kernel

/-- The offsets of every access of this body are zero. -/
theorem hz2 : (![0, 0] : Fin 2 → ℕ) = fun _ => 0 := by
  funext a; fin_cases a <;> rfl

/-! ## The body's triple, case by case

On whole staging memrefs, the inputs' at their contents, the body runs to the continuation holding the inputs' as
they were and the accumulator at this point's sums over what it held; the output block's buffer is stored only in
the last case. -/

set_option maxHeartbeats 1000000 in
/-- The first point: the accumulator, at anything, is zeroed and then receives the point's sums. -/
theorem sound_kernel3_A (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S2000x1 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S128x10 .f32) (harg6 : arg6.IsWhole) (arg7 : Memref sig .tc .vmem S1x10 .f32) (harg7 : arg7.IsWhole) (arg8 : Memref sig .tc .vmem S1000x10 .f32) (harg8 : arg8.IsWhole) (arg9 : Memref sig .tc .vmem S1000x128 .f32) (harg9 : arg9.IsWhole) (hc0 : cond3_0 i) (hc1 : ¬cond3_1 i)
    (x0 : Vec F S2000x128 .f32) (x1 : Vec F S1x128 .f32) (x2 : Vec F S2000x1 .f32) (x3 : Vec F S2000x1 .i32) (x4 : Vec F S1000x1 .f32) (x5 : Vec F S128x10 .f32) (x6 : Vec F S1x10 .f32) (x7 : Vec F S1000x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ owns (c : Thread nD τ) arg9 fullShare (k3_pay2 x2 x0 x1 x3 (k3_pay1 (F := F)))) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
  subst hf0; subst hf1; subst hf2; subst hf3; subst hf4; subst hf5; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HS
  ipureintro
  sl_unfold_run_names
  refine (View.read_writes_eq_canon _ _ _ (fun y => ⟨_, List.mem_cons_self, View.mem_set_unit_zero hz2 inb_S1000x128_S1000x128_0_0 y⟩)).trans ?_
  rw [View.canon_cons_unit_zero hz2]
  simp only [View.readAt_eq_ld, View.ld_unit_zero (S := S2000x128) hz2, View.ld_unit_zero (S := S1x128) hz2, View.ld_unit_zero (S := S2000x1) hz2, View.ld_unit_zero (S := S1000x1) hz2, View.ld_unit_zero (S := S128x10) hz2, View.ld_unit_zero (S := S1x10) hz2, View.ld_unit_zero (S := S1000x128) hz2, View.ld_unit_zero (S := S1000x10) hz2, View.readCov_unit_zero (S := S1000x128) _ hz2]

set_option maxHeartbeats 1000000 in
/-- A point strictly between the first and the last: the accumulator receives the point's sums. -/
theorem sound_kernel3_B (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S2000x1 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S128x10 .f32) (harg6 : arg6.IsWhole) (arg7 : Memref sig .tc .vmem S1x10 .f32) (harg7 : arg7.IsWhole) (arg8 : Memref sig .tc .vmem S1000x10 .f32) (harg8 : arg8.IsWhole) (arg9 : Memref sig .tc .vmem S1000x128 .f32) (harg9 : arg9.IsWhole) (hc0 : ¬cond3_0 i) (hc1 : ¬cond3_1 i)
    (x0 : Vec F S2000x128 .f32) (x1 : Vec F S1x128 .f32) (x2 : Vec F S2000x1 .f32) (x3 : Vec F S2000x1 .i32) (x4 : Vec F S1000x1 .f32) (x5 : Vec F S128x10 .f32) (x6 : Vec F S1x10 .f32) (x7 : Vec F S1000x10 .f32) (xs : Vec F S1000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ owns (c : Thread nD τ) arg9 fullShare (k3_pay2 x2 x0 x1 x3 xs)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HS
  ipureintro
  sl_unfold_run_names
  refine (View.read_writes_eq_canon _ _ _ (fun y => ⟨_, List.mem_cons_self, View.mem_set_unit_zero hz2 inb_S1000x128_S1000x128_0_0 y⟩)).trans ?_
  rw [View.canon_unit_zero hz2]
  simp only [View.readAt_eq_ld, View.ld_unit_zero (S := S2000x128) hz2, View.ld_unit_zero (S := S1x128) hz2, View.ld_unit_zero (S := S2000x1) hz2, View.ld_unit_zero (S := S1000x1) hz2, View.ld_unit_zero (S := S128x10) hz2, View.ld_unit_zero (S := S1x10) hz2, View.ld_unit_zero (S := S1000x128) hz2, View.ld_unit_zero (S := S1000x10) hz2]

set_option maxHeartbeats 1000000 in
/-- The last point: the accumulator receives the point's sums, and the output block is computed from it. -/
theorem sound_kernel3_C (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S2000x1 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S128x10 .f32) (harg6 : arg6.IsWhole) (arg7 : Memref sig .tc .vmem S1x10 .f32) (harg7 : arg7.IsWhole) (arg8 : Memref sig .tc .vmem S1000x10 .f32) (harg8 : arg8.IsWhole) (arg9 : Memref sig .tc .vmem S1000x128 .f32) (harg9 : arg9.IsWhole) (hc0 : ¬cond3_0 i) (hc1 : cond3_1 i)
    (x0 : Vec F S2000x128 .f32) (x1 : Vec F S1x128 .f32) (x2 : Vec F S2000x1 .f32) (x3 : Vec F S2000x1 .i32) (x4 : Vec F S1000x1 .f32) (x5 : Vec F S128x10 .f32) (x6 : Vec F S1x10 .f32) (xs : Vec F S1000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ (∃ d, owns (c : Thread nD τ) arg8 fullShare d)
        ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare (k3_pay3 x4 (k3_pay2 x2 x0 x1 x3 xs) x5 x6)
        ∗ owns (c : Thread nD τ) arg9 fullShare (k3_pay2 x2 x0 x1 x3 xs)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  subst hf0; subst hf1; subst hf2; subst hf3; subst hf4; subst hf5; subst hf6; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    refine (View.read_writes_eq_canon _ _ _ (fun y => ⟨_, List.mem_cons_self, View.mem_set_unit_zero hz2 inb_S1000x10_S1000x10_0_0 y⟩)).trans ?_
    rw [View.canon_unit_zero hz2]
    simp only [View.readAt_eq_ld, View.ld_unit_zero (S := S2000x128) hz2, View.ld_unit_zero (S := S1x128) hz2, View.ld_unit_zero (S := S2000x1) hz2, View.ld_unit_zero (S := S1000x1) hz2, View.ld_unit_zero (S := S128x10) hz2, View.ld_unit_zero (S := S1x10) hz2, View.ld_unit_zero (S := S1000x128) hz2, View.ld_unit_zero (S := S1000x10) hz2, View.readCov_unit_zero (S := S1000x128) _ hz2]
  iexists _; isplitr
  swap; · iexact HS
  ipureintro
  sl_unfold_run_names
  refine (View.read_writes_eq_canon _ _ _ (fun y => ⟨_, List.mem_cons_self, View.mem_set_unit_zero hz2 inb_S1000x128_S1000x128_0_0 y⟩)).trans ?_
  rw [View.canon_unit_zero hz2]
  simp only [View.readAt_eq_ld, View.ld_unit_zero (S := S2000x128) hz2, View.ld_unit_zero (S := S1x128) hz2, View.ld_unit_zero (S := S2000x1) hz2, View.ld_unit_zero (S := S1000x1) hz2, View.ld_unit_zero (S := S128x10) hz2, View.ld_unit_zero (S := S1x10) hz2, View.ld_unit_zero (S := S1000x128) hz2, View.ld_unit_zero (S := S1000x10) hz2]

/-! ## The inputs' buffers hold their blocks -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl
theorem liveAt3_6 : ∀ t : Fin cfg3.N, cfg3.idle 6 (grid3.coords t) = false := fun _ => rfl

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The accumulator, point by point -/

/-- At the first point the accumulator is this point's sums over zeros. -/
theorem acc3_first (c : Dev nD) (t : Fin cfg3.N) (hz : t.val = 0) :
    acc3 V c t.val t.isLt = k3_pay2 (iblk3 V c 2 t) (iblk3 V c 0 t) (iblk3 V c 1 t) (iblk3 V c 3 t) (k3_pay1 (F := F)) := by
  obtain ⟨n, hn⟩ := t
  cases n with
  | zero => rfl
  | succ n => exact absurd hz (Nat.succ_ne_zero n)

/-- At a later point it is this point's sums over what the point before left. -/
theorem acc3_pos (c : Dev nD) (t : Fin cfg3.N) (hz : t.val ≠ 0) :
    acc3 V c t.val t.isLt = k3_pay2 (iblk3 V c 2 t) (iblk3 V c 0 t) (iblk3 V c 1 t) (iblk3 V c 3 t)
      (acc3 V c (t.val - 1) (Nat.lt_of_le_of_lt (Nat.sub_le _ _) t.isLt)) := by
  obtain ⟨n, hn⟩ := t
  cases n with
  | zero => exact absurd rfl hz
  | succ n => rfl

/-! ## The invariant -/

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn) ∗ others3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega)) ∗ others3 c) ∗ (∃ r, prngReg c r)) := by
  cases n with
  | zero => exact absurd rfl hz
  | succ n => rfl

/-- The class's invariant with the accumulator taken out of the scoped rest, as a memref owned at some contents. -/
theorem PhiA3_eq (c : Dev nD) :
    (Pipeline.ΦA spec3 c : sProp 𝕄)
      = iprop(iprop((∃ d, owns (c : Thread nD τ) scM3 fullShare d) ∗ others3 c) ∗ (∃ r, prngReg c r)) := by
  unfold Pipeline.ΦA
  rw [Pipeline.scopedRest_split_of_list spec3 c [cc3_scratch0] (by decide) (by decide)]
  simp only [Idealize.SL.BI.bigSepL_singleton, scM3, owns_whole]; try rfl

theorem PhiS3_castSucc (c : Dev nD) (t : Fin cfg3.N) :
    (dat3 V c).Φ t.castSucc = PhiS3 V c t.val (Nat.le_of_lt t.isLt) := by
  dsimp only [dat3]; simp only [Fin.coe_castSucc]

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in
/-- The body at any point. The inputs' buffers hold their blocks; the point is the first, the last or one between
    (the conditions' closed forms), and that case's triple applies: the invariant hands the body the accumulator (at
    anything at the first point, else at what the point before left) and takes it back at this point's sums; the
    output block's buffer comes back as found except at the last point, where it holds the head's result. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  rw [show (dat3 V c).leavesExact 5 t = owns (c : Thread nD τ) (st3_5 t) fullShare ((dat3 V c).after 5 t) from by
    unfold Dat.leavesExact; rw [liveAt3_5 t], after3_5]
  rw [show (dat3 V c).leavesExact 6 t = owns (c : Thread nD τ) (st3_6 t) fullShare ((dat3 V c).after 6 t) from by
    unfold Dat.leavesExact; rw [liveAt3_6 t], after3_6]
  have hN : t.val < 50 := lt_of_lt_of_eq t.isLt (show cfg3.N = 50 from N_3)
  by_cases h0 : t.val = 0
  · have h1 : ¬t.val = 49 := by omega
    rw [Dat.leavesExact_idle (dat3 V c) 7 t (idleAt3_7 t (fun h => h1 ((hcond3_1 t).mp h))) (noFlush3_7 t (fun h => h1 ((hcond3_1 t).mp h)))]
    rw [acc3_first V c t h0]
    rw [PhiS3_castSucc V c t, PhiS3_zero V c _ _ h0, PhiA3_eq]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel3_A c Set.univ (grid3.coords t) _ _ _ _ _ _ _ _ _ _ _ _ _ _ _ _ _ _ ((hcond3_0 t).mpr h0) (fun h => h1 ((hcond3_1 t).mp h))
      (iblk3 V c 0 t) (iblk3 V c 1 t) (iblk3 V c 2 t) (iblk3 V c 3 t) (iblk3 V c 4 t) (iblk3 V c 5 t) (iblk3 V c 6 t) ((dat3 V c).before 7 t d7) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7
  · by_cases h1 : t.val = 49
    · rw [show (dat3 V c).leavesExact 7 t = owns (c : Thread nD τ) (st3_7 t) fullShare ((dat3 V c).after 7 t) from by
        unfold Dat.leavesExact; rw [liveAt3_7 t ((hcond3_1 t).mpr h1)], after3_7]
      unfold out3_7
      rw [acc3_pos V c t h0]
      rw [PhiS3_castSucc V c t, PhiS3_pos V c _ _ h0]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3_C c Set.univ (grid3.coords t) _ _ _ _ _ _ _ _ _ _ _ _ _ _ _ _ _ _ (fun h => h0 ((hcond3_0 t).mp h)) ((hcond3_1 t).mpr h1)
        (iblk3 V c 0 t) (iblk3 V c 1 t) (iblk3 V c 2 t) (iblk3 V c 3 t) (iblk3 V c 4 t) (iblk3 V c 5 t) (iblk3 V c 6 t) (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    ·
      rw [Dat.leavesExact_idle (dat3 V c) 7 t (idleAt3_7 t (fun h => h1 ((hcond3_1 t).mp h))) (noFlush3_7 t (fun h => h1 ((hcond3_1 t).mp h)))]
      rw [acc3_pos V c t h0]
      rw [PhiS3_castSucc V c t, PhiS3_pos V c _ _ h0]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3_B c Set.univ (grid3.coords t) _ _ _ _ _ _ _ _ _ _ _ _ _ _ _ _ _ _ (fun h => h0 ((hcond3_0 t).mp h)) (fun h => h1 ((hcond3_1 t).mp h))
        (iblk3 V c 0 t) (iblk3 V c 1 t) (iblk3 V c 2 t) (iblk3 V c 3 t) (iblk3 V c 4 t) (iblk3 V c 5 t) (iblk3 V c 6 t) ((dat3 V c).before 7 t d7) (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulator's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, Hr⟩, Hg⟩
  isplitl [HS Hr]
  · isplitl [HS]
    · iexists _; iexact HS
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 50 := N_3; omega)

end Region3

end Cert.Kernel.Fr

end
-- ==== Proof.FrRunK.lean ====
/-
  The run of the kernel program's @main: four pipelined regions among stretches of host operations.

  The contents of the TensorCore's buffers are followed through @main as a fold from the launch memory: a stretch of host
  operations applies its operations' results; a region replaces its output window's array by what the write-backs of its fifty
  grid points leave and keeps every other buffer. Each region's proof data are stated at the contents the region is entered
  with. The launch over these segments ends with every unscoped buffer at the fold's last stage, from which the result
  array and the eleven argument arrays are read.
-/
import proofs.«404431_j37108517437514_3_alg».proof.Proof.FrA0K
import proofs.«404431_j37108517437514_3_alg».proof.Proof.FrA1K
import proofs.«404431_j37108517437514_3_alg».proof.Proof.FrA2K
import proofs.«404431_j37108517437514_3_alg».proof.Proof.FrR3K
import proofs.«404431_j37108517437514_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of @main -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c r = W0 m ρ c r :=
  StableHlo.after_of_writes_sub hostOps0 _ hostOps0_writes h

/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
theorem W2_of (c : Dev nD) (r : Ref sig .tc) (h : r ∉ hostOps0_1_W) : W2 m ρ c r = W1 m ρ c r :=
  StableHlo.after_of_writes_sub hostOps0_1 _ hostOps0_1_writes h

/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_of (c : Dev nD) (r : Ref sig .tc) (h : r ∉ hostOps0_2_W) : W3 m ρ c r = W2 m ρ c r :=
  StableHlo.after_of_writes_sub hostOps0_2 _ hostOps0_2_writes h

/-- At region 0's exit: its windows' arrays at what the pipeline leaves (an input as entered, the output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- An input window's array leaves region 0 as it entered. -/
theorem W4_in (c : Dev nD) (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hw _).trans (A_eq0 (V3 m ρ) c w))

/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
theorem W5_of (c : Dev nD) (r : Ref sig .tc) (h : r ∉ hostOps1_W) : W5 m ρ c r = W4 m ρ c r :=
  StableHlo.after_of_writes_sub hostOps1 _ hostOps1_writes h

/-- At region 1's exit: its windows' arrays at what the pipeline leaves (an input as entered, the output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- An input window's array leaves region 1 as it entered. -/
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))

/-- After the host stretch `hostOps2`. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
theorem W7_of (c : Dev nD) (r : Ref sig .tc) (h : r ∉ hostOps2_W) : W7 m ρ c r = W6 m ρ c r :=
  StableHlo.after_of_writes_sub hostOps2 _ hostOps2_writes h

/-- At region 2's exit: its windows' arrays at what the pipeline leaves (an input as entered, the output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- An input window's array leaves region 2 as it entered. -/
theorem W8_in (c : Dev nD) (w : Fin cfg2.W) (hw : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hw _).trans (A_eq2 (V7 m ρ) c w))

/-- After the host stretch `hostOps3`. -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
theorem W9_of (c : Dev nD) (r : Ref sig .tc) (h : r ∉ hostOps3_W) : W9 m ρ c r = W8 m ρ c r :=
  StableHlo.after_of_writes_sub hostOps3 _ hostOps3_writes h

/-- At region 3's exit: its windows' arrays at what the pipeline leaves (an input as entered, the output's write-backs
    folded), every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- The same read at the TensorCore's references. -/
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)
/-- An input window's array leaves region 3 as it entered. -/
theorem W10_in (c : Dev nD) (w : Fin cfg3.W) (hw : (cfg3.win w).isOut = false) :
    W10 m ρ c (Proc.devRef .tc (Pipeline.arrRef spec3 w)) = W9 m ρ c (Proc.devRef .tc (Pipeline.arrRef spec3 w)) :=
  (W10_arr m ρ c w).trans (((dat3 (V9 m ρ) c).arrAt_in w hw _).trans (A_eq3 (V9 m ρ) c w))

/-! ## A buffer no item writes keeps its launch contents -/

/-- Region 0 changes its output array only. -/
theorem W4_keep (c : Dev nD) (r : Ref sig .tc) (ho : r ≠ main_v19) : W4 m ρ c r = W3 m ρ c r := by
  by_cases h : ∃ w, Pipeline.arrRef spec0 w = r
  · obtain ⟨w, rfl⟩ := h
    exact W4_in m ρ c w (by
      match w with
      | 0 => rfl
      | 1 => rfl
      | 2 => rfl
      | 3 => exact absurd rfl ho)
  · exact W4_of_ne m ρ c r fun w e => h ⟨w, e⟩
/-- Region 1 changes its output array only. -/
theorem W6_keep (c : Dev nD) (r : Ref sig .tc) (ho : r ≠ main_v32) : W6 m ρ c r = W5 m ρ c r := by
  by_cases h : ∃ w, Pipeline.arrRef spec1 w = r
  · obtain ⟨w, rfl⟩ := h
    exact W6_in m ρ c w (by
      match w with
      | 0 => rfl
      | 1 => rfl
      | 2 => rfl
      | 3 => rfl
      | 4 => exact absurd rfl ho)
  · exact W6_of_ne m ρ c r fun w e => h ⟨w, e⟩
/-- Region 2 changes its output array only. -/
theorem W8_keep (c : Dev nD) (r : Ref sig .tc) (ho : r ≠ main_v45) : W8 m ρ c r = W7 m ρ c r := by
  by_cases h : ∃ w, Pipeline.arrRef spec2 w = r
  · obtain ⟨w, rfl⟩ := h
    exact W8_in m ρ c w (by
      match w with
      | 0 => rfl
      | 1 => rfl
      | 2 => rfl
      | 3 => rfl
      | 4 => exact absurd rfl ho)
  · exact W8_of_ne m ρ c r fun w e => h ⟨w, e⟩
/-- Region 3 changes its output array only. -/
theorem W10_keepR (c : Dev nD) (r : Ref sig .tc) (ho : r ≠ main_v64) : W10 m ρ c r = W9 m ρ c r := by
  by_cases h : ∃ w, Pipeline.arrRef spec3 w = r
  · obtain ⟨w, rfl⟩ := h
    exact W10_in m ρ c w (by
      match w with
      | 0 => rfl
      | 1 => rfl
      | 2 => rfl
      | 3 => rfl
      | 4 => rfl
      | 5 => rfl
      | 6 => rfl
      | 7 => exact absurd rfl ho)
  · exact W10_of_ne m ρ c r fun w e => h ⟨w, e⟩

/-- A reference that is no region's output and that no host stretch writes holds at the end what it held at launch. -/
theorem W10_launch (c : Dev nD) (r : Ref sig .tc)
    (h0 : r ∉ hostOps0_W) (h1 : r ∉ hostOps0_1_W) (h2 : r ∉ hostOps0_2_W) (h3 : r ∉ hostOps1_W) (h4 : r ∉ hostOps2_W) (h5 : r ∉ hostOps3_W)
    (ho0 : r ≠ main_v19) (ho1 : r ≠ main_v32) (ho2 : r ≠ main_v45) (ho3 : r ≠ main_v64) :
    W10 m ρ c r = m ((c : Thread nD τ).loc r) :=
  (W10_keepR m ρ c r ho3).trans <| (W9_of m ρ c r h5).trans <| (W8_keep m ρ c r ho2).trans <| (W7_of m ρ c r h4).trans <|
    (W6_keep m ρ c r ho1).trans <| (W5_of m ρ c r h3).trans <| (W4_keep m ρ c r ho0).trans <| (W3_of m ρ c r h2).trans <|
    (W2_of m ρ c r h1).trans <| (W1_of m ρ c r h0)

/-- The result array at the end is what region 3's write-backs leave. -/
theorem W10_result (c : Dev nD) : W10 m ρ c (Proc.devRef .tc main_v64) = (dat3 (V9 m ρ) c).arrAt 7 cfg3.N :=
  W10_arr m ρ c 7

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered with every unscoped buffer at `W3`, left with them at `W4`. Its windows'
    arrays are split out of the unscoped buffers and put back at what the write-backs leave; the generator register goes
    into the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. Its windows'
    arrays are split out of the unscoped buffers and put back at what the write-backs leave; the generator register goes
    into the region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left with them at `W8`. Its windows'
    arrays are split out of the unscoped buffers and put back at what the write-backs leave; the generator register goes
    into the region's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W9`, left with them at `W10`. Its windows'
    arrays are split out of the unscoped buffers and put back at what the write-backs leave; the generator register goes
    into the region's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V9 m ρ) c); unfold Pipeline.ΦA
    iintro ⟨Hp, -, Hr⟩
    isplitl [Hr]; · iexact Hr
    iexact Hp
  hout c := by
    rw [Pipeline.ownSems0_none]; refine (hout3 (V9 m ρ) c).trans ?_; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ) ]
/-- @main is the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates, nothing
    faulting, and every final state holds every unscoped buffer of every core at the fold's last stage `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The frame: every argument array ends as launched, and the result array ends at what region 3's write-backs leave. -/
theorem run_main : θ_run defs (onTc (τ := τ) (main (F := F))) ⟨m, fun _ => 0, ρ⟩ (fun r => ∀ c : Dev nD,
      r.2.mem ((c.tc : Thread nD τ).loc main_v64) = (dat3 (V9 m ρ) c).arrAt 7 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v64 (by decide))).trans (W10_result m ρ c),
      (h c _ (mem_uc main_arg0 (by decide))).trans (W10_launch m ρ c main_arg0 (by decide) (by decide) (by decide) (by decide) (by decide) (by decide) (by decide) (by decide) (by decide) (by decide)),
      (h c _ (mem_uc main_arg1 (by decide))).trans (W10_launch m ρ c main_arg1 (by decide) (by decide) (by decide) (by decide) (by decide) (by decide) (by decide) (by decide) (by decide) (by decide)),
      (h c _ (mem_uc main_arg2 (by decide))).trans (W10_launch m ρ c main_arg2 (by decide) (by decide) (by decide) (by decide) (by decide) (by decide) (by decide) (by decide) (by decide) (by decide)),
      (h c _ (mem_uc main_arg3 (by decide))).trans (W10_launch m ρ c main_arg3 (by decide) (by decide) (by decide) (by decide) (by decide) (by decide) (by decide) (by decide) (by decide) (by decide)),
      (h c _ (mem_uc main_arg4 (by decide))).trans (W10_launch m ρ c main_arg4 (by decide) (by decide) (by decide) (by decide) (by decide) (by decide) (by decide) (by decide) (by decide) (by decide)),
      (h c _ (mem_uc main_arg5 (by decide))).trans (W10_launch m ρ c main_arg5 (by decide) (by decide) (by decide) (by decide) (by decide) (by decide) (by decide) (by decide) (by decide) (by decide)),
      (h c _ (mem_uc main_arg6 (by decide))).trans (W10_launch m ρ c main_arg6 (by decide) (by decide) (by decide) (by decide) (by decide) (by decide) (by decide) (by decide) (by decide) (by decide)),
      (h c _ (mem_uc main_arg7 (by decide))).trans (W10_launch m ρ c main_arg7 (by decide) (by decide) (by decide) (by decide) (by decide) (by decide) (by decide) (by decide) (by decide) (by decide)),
      (h c _ (mem_uc main_arg8 (by decide))).trans (W10_launch m ρ c main_arg8 (by decide) (by decide) (by decide) (by decide) (by decide) (by decide) (by decide) (by decide) (by decide) (by decide)),
      (h c _ (mem_uc main_arg9 (by decide))).trans (W10_launch m ρ c main_arg9 (by decide) (by decide) (by decide) (by decide) (by decide) (by decide) (by decide) (by decide) (by decide) (by decide)),
      (h c _ (mem_uc main_arg10 (by decide))).trans (W10_launch m ρ c main_arg10 (by decide) (by decide) (by decide) (by decide) (by decide) (by decide) (by decide) (by decide) (by decide) (by decide))⟩)
    (run_all m ρ)

end Cert.Kernel.Fr

end
-- ==== Proof.Spec.lean ====
/-
  The mathematics both programs compute, over the extended reals, with every array a function of literal finite indices.

  A three-layer graph convolution on 100000 nodes and 1700000 edges (1600000 given ones and one self loop per node) followed
  by a mean pool over 1000 graphs and a linear head. An edge `e` reads the node `cl (src e)` (the row a gather reads: the
  row number read signed and clamped into the table) and adds into the node whose number `dst e` is, read signed and
  unclamped (a scatter-add drops a row number outside the table).
-/
import Mathlib.Algebra.BigOperators.Group.Finset.Defs
import Mathlib.Data.EReal.Basic
import Idealize.ShloMosaic.PureOps.Ideal
import Idealize.ShloMosaic.Lib.ValueIdx

noncomputable section

namespace GCN

open Idealize.ShloMosaic

/-- The row a gather of a table of 100000 rows reads for the row number `b`: `b` read signed, clamped into `[0, 99999]`. -/
def cl (b : BitVec 32) : Fin 100000 := ⟨min b.toInt.toNat 99999, by omega⟩

/-- The edges a scatter-add lands on node `n`: those whose destination number, read signed, is `n`. -/
def seg (dst : Fin 1700000 → BitVec 32) (n : Fin 100000) : Finset (Fin 1700000) :=
  Finset.univ.filter fun e => (dst e).toInt = (n.val : Int)

/-- A matrix product, entry by entry. -/
def mm {K M : Nat} (h : Fin 100000 → Fin K → EReal) (w : Fin K → Fin M → EReal) (n : Fin 100000) (j : Fin M) : EReal :=
  ∑ k : Fin K, h n k * w k j

/-- Rows scaled by a per-node factor. -/
def scaleRows (h : Fin 100000 → Fin 128 → EReal) (dv : Fin 100000 → EReal) (n : Fin 100000) (j : Fin 128) : EReal :=
  h n j * dv n

/-- Message passing with no edge weight: node `n` receives the sum of its in-edges' source rows. -/
def aggK (h : Fin 100000 → Fin 128 → EReal) (src dst : Fin 1700000 → BitVec 32) (n : Fin 100000) (j : Fin 128) : EReal :=
  0 + ∑ e ∈ seg dst n, h (cl (src e)) j

/-- The symmetric normalisation of edge `e`: the product of the factors of the two nodes its gathers read. -/
def nrm (dv : Fin 100000 → EReal) (src dstW : Fin 1700000 → BitVec 32) (e : Fin 1700000) : EReal :=
  dv (cl (src e)) * dv (cl (dstW e))

/-- Message passing with edge weights `wgt`. -/
def aggR (h : Fin 100000 → Fin 128 → EReal) (wgt : Fin 1700000 → EReal) (src dst : Fin 1700000 → BitVec 32)
    (n : Fin 100000) (j : Fin 128) : EReal :=
  0 + ∑ e ∈ seg dst n, h (cl (src e)) j * wgt e

/-- Bias, then the positive part. -/
def biasRelu (a : Fin 100000 → Fin 128 → EReal) (b : Fin 128 → EReal) (n : Fin 100000) (j : Fin 128) : EReal :=
  max (a n j + b j) 0

/-- The first layer's pre-scaled features: `(x W) · dv` row by row. -/
def G0 (x : Fin 100000 → Fin 64 → EReal) (w : Fin 64 → Fin 128 → EReal) (dv : Fin 100000 → EReal)
    (n : Fin 100000) (j : Fin 128) : EReal :=
  (∑ k : Fin 64, x n k * w k j) * dv n

/-- A later layer's pre-scaled features from the previous layer's unweighted aggregate `a`: the aggregate is scaled by `dv`,
    biased and cut at zero, multiplied by `w` and scaled by `dv` again. -/
def G1 (a : Fin 100000 → Fin 128 → EReal) (b : Fin 128 → EReal) (w : Fin 128 → Fin 128 → EReal) (dv : Fin 100000 → EReal)
    (n : Fin 100000) (j : Fin 128) : EReal :=
  (∑ k : Fin 128, max (a n k * dv n + b k) 0 * w k j) * dv n

/-- The node of row `r` of tile `t` (tiles of 2000 rows). -/
def rowOf (t : Fin 50) (r : Fin 2000) : Fin 100000 := ⟨2000 * t.val + r.val, by omega⟩

/-- The one-hot weight of graph `g` for the graph number `b`. -/
def oneHot (b : BitVec 32) (g : Fin 1000) : EReal := if b = BitVec.ofNat 32 g.val then 1 else 0

/-- The pooled sums as fifty one-hot matrix products, one per tile of 2000 nodes, added up. -/
def poolK (h : Fin 100000 → Fin 128 → EReal) (bt : Fin 100000 → BitVec 32) (g : Fin 1000) (j : Fin 128) : EReal :=
  ∑ t : Fin 50, ∑ r : Fin 2000, oneHot (bt (rowOf t r)) g * h (rowOf t r) j

/-- The pooled sums as a segment sum: graph `g` receives the rows of the nodes numbered `g`. -/
def poolR (h : Fin 100000 → Fin 128 → EReal) (bt : Fin 100000 → BitVec 32) (g : Fin 1000) (j : Fin 128) : EReal :=
  0 + ∑ n ∈ Finset.univ.filter (fun n : Fin 100000 => (bt n).toInt = (g.val : Int)), h n j

/-- Mean pool (the sums over the clamped counts) and the linear head. -/
def head (pool : Fin 1000 → Fin 128 → EReal) (cnt : Fin 1000 → EReal) (wl : Fin 128 → Fin 10 → EReal) (bl : Fin 10 → EReal)
    (g : Fin 1000) (o : Fin 10) : EReal :=
  (∑ j : Fin 128, Ideal.div (pool g j) (max (cnt g) 1) * wl j o) + bl o

/-- What the kernel's last region leaves from the third aggregate `a`. -/
def G3 (a : Fin 100000 → Fin 128 → EReal) (b : Fin 128 → EReal) (dv : Fin 100000 → EReal) (bt : Fin 100000 → BitVec 32)
    (cnt : Fin 1000 → EReal) (wl : Fin 128 → Fin 10 → EReal) (bl : Fin 10 → EReal) (g : Fin 1000) (o : Fin 10) : EReal :=
  head (poolK (fun n j => max (a n j * dv n + b j) 0) bt) cnt wl bl g o

/-- The kernel's whole result. -/
def outK (x : Fin 100000 → Fin 64 → EReal) (src dst : Fin 1700000 → BitVec 32) (dv : Fin 100000 → EReal)
    (bt : Fin 100000 → BitVec 32) (cnt : Fin 1000 → EReal)
    (w1 : Fin 64 → Fin 128 → EReal) (b1 : Fin 128 → EReal) (w2 : Fin 128 → Fin 128 → EReal) (b2 : Fin 128 → EReal)
    (w3 : Fin 128 → Fin 128 → EReal) (b3 : Fin 128 → EReal) (wl : Fin 128 → Fin 10 → EReal) (bl : Fin 10 → EReal) :
    Fin 1000 → Fin 10 → EReal :=
  G3 (aggK (G1 (aggK (G1 (aggK (G0 x w1 dv) src dst) b1 w2 dv) src dst) b2 w3 dv) src dst) b3 dv bt cnt wl bl

/-- One reference layer: linear map, weighted message passing, bias, positive part. -/
def layerR {K : Nat} (h : Fin 100000 → Fin K → EReal) (w : Fin K → Fin 128 → EReal) (b : Fin 128 → EReal)
    (wgt : Fin 1700000 → EReal) (src dst : Fin 1700000 → BitVec 32) : Fin 100000 → Fin 128 → EReal :=
  biasRelu (aggR (mm h w) wgt src dst) b

/-- The reference's whole result. -/
def outR (x : Fin 100000 → Fin 64 → EReal) (src dst dstW : Fin 1700000 → BitVec 32) (dv : Fin 100000 → EReal)
    (bt : Fin 100000 → BitVec 32) (cnt : Fin 1000 → EReal)
    (w1 : Fin 64 → Fin 128 → EReal) (b1 : Fin 128 → EReal) (w2 : Fin 128 → Fin 128 → EReal) (b2 : Fin 128 → EReal)
    (w3 : Fin 128 → Fin 128 → EReal) (b3 : Fin 128 → EReal) (wl : Fin 128 → Fin 10 → EReal) (bl : Fin 10 → EReal) :
    Fin 1000 → Fin 10 → EReal :=
  head (poolR (layerR (layerR (layerR x w1 b1 (nrm dv src dstW) src dst) w2 b2 (nrm dv src dstW) src dst) w3 b3 (nrm dv src dstW) src dst) bt)
    cnt wl bl

/-- An array of extended reals all of whose entries are real numbers. -/
def Real1 {α : Type} (f : α → EReal) : Prop := ∀ a, ∃ r : ℝ, f a = (r : EReal)
def Real2 {α β : Type} (f : α → β → EReal) : Prop := ∀ a b, ∃ r : ℝ, f a b = (r : EReal)

/-! ## Arrays of the programs read as functions of literal coordinates -/

open Idealize.ShloMosaic.ValueIdx in
/-- A matrix read entry by entry. -/
abbrev rd2 {α : Type} {a b : Nat} (f : (⟨2, ![a, b]⟩ : Shape).Idx → α) : Fin a → Fin b → α := fun i j => f (ix2 i j)
open Idealize.ShloMosaic.ValueIdx in
/-- A vector read entry by entry. -/
abbrev rd1 {α : Type} {a : Nat} (f : (⟨1, ![a]⟩ : Shape).Idx → α) : Fin a → α := fun i => f (ix1 i)
open Idealize.ShloMosaic.ValueIdx in
/-- A one-column matrix read as a vector. -/
abbrev col {α : Type} {a : Nat} (f : (⟨2, ![a, 1]⟩ : Shape).Idx → α) : Fin a → α := fun i => f (ix2 i (0 : Fin 1))
open Idealize.ShloMosaic.ValueIdx in
/-- A one-row matrix read as a vector. -/
abbrev row {α : Type} {b : Nat} (f : (⟨2, ![1, b]⟩ : Shape).Idx → α) : Fin b → α := fun j => f (ix2 (0 : Fin 1) j)

end GCN

end
-- ==== Proof.Val0.lean ====
/-
  Region 0's final array, entry by entry: the first layer's pre-scaled features. Entry (n, j) of the 100000 x 128 array the
  first matmul call leaves is the product of row n of the node features with column j of the first weight matrix, scaled
  by node n's factor.

  The tile's payload is read at an index (a matrix product into a zero accumulator, then a column of factors spread along
  the rows); each input block is read where the output block's rectangle says (tile t holds rows 2000 t … 2000 t + 1999;
  the weight matrix is whole at every point); the fifty output blocks tile the array.
-/
import proofs.«404431_j37108517437514_3_alg».proof.Proof.FrA0
import proofs.«404431_j37108517437514_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Fr GCN
open Idealize.ShloMosaic Idealize.ShloMosaic.TcCoe Idealize.ShloMosaic.ValueIdx
open Idealize.ShloMosaic.Pipeline (Dat)

/-! ## The tile's payload at an index -/

/-- The matmul's left operand index keeps the output's row … -/
theorem lhs_dot0_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
/-- … and takes the contracted coordinate on its second axis; -/
theorem lhs_dot0_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
/-- the right operand index takes the contracted coordinate on its first axis … -/
theorem rhs_dot0_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
/-- … and keeps the output's column. -/
theorem rhs_dot0_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- The tile's matrix product into a zero accumulator, entry by entry. -/
theorem matmul0_apply (a : FVec Ideal S2000x64 .bf16) (b : FVec Ideal S64x128 .bf16) (p : Fin 2000) (q : Fin 128) :
    matmul dot_S2000x64_S64x128_S2000x128_1_0_0_1_n_n none a b (constant (F := Ideal) S2000x128 .f32 0x00000000#32) (ix2 p q)
      = ∑ k : Fin 64, a (ix2 p k) * b (ix2 k q) := by
  refine (Ideal.matmul_constant_zero_apply dot_S2000x64_S64x128_S2000x128_1_0_0_1_n_n none a b (ix2 p q)).trans ?_
  rw [← Equiv.sum_comp (ValueIdx.contrEquiv1 dot_S2000x64_S64x128_S2000x128_1_0_0_1_n_n 64 rfl rfl).symm]
  refine Finset.sum_congr rfl fun k _ => ?_
  have hk := ValueIdx.contrEquiv1_symm_val dot_S2000x64_S64x128_S2000x128_1_0_0_1_n_n 64 rfl rfl k
  have el : dot_S2000x64_S64x128_S2000x128_1_0_0_1_n_n.lhsIdx (ix2 p q) ((ValueIdx.contrEquiv1 dot_S2000x64_S64x128_S2000x128_1_0_0_1_n_n 64 rfl rfl).symm k) = ix2 p k := funext fun ax => Fin.ext (by
    match ax with
    | ⟨0, _⟩ => exact lhs_dot0_0 _ _
    | ⟨1, _⟩ => exact (lhs_dot0_1 _ _).trans hk)
  have er : dot_S2000x64_S64x128_S2000x128_1_0_0_1_n_n.rhsIdx (ix2 p q) ((ValueIdx.contrEquiv1 dot_S2000x64_S64x128_S2000x128_1_0_0_1_n_n 64 rfl rfl).symm k) = ix2 k q := funext fun ax => Fin.ext (by
    match ax with
    | ⟨0, _⟩ => exact (rhs_dot0_0 _ _).trans hk
    | ⟨1, _⟩ => exact rhs_dot0_1 _ _)
  rw [el, er]

/-- A column of 2000 values spread along rows of 128: the value of the row, whatever the column. -/
theorem spreadCol0_apply (x : FVec Ideal S2000x1 .f32) (p : Fin 2000) (q : Fin 128) :
    broadcastTo S2000x128 (shapeCast S2000x1 x shapeCasts_S2000x1_S2000x1) broadcasts_S2000x1_S2000x128 (ix2 p q) = x (ix2 p (0 : Fin 1)) := by
  rw [shapeCast_self]
  refine broadcastTo_apply x broadcasts_S2000x1_S2000x128 (ix2 p q) (ix2 p (0 : Fin 1)) fun ax => ?_
  match ax with
  | ⟨0, _⟩ => rfl
  | ⟨1, _⟩ => rfl

/-- THE PAYLOAD AT AN INDEX: row p of the feature tile times column q of the weights, scaled by the row's factor. -/
theorem pay0_apply (x0 : Vec Ideal S2000x64 .f32) (x1 : Vec Ideal S64x128 .f32) (x2 : Vec Ideal S2000x1 .f32) (p : Fin 2000) (q : Fin 128) :
    k0_pay1 x0 x1 x2 (ix2 p q) = (∑ k : Fin 64, x0 (ix2 p k) * x1 (ix2 k q)) * x2 (ix2 p (0 : Fin 1)) := by
  unfold k0_pay1
  refine (congrArg₂ (· * ·) (matmul0_apply _ _ p q) (spreadCol0_apply x2 p q)).trans ?_
  rfl

/-! ## From the fifty tiles to the array -/

section Blocks
variable (V : (c : Dev nD) → (b : Ref sig .tc) → Buf (Elt Ideal) ((c : Thread nD τ).loc b))

/-- The offset of a whole-buffer access is zero on both axes. -/
theorem off00 : (![0, 0] : Fin 2 → Nat) = fun _ => 0 := funext fun a => by
  match a with
  | ⟨0, _⟩ => rfl
  | ⟨1, _⟩ => rfl

/-- The block index of each window at tile t: the row blocks of the features, of the factor column and of the output are
    numbered t; the weight matrix is its own only block. -/
theorem tile_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of tile t as a row of the whole array. -/
abbrev rowAt (t : Fin cfg0.N) (p : Fin 2000) : Fin 100000 := rowOf (Fin.cast N_0 t) p

/-- The node features, the first weight matrix and the factor column as the region finds them. -/
abbrev xarr (c : Dev nD) : S100000x64.Idx → EReal := V c main_arg0
abbrev warr (c : Dev nD) : S64x128.Idx → EReal := V c main_arg3
abbrev darr (c : Dev nD) : S100000x1.Idx → EReal := V c main_v17

/-- The first layer's pre-scaled features as one array. -/
abbrev feat0 (c : Dev nD) : S100000x128.Idx → EReal :=
  fun i => G0 (rd2 (V c main_arg0)) (rd2 (V c main_arg3)) (col (V c main_v17)) (i 0) (i 1)

/-- The feature tile at point t is rows 2000 t … 2000 t + 1999 of the node features. -/
theorem xtile_apply (c : Dev nD) (t : Fin cfg0.N) (p : Fin 2000) (k : Fin 64) :
    (iblk0 V c 0 t : Vec Ideal S2000x64 .f32) (ix2 p k) = xarr V c (ix2 (rowAt t p) k) := by
  obtain ⟨e0, e1, -⟩ := tile_index0 t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * p.val = 2000 * t.val + p.val; omega
  | ⟨1, _⟩ => show win0_0.index t (1 : Fin 2) * 64 + 1 * k.val = k.val; omega

/-- The weight window's block is the whole first weight matrix at every point. -/
theorem wtile_apply (c : Dev nD) (t : Fin cfg0.N) (k : Fin 64) (q : Fin 128) :
    (iblk0 V c 1 t : Vec Ideal S64x128 .f32) (ix2 k q) = warr V c (ix2 k q) := by
  obtain ⟨-, -, e0, e1, -⟩ := tile_index0 t
  unfold iblk0
  rw [View.read_apply]
  show V c main_arg3 _ = V c main_arg3 _
  refine congrArg (V c main_arg3) (funext fun a => Fin.ext ?_)
  match a with
  | ⟨0, _⟩ => show win0_1.index t (0 : Fin 2) * 64 + 1 * k.val = k.val; omega
  | ⟨1, _⟩ => show win0_1.index t (1 : Fin 2) * 128 + 1 * q.val = q.val; omega

/-- The factor tile at point t is rows 2000 t … 2000 t + 1999 of the factor column. -/
theorem dtile_apply (c : Dev nD) (t : Fin cfg0.N) (p : Fin 2000) :
    (iblk0 V c 2 t : Vec Ideal S2000x1 .f32) (ix2 p (0 : Fin 1)) = darr V c (ix2 (rowAt t p) (0 : Fin 1)) := by
  obtain ⟨-, -, -, -, e0, e1, -⟩ := tile_index0 t
  unfold iblk0
  rw [View.read_apply]
  show V c main_v17 _ = V c main_v17 _
  refine congrArg (V c main_v17) (funext fun a => Fin.ext ?_)
  match a with
  | ⟨0, _⟩ => show win0_2.index t (0 : Fin 2) * 2000 + 1 * p.val = 2000 * t.val + p.val; omega
  | ⟨1, _⟩ => show win0_2.index t (1 : Fin 2) * 1 + 1 * 0 = 0; omega

/-- WHAT POINT t WRITES BACK is tile t of the pre-scaled features. -/
theorem flushed0_eq (c : Dev nD) (t : Fin cfg0.N) :
    (dat0 V c).flushed 3 t = ((cfg0.win 3).blk t).view.read (Elt Ideal) (feat0 V c) := by
  show (cfg0.win 3).cut (grid0.coords t) ((dat0 V c).after 3 t) = _
  rw [after0_3]
  unfold out0_3
  rw [View.canon_unit_zero off00]
  simp only [View.ld_unit_zero (S := S2000x64) off00, View.ld_unit_zero (S := S64x128) off00, View.ld_unit_zero (S := S2000x1) off00]
  obtain ⟨-, -, -, -, -, -, e0, e1⟩ := tile_index0 t
  refine funext fun (j : S2000x128.Idx) => ?_
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (ix2 p q) = feat0 V c (((cfg0.win 3).blk t).view.emb (ix2 p q))
  refine (pay0_apply (iblk0 V c 0 t) (iblk0 V c 1 t) (iblk0 V c 2 t) p q).trans ?_
  have hemb : ((cfg0.win 3).blk t).view.emb (ix2 p q) = (ix2 (rowAt t p) q : S100000x128.Idx) := funext fun a => Fin.ext (by
    match a with
    | ⟨0, _⟩ => show win0_3.index t (0 : Fin 2) * 2000 + 1 * p.val = 2000 * t.val + p.val; omega
    | ⟨1, _⟩ => show win0_3.index t (1 : Fin 2) * 128 + 1 * q.val = q.val; omega)
  rw [hemb]
  show _ = (∑ k : Fin 64, xarr V c (ix2 (rowAt t p) k) * warr V c (ix2 k q)) * darr V c (ix2 (rowAt t p) (0 : Fin 1))
  rw [dtile_apply V c t p]
  refine congrArg (· * _) (Finset.sum_congr rfl fun k _ => ?_)
  rw [xtile_apply V c t p k, wtile_apply V c t k q]

end Blocks

section Array
variable (V : (c : Dev nD) → (b : Ref sig .tc) → Buf (Elt Ideal) ((c : Thread nD τ).loc b))

/-- An index of the array is in tile t's block iff each coordinate is in the block's range on its axis. -/
theorem mem_tile0 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v19).slice (win0_3.rect t)).set ↔ _
  rw [View.set_slice_whole, Rect.mem_set_unit]
  exact Iff.rfl

/-- The fifty tiles cover the array: row r lies in tile r / 2000, and every point writes its tile back. -/
theorem tiles_cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 2000 := ⟨Fin.cast N_0.symm ⟨(i 0).val / 2000, by omega⟩, rfl⟩
  obtain ⟨-, -, -, -, -, -, e0, e1⟩ := tile_index0 t
  refine ⟨t, flush0_3 t, ?_⟩
  rw [mem_tile0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE ARRAY region 0 leaves: the pre-scaled features, as one array. -/
theorem final0_arr (c : Dev nD) : (dat0 V c).arrAt 3 cfg0.N = feat0 V c :=
  (dat0 V c).arrAt_eq_of_cover 3 (feat0 V c) (fun t _ => flushed0_eq V c t) tiles_cover0

/-- THE SAME, ENTRY BY ENTRY: entry (n, j) is row n of the node features times column j of the first weight matrix,
    scaled by node n's factor. -/
theorem final0 (c : Dev nD) :
    rd2 ((dat0 V c).arrAt 3 cfg0.N) = G0 (rd2 (V c main_arg0)) (rd2 (V c main_arg3)) (col (V c main_v17)) :=
  funext fun n => funext fun j => congrFun (final0_arr V c) (ix2 n j)

end Array

end Cert.KernelIdeal.Val

end
-- ==== Proof.Val1.lean ====
/-
  REGION 1's final array in the common language: the bf16 tile each grid point stores is, entry by entry, the previous
  aggregate's row scaled by the node's factor, biased, cut at zero, multiplied by the weight matrix and scaled by the
  factor again; the fifty tiles of 2000 rows tile the 100000 rows, so the array the region leaves is `G1` of the four
  arrays it found.
-/
import proofs.«404431_j37108517437514_3_alg».proof.Proof.FrA1
import proofs.«404431_j37108517437514_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr GCN
open Idealize.ShloMosaic Idealize.ShloMosaic.TcCoe Idealize.ShloMosaic.ValueIdx
open Idealize.ShloMosaic.Pipeline (Dat)

/-! ## The payload at an index -/

/-- A one-column array `[a, 1]` broadcast to `[a, b]` reads, at `(p, c)`, the operand's row `p`. -/
theorem colSpread1_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's operand indices, axis by axis: the left operand is read at (row of the output, contraction index), -/
theorem lhs_dot1_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dot1_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand at (contraction index, column of the output). -/
theorem rhs_dot1_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_dot1_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The [2000,128] × [128,128] product into a zero accumulator, read at `(p, q)`: the sum over the 128 contraction
    indices of the operands' products. -/
theorem matmul1_apply (l : FVec Ideal S2000x128 .bf16) (r : FVec Ideal S128x128 .bf16) (p : Fin 2000) (q : Fin 128) :
    FloatOps.matmul dot_S2000x128_S128x128_S2000x128_1_0_0_1_n_n none l r (constant (F := Ideal) S2000x128 .f32 0x00000000#32) (ix2 p q)
      = ∑ k : Fin 128, l (ix2 p k) * r (ix2 k q) := by
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_dot1_0 _ _
    | ⟨1, _⟩ => exact (lhs_dot1_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_dot1_0 _ _).trans hk
    | ⟨1, _⟩ => exact rhs_dot1_1 _ _)
  rw [el, er]

/-- The tile the body stores, entry by entry: the aggregate's row scaled by the factor, biased, cut at zero, times the
    weights, scaled by the factor again (the roundings are the identity on the extended reals). -/
theorem pay1_apply (v0 : Vec Ideal S2000x1 .f32) (v2 : Vec Ideal S2000x128 .f32) (v6 : Vec Ideal S1x128 .f32)
    (v13 : Vec Ideal S128x128 .f32) (p : Fin 2000) (q : Fin 128) :
    k1_pay1 (F := Ideal) v0 v2 v6 v13 (ix2 p q)
      = (∑ k : Fin 128, max (v2 (ix2 p k) * v0 (ix2 p (0 : Fin 1)) + v6 (ix2 (0 : Fin 1) k)) 0 * v13 (ix2 k q)) * v0 (ix2 p (0 : Fin 1)) := by
  unfold k1_pay1
  simp only [shapeCast_self]
  refine (congrArg₂ (· * ·) (matmul1_apply _ _ p q) (colSpread1_apply v0 broadcasts_S2000x1_S2000x128 p q)).trans ?_
  refine congrArg (· * v0 (ix2 p (0 : Fin 1))) (Finset.sum_congr rfl fun k _ => ?_)
  show max (v2 (ix2 p k) * broadcastTo S2000x128 v0 broadcasts_S2000x1_S2000x128 (ix2 p k)
      + broadcastTo S2000x128 v6 broadcasts_S1x128_S2000x128 (ix2 p k)) (Ideal.ofBits .f32 0x00000000#32) * v13 (ix2 k q) = _
  rw [colSpread1_apply, broadcastTo_1b_ab_apply, Ideal.ofBits_zero_f32]

/-! ## The stored tile, from the four input blocks -/

theorem hz1 : (![0, 0] : Fin 2 → Nat) = fun _ => 0 := funext fun a => by fin_cases a <;> rfl

/-- The output tile after the body, entry by entry, from the aggregate's tile `x0`, the bias row `x1`, the weights
    `x2` and the factor's tile `x3`: every load and the one store take a whole buffer. -/
theorem out1_4_apply (x0 : Vec Ideal S2000x128 .f32) (x1 : Vec Ideal S1x128 .f32) (x2 : Vec Ideal S128x128 .f32)
    (x3 : Vec Ideal S2000x1 .f32) (p : Fin 2000) (q : Fin 128) :
    out1_4 (F := Ideal) x0 x1 x2 x3 (ix2 p q)
      = (∑ k : Fin 128, max (x0 (ix2 p k) * x3 (ix2 p (0 : Fin 1)) + x1 (ix2 (0 : Fin 1) k)) 0 * x2 (ix2 k q)) * x3 (ix2 p (0 : Fin 1)) := by
  unfold out1_4
  rw [View.canon_unit_zero hz1]
  simp only [View.ld_unit_zero (S := S2000x128) hz1, View.ld_unit_zero (S := S2000x1) hz1, View.ld_unit_zero (S := S1x128) hz1,
    View.ld_unit_zero (S := S128x128) hz1]
  exact pay1_apply x3 x0 x1 x2 p q

/-- The same against four arrays the blocks are read off: row `p` of the tile is node `n`'s. -/
theorem tile1_eq (A : Fin 100000 → Fin 128 → EReal) (B : Fin 128 → EReal) (W : Fin 128 → Fin 128 → EReal) (D : Fin 100000 → EReal)
    (x0 : Vec Ideal S2000x128 .f32) (x1 : Vec Ideal S1x128 .f32) (x2 : Vec Ideal S128x128 .f32) (x3 : Vec Ideal S2000x1 .f32)
    (n : Fin 100000) (p : Fin 2000) (q : Fin 128)
    (hA : ∀ k : Fin 128, x0 (ix2 p k) = A n k) (hB : ∀ k : Fin 128, x1 (ix2 (0 : Fin 1) k) = B k)
    (hW : ∀ k : Fin 128, x2 (ix2 k q) = W k q) (hD : x3 (ix2 p (0 : Fin 1)) = D n) :
    out1_4 (F := Ideal) x0 x1 x2 x3 (ix2 p q) = G1 A B W D n q := by
  rw [out1_4_apply, hD]
  unfold G1
  refine congrArg (· * D n) (Finset.sum_congr rfl fun k _ => ?_)
  rw [hA, hB, hW]

/-! ## The blocks, read off the arrays the region finds -/

/-- The printed index maps, decided over the fifty points: the aggregate's, the factor's and the output's tile at
    point `t` is tile `t`; the bias row and the weight matrix are whole at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The aggregate's tile at point `t` is rows `2000·t …` of the aggregate. -/
theorem iblk1_0_apply (c : Dev nD) (t : Fin cfg1.N) (x : S2000x128.Idx) (k : S100000x128.Idx)
    (hk0 : (k 0).val = 2000 * t.val + (x 0).val) (hk1 : (k 1).val = (x 1).val) :
    (iblk1 V c 0 t : Vec Ideal S2000x128 .f32) x = (V c main_v30 : S100000x128.Idx → EReal) k := by
  obtain ⟨e0, e1, -⟩ := idx_facts1 t
  unfold iblk1
  rw [View.read_apply]
  show V c main_v30 _ = V c main_v30 _
  refine congrArg (V c main_v30) (funext fun a => Fin.ext ?_)
  match a with
  | ⟨0, _⟩ => show win1_0.index t (0 : Fin 2) * 2000 + 1 * (x 0).val = (k 0).val; omega
  | ⟨1, _⟩ => show win1_0.index t (1 : Fin 2) * 128 + 1 * (x 1).val = (k 1).val; omega

/-- The bias row's block at any point is the bias row. -/
theorem iblk1_1_apply (c : Dev nD) (t : Fin cfg1.N) (x : S1x128.Idx) :
    (iblk1 V c 1 t : Vec Ideal S1x128 .f32) x = (V c main_v31 : S1x128.Idx → EReal) x := by
  obtain ⟨-, -, e0, e1, -⟩ := idx_facts1 t
  unfold iblk1
  rw [View.read_apply]
  show V c main_v31 _ = V c main_v31 _
  refine congrArg (V c main_v31) (funext fun a => Fin.ext ?_)
  match a with
  | ⟨0, _⟩ => show win1_1.index t (0 : Fin 2) * 1 + 1 * (x 0).val = (x 0).val; omega
  | ⟨1, _⟩ => show win1_1.index t (1 : Fin 2) * 128 + 1 * (x 1).val = (x 1).val; omega

/-- The weight matrix's block at any point is the weight matrix. -/
theorem iblk1_2_apply (c : Dev nD) (t : Fin cfg1.N) (x : S128x128.Idx) :
    (iblk1 V c 2 t : Vec Ideal S128x128 .f32) x = (V c main_arg5 : S128x128.Idx → EReal) x := by
  obtain ⟨-, -, -, -, e0, e1, -⟩ := idx_facts1 t
  unfold iblk1
  rw [View.read_apply]
  show V c main_arg5 _ = V c main_arg5 _
  refine congrArg (V c main_arg5) (funext fun a => Fin.ext ?_)
  match a with
  | ⟨0, _⟩ => show win1_2.index t (0 : Fin 2) * 128 + 1 * (x 0).val = (x 0).val; omega
  | ⟨1, _⟩ => show win1_2.index t (1 : Fin 2) * 128 + 1 * (x 1).val = (x 1).val; omega

/-- The factor's tile at point `t` is rows `2000·t …` of the factor's column. -/
theorem iblk1_3_apply (c : Dev nD) (t : Fin cfg1.N) (x : S2000x1.Idx) (k : S100000x1.Idx)
    (hk0 : (k 0).val = 2000 * t.val + (x 0).val) (hk1 : (k 1).val = (x 1).val) :
    (iblk1 V c 3 t : Vec Ideal S2000x1 .f32) x = (V c main_v17 : S100000x1.Idx → EReal) k := by
  obtain ⟨-, -, -, -, -, -, e0, e1, -⟩ := idx_facts1 t
  unfold iblk1
  rw [View.read_apply]
  show V c main_v17 _ = V c main_v17 _
  refine congrArg (V c main_v17) (funext fun a => Fin.ext ?_)
  match a with
  | ⟨0, _⟩ => show win1_3.index t (0 : Fin 2) * 2000 + 1 * (x 0).val = (k 0).val; omega
  | ⟨1, _⟩ => show win1_3.index t (1 : Fin 2) * 1 + 1 * (x 1).val = (k 1).val; omega

/-! ## From tiles to the array -/

/-- What the region leaves in the output array: `G1` of the four arrays it found, entry by entry. -/
abbrev arr1 (c : Dev nD) : S100000x128.Idx → EReal := fun i =>
  G1 (rd2 (V c main_v30)) (row (V c main_v31)) (rd2 (V c main_arg5)) (col (V c main_v17)) (i 0) (i 1)

/-- What point `t` writes back is tile `t` of that array. -/
theorem flushed1_eq (c : Dev nD) (t : Fin cfg1.N) :
    (dat1 V c).flushed 4 t = ((cfg1.win 4).blk t).view.read (Elt Ideal) (arr1 V c) := by
  show (cfg1.win 4).cut (grid1.coords t) ((dat1 V c).after 4 t) = _
  rw [after1_4]
  obtain ⟨-, -, -, -, -, -, -, -, e0, e1⟩ := idx_facts1 t
  have ht : t.val < 50 := lt_of_lt_of_eq t.isLt N_1
  funext j
  obtain ⟨p, q, rfl⟩ : ∃ (p : Fin 2000) (q : Fin 128), j = ix2 p q := ⟨j 0, j 1, eq_ix2 j⟩
  rw [View.read_apply]
  have hn : 2000 * t.val + p.val < 100000 := by have := p.isLt; omega
  have ei : ((cfg1.win 4).blk t).view.emb (ix2 p q) = ix2 (⟨2000 * t.val + p.val, hn⟩ : Fin 100000) q := by
    funext a; apply Fin.ext
    match a with
    | ⟨0, _⟩ => show win1_4.index t (0 : Fin 2) * 2000 + 1 * p.val = 2000 * t.val + p.val; omega
    | ⟨1, _⟩ => show win1_4.index t (1 : Fin 2) * 128 + 1 * q.val = q.val; omega
  rw [ei]
  show out1_4 (F := Ideal) (iblk1 V c 0 t) (iblk1 V c 1 t) (iblk1 V c 2 t) (iblk1 V c 3 t) (ix2 p q)
    = G1 (rd2 (V c main_v30)) (row (V c main_v31)) (rd2 (V c main_arg5)) (col (V c main_v17)) (⟨2000 * t.val + p.val, hn⟩ : Fin 100000) q
  exact tile1_eq (rd2 (V c main_v30)) (row (V c main_v31)) (rd2 (V c main_arg5)) (col (V c main_v17))
    (iblk1 V c 0 t) (iblk1 V c 1 t) (iblk1 V c 2 t) (iblk1 V c 3 t) ⟨2000 * t.val + p.val, hn⟩ p q
    (fun k => iblk1_0_apply V c t (ix2 p k) (ix2 (⟨2000 * t.val + p.val, hn⟩ : Fin 100000) k) rfl rfl)
    (fun k => iblk1_1_apply V c t (ix2 (0 : Fin 1) k))
    (fun k => iblk1_2_apply V c t (ix2 k q))
    (iblk1_3_apply V c t (ix2 p (0 : Fin 1)) (ix2 (⟨2000 * t.val + p.val, hn⟩ : Fin 100000) (0 : Fin 1)) rfl rfl)

/-- An index of the array is in point `t`'s tile iff each coordinate is in the tile's range on its axis. -/
theorem mem_blk1 (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v32).slice (win1_4.rect t)).set ↔ _
  rw [View.set_slice_whole, Rect.mem_set_unit]
  exact Iff.rfl

/-- The fifty tiles cover the array: row `r` is in the tile of point `r / 2000`. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_4 _, ?_⟩
  rw [mem_blk1]
  obtain ⟨-, -, -, -, -, -, -, -, e0, e1⟩ := idx_facts1 ⟨(i 0).val / 2000, by rw [hN]; omega⟩
  intro a
  match a with
  | ⟨0, _⟩ =>
    show win1_4.index _ (0 : Fin 2) * 2000 ≤ (i 0).val ∧ (i 0).val < win1_4.index _ (0 : Fin 2) * 2000 + 2000
    rw [e0]; show (i 0).val / 2000 * 2000 ≤ (i 0).val ∧ (i 0).val < (i 0).val / 2000 * 2000 + 2000; omega
  | ⟨1, _⟩ =>
    show win1_4.index _ (1 : Fin 2) * 128 ≤ (i 1).val ∧ (i 1).val < win1_4.index _ (1 : Fin 2) * 128 + 128
    rw [e1]; omega

/-- THE ARRAY region 1 leaves: `G1` of the aggregate, the bias row, the weights and the factor it found. -/
theorem final1 (c : Dev nD) :
    rd2 ((dat1 V c).arrAt 4 cfg1.N) = G1 (rd2 (V c main_v30)) (row (V c main_v31)) (rd2 (V c main_arg5)) (col (V c main_v17)) := by
  have h : (dat1 V c).arrAt 4 cfg1.N = arr1 V c :=
    (dat1 V c).arrAt_eq_of_cover 4 (arr1 V c) (fun t _ => flushed1_eq V c t) cover1
  funext n j
  show (dat1 V c).arrAt 4 cfg1.N (ix2 n j) = _
  rw [h]

end Cert.KernelIdeal.Val

end
-- ==== Proof.Val2.lean ====
/-
  REGION 2's final array in the common language: the bf16 tile each grid point stores is, entry by entry, the previous
  aggregate's row scaled by the node's factor, biased, cut at zero, multiplied by the weight matrix and scaled by the
  factor again; the fifty tiles of 2000 rows tile the 100000 rows, so the array the region leaves is `G1` of the four
  arrays it found.
-/
import proofs.«404431_j37108517437514_3_alg».proof.Proof.FrA2
import proofs.«404431_j37108517437514_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr GCN
open Idealize.ShloMosaic Idealize.ShloMosaic.TcCoe Idealize.ShloMosaic.ValueIdx
open Idealize.ShloMosaic.Pipeline (Dat)

/-! ## The payload at an index -/

/-- A one-column array `[a, 1]` broadcast to `[a, b]` reads, at `(p, c)`, the operand's row `p`. -/
theorem colSpread2_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's operand indices, axis by axis: the left operand is read at (row of the output, contraction index), -/
theorem lhs_dot2_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dot2_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand at (contraction index, column of the output). -/
theorem rhs_dot2_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_dot2_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The [2000,128] × [128,128] product into a zero accumulator, read at `(p, q)`: the sum over the 128 contraction
    indices of the operands' products. -/
theorem matmul2_apply (l : FVec Ideal S2000x128 .bf16) (r : FVec Ideal S128x128 .bf16) (p : Fin 2000) (q : Fin 128) :
    FloatOps.matmul dot_S2000x128_S128x128_S2000x128_1_0_0_1_n_n none l r (constant (F := Ideal) S2000x128 .f32 0x00000000#32) (ix2 p q)
      = ∑ k : Fin 128, l (ix2 p k) * r (ix2 k q) := by
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_dot2_0 _ _
    | ⟨1, _⟩ => exact (lhs_dot2_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_dot2_0 _ _).trans hk
    | ⟨1, _⟩ => exact rhs_dot2_1 _ _)
  rw [el, er]

/-- The tile the body stores, entry by entry: the aggregate's row scaled by the factor, biased, cut at zero, times the
    weights, scaled by the factor again (the roundings are the identity on the extended reals). -/
theorem pay2_apply (v0 : Vec Ideal S2000x1 .f32) (v2 : Vec Ideal S2000x128 .f32) (v6 : Vec Ideal S1x128 .f32)
    (v13 : Vec Ideal S128x128 .f32) (p : Fin 2000) (q : Fin 128) :
    k2_pay1 (F := Ideal) v0 v2 v6 v13 (ix2 p q)
      = (∑ k : Fin 128, max (v2 (ix2 p k) * v0 (ix2 p (0 : Fin 1)) + v6 (ix2 (0 : Fin 1) k)) 0 * v13 (ix2 k q)) * v0 (ix2 p (0 : Fin 1)) := by
  unfold k2_pay1
  simp only [shapeCast_self]
  refine (congrArg₂ (· * ·) (matmul2_apply _ _ p q) (colSpread2_apply v0 broadcasts_S2000x1_S2000x128 p q)).trans ?_
  refine congrArg (· * v0 (ix2 p (0 : Fin 1))) (Finset.sum_congr rfl fun k _ => ?_)
  show max (v2 (ix2 p k) * broadcastTo S2000x128 v0 broadcasts_S2000x1_S2000x128 (ix2 p k)
      + broadcastTo S2000x128 v6 broadcasts_S1x128_S2000x128 (ix2 p k)) (Ideal.ofBits .f32 0x00000000#32) * v13 (ix2 k q) = _
  rw [colSpread2_apply, broadcastTo_1b_ab_apply, Ideal.ofBits_zero_f32]

/-! ## The stored tile, from the four input blocks -/

theorem hz2 : (![0, 0] : Fin 2 → Nat) = fun _ => 0 := funext fun a => by fin_cases a <;> rfl

/-- The output tile after the body, entry by entry, from the aggregate's tile `x0`, the bias row `x1`, the weights
    `x2` and the factor's tile `x3`: every load and the one store take a whole buffer. -/
theorem out2_4_apply (x0 : Vec Ideal S2000x128 .f32) (x1 : Vec Ideal S1x128 .f32) (x2 : Vec Ideal S128x128 .f32)
    (x3 : Vec Ideal S2000x1 .f32) (p : Fin 2000) (q : Fin 128) :
    out2_4 (F := Ideal) x0 x1 x2 x3 (ix2 p q)
      = (∑ k : Fin 128, max (x0 (ix2 p k) * x3 (ix2 p (0 : Fin 1)) + x1 (ix2 (0 : Fin 1) k)) 0 * x2 (ix2 k q)) * x3 (ix2 p (0 : Fin 1)) := by
  unfold out2_4
  rw [View.canon_unit_zero hz2]
  simp only [View.ld_unit_zero (S := S2000x128) hz2, View.ld_unit_zero (S := S2000x1) hz2, View.ld_unit_zero (S := S1x128) hz2,
    View.ld_unit_zero (S := S128x128) hz2]
  exact pay2_apply x3 x0 x1 x2 p q

/-- The same against four arrays the blocks are read off: row `p` of the tile is node `n`'s. -/
theorem tile2_eq (A : Fin 100000 → Fin 128 → EReal) (B : Fin 128 → EReal) (W : Fin 128 → Fin 128 → EReal) (D : Fin 100000 → EReal)
    (x0 : Vec Ideal S2000x128 .f32) (x1 : Vec Ideal S1x128 .f32) (x2 : Vec Ideal S128x128 .f32) (x3 : Vec Ideal S2000x1 .f32)
    (n : Fin 100000) (p : Fin 2000) (q : Fin 128)
    (hA : ∀ k : Fin 128, x0 (ix2 p k) = A n k) (hB : ∀ k : Fin 128, x1 (ix2 (0 : Fin 1) k) = B k)
    (hW : ∀ k : Fin 128, x2 (ix2 k q) = W k q) (hD : x3 (ix2 p (0 : Fin 1)) = D n) :
    out2_4 (F := Ideal) x0 x1 x2 x3 (ix2 p q) = G1 A B W D n q := by
  rw [out2_4_apply, hD]
  unfold G1
  refine congrArg (· * D n) (Finset.sum_congr rfl fun k _ => ?_)
  rw [hA, hB, hW]

/-! ## The blocks, read off the arrays the region finds -/

/-- The printed index maps, decided over the fifty points: the aggregate's, the factor's and the output's tile at
    point `t` is tile `t`; the bias row and the weight matrix are whole at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- The aggregate's tile at point `t` is rows `2000·t …` of the aggregate. -/
theorem iblk2_0_apply (c : Dev nD) (t : Fin cfg2.N) (x : S2000x128.Idx) (k : S100000x128.Idx)
    (hk0 : (k 0).val = 2000 * t.val + (x 0).val) (hk1 : (k 1).val = (x 1).val) :
    (iblk2 V c 0 t : Vec Ideal S2000x128 .f32) x = (V c main_v43 : S100000x128.Idx → EReal) k := by
  obtain ⟨e0, e1, -⟩ := idx_facts2 t
  unfold iblk2
  rw [View.read_apply]
  show V c main_v43 _ = V c main_v43 _
  refine congrArg (V c main_v43) (funext fun a => Fin.ext ?_)
  match a with
  | ⟨0, _⟩ => show win2_0.index t (0 : Fin 2) * 2000 + 1 * (x 0).val = (k 0).val; omega
  | ⟨1, _⟩ => show win2_0.index t (1 : Fin 2) * 128 + 1 * (x 1).val = (k 1).val; omega

/-- The bias row's block at any point is the bias row. -/
theorem iblk2_1_apply (c : Dev nD) (t : Fin cfg2.N) (x : S1x128.Idx) :
    (iblk2 V c 1 t : Vec Ideal S1x128 .f32) x = (V c main_v44 : S1x128.Idx → EReal) x := by
  obtain ⟨-, -, e0, e1, -⟩ := idx_facts2 t
  unfold iblk2
  rw [View.read_apply]
  show V c main_v44 _ = V c main_v44 _
  refine congrArg (V c main_v44) (funext fun a => Fin.ext ?_)
  match a with
  | ⟨0, _⟩ => show win2_1.index t (0 : Fin 2) * 1 + 1 * (x 0).val = (x 0).val; omega
  | ⟨1, _⟩ => show win2_1.index t (1 : Fin 2) * 128 + 1 * (x 1).val = (x 1).val; omega

/-- The weight matrix's block at any point is the weight matrix. -/
theorem iblk2_2_apply (c : Dev nD) (t : Fin cfg2.N) (x : S128x128.Idx) :
    (iblk2 V c 2 t : Vec Ideal S128x128 .f32) x = (V c main_arg7 : S128x128.Idx → EReal) x := by
  obtain ⟨-, -, -, -, e0, e1, -⟩ := idx_facts2 t
  unfold iblk2
  rw [View.read_apply]
  show V c main_arg7 _ = V c main_arg7 _
  refine congrArg (V c main_arg7) (funext fun a => Fin.ext ?_)
  match a with
  | ⟨0, _⟩ => show win2_2.index t (0 : Fin 2) * 128 + 1 * (x 0).val = (x 0).val; omega
  | ⟨1, _⟩ => show win2_2.index t (1 : Fin 2) * 128 + 1 * (x 1).val = (x 1).val; omega

/-- The factor's tile at point `t` is rows `2000·t …` of the factor's column. -/
theorem iblk2_3_apply (c : Dev nD) (t : Fin cfg2.N) (x : S2000x1.Idx) (k : S100000x1.Idx)
    (hk0 : (k 0).val = 2000 * t.val + (x 0).val) (hk1 : (k 1).val = (x 1).val) :
    (iblk2 V c 3 t : Vec Ideal S2000x1 .f32) x = (V c main_v17 : S100000x1.Idx → EReal) k := by
  obtain ⟨-, -, -, -, -, -, e0, e1, -⟩ := idx_facts2 t
  unfold iblk2
  rw [View.read_apply]
  show V c main_v17 _ = V c main_v17 _
  refine congrArg (V c main_v17) (funext fun a => Fin.ext ?_)
  match a with
  | ⟨0, _⟩ => show win2_3.index t (0 : Fin 2) * 2000 + 1 * (x 0).val = (k 0).val; omega
  | ⟨1, _⟩ => show win2_3.index t (1 : Fin 2) * 1 + 1 * (x 1).val = (k 1).val; omega

/-! ## From tiles to the array -/

/-- What the region leaves in the output array: `G1` of the four arrays it found, entry by entry. -/
abbrev arr2 (c : Dev nD) : S100000x128.Idx → EReal := fun i =>
  G1 (rd2 (V c main_v43)) (row (V c main_v44)) (rd2 (V c main_arg7)) (col (V c main_v17)) (i 0) (i 1)

/-- What point `t` writes back is tile `t` of that array. -/
theorem flushed2_eq (c : Dev nD) (t : Fin cfg2.N) :
    (dat2 V c).flushed 4 t = ((cfg2.win 4).blk t).view.read (Elt Ideal) (arr2 V c) := by
  show (cfg2.win 4).cut (grid2.coords t) ((dat2 V c).after 4 t) = _
  rw [after2_4]
  obtain ⟨-, -, -, -, -, -, -, -, e0, e1⟩ := idx_facts2 t
  have ht : t.val < 50 := lt_of_lt_of_eq t.isLt N_2
  funext j
  obtain ⟨p, q, rfl⟩ : ∃ (p : Fin 2000) (q : Fin 128), j = ix2 p q := ⟨j 0, j 1, eq_ix2 j⟩
  rw [View.read_apply]
  have hn : 2000 * t.val + p.val < 100000 := by have := p.isLt; omega
  have ei : ((cfg2.win 4).blk t).view.emb (ix2 p q) = ix2 (⟨2000 * t.val + p.val, hn⟩ : Fin 100000) q := by
    funext a; apply Fin.ext
    match a with
    | ⟨0, _⟩ => show win2_4.index t (0 : Fin 2) * 2000 + 1 * p.val = 2000 * t.val + p.val; omega
    | ⟨1, _⟩ => show win2_4.index t (1 : Fin 2) * 128 + 1 * q.val = q.val; omega
  rw [ei]
  show out2_4 (F := Ideal) (iblk2 V c 0 t) (iblk2 V c 1 t) (iblk2 V c 2 t) (iblk2 V c 3 t) (ix2 p q)
    = G1 (rd2 (V c main_v43)) (row (V c main_v44)) (rd2 (V c main_arg7)) (col (V c main_v17)) (⟨2000 * t.val + p.val, hn⟩ : Fin 100000) q
  exact tile2_eq (rd2 (V c main_v43)) (row (V c main_v44)) (rd2 (V c main_arg7)) (col (V c main_v17))
    (iblk2 V c 0 t) (iblk2 V c 1 t) (iblk2 V c 2 t) (iblk2 V c 3 t) ⟨2000 * t.val + p.val, hn⟩ p q
    (fun k => iblk2_0_apply V c t (ix2 p k) (ix2 (⟨2000 * t.val + p.val, hn⟩ : Fin 100000) k) rfl rfl)
    (fun k => iblk2_1_apply V c t (ix2 (0 : Fin 1) k))
    (fun k => iblk2_2_apply V c t (ix2 k q))
    (iblk2_3_apply V c t (ix2 p (0 : Fin 1)) (ix2 (⟨2000 * t.val + p.val, hn⟩ : Fin 100000) (0 : Fin 1)) rfl rfl)

/-- An index of the array is in point `t`'s tile iff each coordinate is in the tile's range on its axis. -/
theorem mem_blk2 (t : Fin cfg2.N) (i : S100000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v45).slice (win2_4.rect t)).set ↔ _
  rw [View.set_slice_whole, Rect.mem_set_unit]
  exact Iff.rfl

/-- The fifty tiles cover the array: row `r` is in the tile of point `r / 2000`. -/
theorem cover2 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 50 := N_2
  refine ⟨⟨(i 0).val / 2000, by rw [hN]; omega⟩, flush2_4 _, ?_⟩
  rw [mem_blk2]
  obtain ⟨-, -, -, -, -, -, -, -, e0, e1⟩ := idx_facts2 ⟨(i 0).val / 2000, by rw [hN]; omega⟩
  intro a
  match a with
  | ⟨0, _⟩ =>
    show win2_4.index _ (0 : Fin 2) * 2000 ≤ (i 0).val ∧ (i 0).val < win2_4.index _ (0 : Fin 2) * 2000 + 2000
    rw [e0]; show (i 0).val / 2000 * 2000 ≤ (i 0).val ∧ (i 0).val < (i 0).val / 2000 * 2000 + 2000; omega
  | ⟨1, _⟩ =>
    show win2_4.index _ (1 : Fin 2) * 128 ≤ (i 1).val ∧ (i 1).val < win2_4.index _ (1 : Fin 2) * 128 + 128
    rw [e1]; omega

/-- THE ARRAY region 2 leaves: `G1` of the aggregate, the bias row, the weights and the factor it found. -/
theorem final2 (c : Dev nD) :
    rd2 ((dat2 V c).arrAt 4 cfg2.N) = G1 (rd2 (V c main_v43)) (row (V c main_v44)) (rd2 (V c main_arg7)) (col (V c main_v17)) := by
  have h : (dat2 V c).arrAt 4 cfg2.N = arr2 V c :=
    (dat2 V c).arrAt_eq_of_cover 4 (arr2 V c) (fun t _ => flushed2_eq V c t) cover2
  funext n j
  show (dat2 V c).arrAt 4 cfg2.N (ix2 n j) = _
  rw [h]

end Cert.KernelIdeal.Val

end
-- ==== Proof.Val3Pay.lean ====
/-
  The pooling region's two payloads read at an index, at the ideal instance.

  The accumulating payload adds to the accumulator the product of the tile's one-hot graph matrix, transposed, with the tile's
  activated rows: entry (g, j) gains the sum over the tile's rows r of [graph number of r = g] · max (h r j · dv r + b j) 0.
  The closing payload divides the accumulated sums by the clamped counts and applies the linear head.
-/
import proofs.«404431_j37108517437514_3_alg».proof.Proof.Gen.KernelIdeal.Skeleton
import proofs.«404431_j37108517437514_3_alg».proof.Proof.Spec
import Idealize.ShloMosaic.Lib.ValueIdx
import Idealize.ShloMosaic.Lib.Pipeline.Value
import Idealize.ShloMosaic.PureOps.Ideal.Laws
import Idealize.ShloMosaic.Lib.IdealHost
import Idealize.ShloMosaic.Lib.StableHlo.Predicate

set_option maxRecDepth 16384

noncomputable section

namespace Cert.KernelIdeal.Val

open Cert.KernelIdeal Cert.KernelIdeal.Gen GCN Idealize.ShloMosaic Idealize.ShloMosaic.TcCoe Idealize.ShloMosaic.ValueIdx

/-! ## A column and a row broadcast to a matrix -/

/-- A column `[a, 1]` broadcast to `[a, b]` reads its row's entry. -/
theorem colBcast_apply {α : Type} {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast to `[a, b]` reads its column's entry. -/
theorem rowBcast_apply {α : Type} {a b : ℕ} (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => rfl
  | ⟨1, _⟩ =>
    show q.val = if b = 1 then 0 else q.val
    split
    · have := q.isLt; omega
    · rfl

/-! ## The one-hot word -/

/-- The comparison word of two graph numbers, widened and read as a float, is 1 where they agree and 0 elsewhere. -/
theorem onehot_word (a b : BitVec 32) :
    FloatOps.sitofp (F := Ideal) .f32 ((IntOp.cmpi .eq a b).setWidth 32) = if a = b then (1 : EReal) else 0 := by
  by_cases h : a = b
  · subst h
    rw [if_pos rfl]
    have : IntOp.cmpi .eq a a = 1#1 := StableHlo.Predicate.cmpi_eq_iff.mpr rfl
    rw [this]
    show (((BitVec.setWidth 32 1#1).toInt : ℝ) : EReal) = 1
    rw [show (BitVec.setWidth 32 1#1).toInt = 1 from by decide]
    simp
  · rw [if_neg h]
    have : IntOp.cmpi .eq a b = 0#1 := eq_zero_of_ne_one fun e => h (StableHlo.Predicate.cmpi_eq_iff.mp e)
    rw [this]
    show (((BitVec.setWidth 32 0#1).toInt : ℝ) : EReal) = 0
    rw [show (BitVec.setWidth 32 0#1).toInt = 0 from by decide]
    simp

/-! ## The pooling product: the one-hot matrix transposed times the activated rows -/

theorem lhs_pool_0 (i : S1000x128.Idx) (q : dot_S2000x1000_S2000x128_S1000x128_0_0_1_1_n_n.contr.Idx) :
    (dot_S2000x1000_S2000x128_S1000x128_0_0_1_1_n_n.lhsIdx i q 0).val = (q ⟨0, by decide⟩).val :=
  dot_S2000x1000_S2000x128_S1000x128_0_0_1_1_n_n.lhsIdx_val_of_single rfl i q
theorem lhs_pool_1 (i : S1000x128.Idx) (q : dot_S2000x1000_S2000x128_S1000x128_0_0_1_1_n_n.contr.Idx) :
    (dot_S2000x1000_S2000x128_S1000x128_0_0_1_1_n_n.lhsIdx i q 1).val = (i 0).val := by
  unfold DotDims.lhsIdx
  rw [dif_neg (show ¬(1 : Fin S2000x1000.rank) ∈ dot_S2000x1000_S2000x128_S1000x128_0_0_1_1_n_n.lhsBatch by decide), dif_pos (show (1 : Fin S2000x1000.rank) ∈ dot_S2000x1000_S2000x128_S1000x128_0_0_1_1_n_n.lhsNonContracting by decide)]
  rfl
theorem rhs_pool_0 (i : S1000x128.Idx) (q : dot_S2000x1000_S2000x128_S1000x128_0_0_1_1_n_n.contr.Idx) :
    (dot_S2000x1000_S2000x128_S1000x128_0_0_1_1_n_n.rhsIdx i q 0).val = (q ⟨0, by decide⟩).val :=
  dot_S2000x1000_S2000x128_S1000x128_0_0_1_1_n_n.rhsIdx_val_of_single rfl i q
theorem rhs_pool_1 (i : S1000x128.Idx) (q : dot_S2000x1000_S2000x128_S1000x128_0_0_1_1_n_n.contr.Idx) :
    (dot_S2000x1000_S2000x128_S1000x128_0_0_1_1_n_n.rhsIdx i q 1).val = (i 1).val := by
  unfold DotDims.rhsIdx
  rw [dif_neg (show ¬(1 : Fin S2000x128.rank) ∈ dot_S2000x1000_S2000x128_S1000x128_0_0_1_1_n_n.rhsBatch by decide), dif_pos (show (1 : Fin S2000x128.rank) ∈ dot_S2000x1000_S2000x128_S1000x128_0_0_1_1_n_n.rhsNonContracting by decide)]
  rfl

/-- Entry (g, j) of the pooling product is the sum over the tile's 2000 rows. -/
theorem pool_matmul_apply (a : FVec Ideal S2000x1000 .bf16) (b : FVec Ideal S2000x128 .bf16) (g : Fin 1000) (j : Fin 128) :
    matmul dot_S2000x1000_S2000x128_S1000x128_0_0_1_1_n_n none a b (constant (F := Ideal) S1000x128 .f32 0x00000000#32) (ix2 g j)
      = ∑ r : Fin 2000, a (ix2 r g) * b (ix2 r j) := by
  simp only [matmul]
  rw [Ideal.matmul_constant_zero_apply, ← Equiv.sum_comp (contrEquiv1 dot_S2000x1000_S2000x128_S1000x128_0_0_1_1_n_n 2000 rfl rfl).symm]
  refine Finset.sum_congr rfl fun k _ => ?_
  have hk := contrEquiv1_symm_val dot_S2000x1000_S2000x128_S1000x128_0_0_1_1_n_n 2000 rfl rfl k
  have el : dot_S2000x1000_S2000x128_S1000x128_0_0_1_1_n_n.lhsIdx (ix2 g j) ((contrEquiv1 dot_S2000x1000_S2000x128_S1000x128_0_0_1_1_n_n 2000 rfl rfl).symm k) = ix2 k g := funext fun ax => Fin.ext (by
    match ax with
    | ⟨0, _⟩ => exact (lhs_pool_0 _ _).trans hk
    | ⟨1, _⟩ => exact lhs_pool_1 _ _)
  have er : dot_S2000x1000_S2000x128_S1000x128_0_0_1_1_n_n.rhsIdx (ix2 g j) ((contrEquiv1 dot_S2000x1000_S2000x128_S1000x128_0_0_1_1_n_n 2000 rfl rfl).symm k) = ix2 k j := funext fun ax => Fin.ext (by
    match ax with
    | ⟨0, _⟩ => exact (rhs_pool_0 _ _).trans hk
    | ⟨1, _⟩ => exact rhs_pool_1 _ _)
  rw [el, er]

/-! ## The head's product -/

theorem lhs_head_0 (i : S1000x10.Idx) (q : dot_S1000x128_S128x10_S1000x10_1_0_0_1_n_n.contr.Idx) :
    (dot_S1000x128_S128x10_S1000x10_1_0_0_1_n_n.lhsIdx i q 0).val = (i 0).val := by
  unfold DotDims.lhsIdx
  rw [dif_neg (show ¬(0 : Fin S1000x128.rank) ∈ dot_S1000x128_S128x10_S1000x10_1_0_0_1_n_n.lhsBatch by decide), dif_pos (show (0 : Fin S1000x128.rank) ∈ dot_S1000x128_S128x10_S1000x10_1_0_0_1_n_n.lhsNonContracting by decide)]
  rfl
theorem lhs_head_1 (i : S1000x10.Idx) (q : dot_S1000x128_S128x10_S1000x10_1_0_0_1_n_n.contr.Idx) :
    (dot_S1000x128_S128x10_S1000x10_1_0_0_1_n_n.lhsIdx i q 1).val = (q ⟨0, by decide⟩).val :=
  dot_S1000x128_S128x10_S1000x10_1_0_0_1_n_n.lhsIdx_val_of_single rfl i q
theorem rhs_head_0 (i : S1000x10.Idx) (q : dot_S1000x128_S128x10_S1000x10_1_0_0_1_n_n.contr.Idx) :
    (dot_S1000x128_S128x10_S1000x10_1_0_0_1_n_n.rhsIdx i q 0).val = (q ⟨0, by decide⟩).val :=
  dot_S1000x128_S128x10_S1000x10_1_0_0_1_n_n.rhsIdx_val_of_single rfl i q
theorem rhs_head_1 (i : S1000x10.Idx) (q : dot_S1000x128_S128x10_S1000x10_1_0_0_1_n_n.contr.Idx) :
    (dot_S1000x128_S128x10_S1000x10_1_0_0_1_n_n.rhsIdx i q 1).val = (i 1).val := by
  unfold DotDims.rhsIdx
  rw [dif_neg (show ¬(1 : Fin S128x10.rank) ∈ dot_S1000x128_S128x10_S1000x10_1_0_0_1_n_n.rhsBatch by decide), dif_pos (show (1 : Fin S128x10.rank) ∈ dot_S1000x128_S128x10_S1000x10_1_0_0_1_n_n.rhsNonContracting by decide)]
  rfl

/-- Entry (g, o) of the head's product is the sum over the 128 features. -/
theorem head_matmul_apply (a : FVec Ideal S1000x128 .bf16) (b : FVec Ideal S128x10 .bf16) (g : Fin 1000) (o : Fin 10) :
    matmul dot_S1000x128_S128x10_S1000x10_1_0_0_1_n_n none a b (constant (F := Ideal) S1000x10 .f32 0x00000000#32) (ix2 g o)
      = ∑ j : Fin 128, a (ix2 g j) * b (ix2 j o) := by
  simp only [matmul]
  rw [Ideal.matmul_constant_zero_apply, ← Equiv.sum_comp (contrEquiv1 dot_S1000x128_S128x10_S1000x10_1_0_0_1_n_n 128 rfl rfl).symm]
  refine Finset.sum_congr rfl fun k _ => ?_
  have hk := contrEquiv1_symm_val dot_S1000x128_S128x10_S1000x10_1_0_0_1_n_n 128 rfl rfl k
  have el : dot_S1000x128_S128x10_S1000x10_1_0_0_1_n_n.lhsIdx (ix2 g o) ((contrEquiv1 dot_S1000x128_S128x10_S1000x10_1_0_0_1_n_n 128 rfl rfl).symm k) = ix2 g k := funext fun ax => Fin.ext (by
    match ax with
    | ⟨0, _⟩ => exact lhs_head_0 _ _
    | ⟨1, _⟩ => exact (lhs_head_1 _ _).trans hk)
  have er : dot_S1000x128_S128x10_S1000x10_1_0_0_1_n_n.rhsIdx (ix2 g o) ((contrEquiv1 dot_S1000x128_S128x10_S1000x10_1_0_0_1_n_n 128 rfl rfl).symm k) = ix2 k o := funext fun ax => Fin.ext (by
    match ax with
    | ⟨0, _⟩ => exact (rhs_head_0 _ _).trans hk
    | ⟨1, _⟩ => exact rhs_head_1 _ _)
  rw [el, er]

/-! ## The two payloads at an index -/

/-- The closing payload at (g, o): the accumulated sums over the clamped count, through the head. -/
theorem pool_pay3_apply (v33 : Vec Ideal S1000x1 .f32) (v37 : Vec Ideal S1000x128 .f32) (v41 : Vec Ideal S128x10 .f32)
    (v44 : Vec Ideal S1x10 .f32) (g : Fin 1000) (o : Fin 10) :
    k3_pay3 (F := Ideal) v33 v37 v41 v44 (ix2 g o)
      = (∑ j : Fin 128, Ideal.div (v37 (ix2 g j)) (max (v33 (ix2 g (0 : Fin 1))) 1) * v41 (ix2 j o)) + v44 (ix2 (0 : Fin 1) o) := by
  unfold k3_pay3
  refine (addf_apply _ _ _).trans ?_
  refine congrArg₂ (· + ·) ((head_matmul_apply _ _ g o).trans ?_) ((rowBcast_apply _ _ g o).trans ?_)
  · refine Finset.sum_congr rfl fun j _ => ?_
    show Ideal.div (v37 (ix2 g j)) (broadcastTo S1000x128 _ _ (ix2 g j)) * v41 (ix2 j o) = _
    rw [colBcast_apply]
    show Ideal.div (v37 (ix2 g j)) (max (shapeCast S1000x1 v33 shapeCasts_S1000x1_S1000x1 (ix2 g (0 : Fin 1))) (Ideal.ofBits .f32 0x3F800000#32)) * _ = _
    rw [shapeCast_self, Ideal.ofBits_one_f32]
  · rw [shapeCast_self]

/-- The accumulating payload at (g, j): the accumulator plus the tile's contribution to graph `g`. -/
theorem pool_pay2_apply (v3 : Vec Ideal S2000x1 .f32) (v5 : Vec Ideal S2000x128 .f32) (v9 : Vec Ideal S1x128 .f32)
    (v15 : Vec Ideal S2000x1 .i32) (v24 : Vec Ideal S1000x128 .f32) (g : Fin 1000) (j : Fin 128) :
    k3_pay2 (F := Ideal) v3 v5 v9 v15 v24 (ix2 g j)
      = v24 (ix2 g j) + ∑ r : Fin 2000, oneHot (v15 (ix2 r (0 : Fin 1))) g
          * max (v5 (ix2 r j) * v3 (ix2 r (0 : Fin 1)) + v9 (ix2 (0 : Fin 1) j)) 0 := by
  unfold k3_pay2
  rw [shapeCast_self]
  refine (addf_apply _ _ _).trans ?_
  refine congrArg (v24 (ix2 g j) + ·) ((pool_matmul_apply _ _ g j).trans ?_)
  refine Finset.sum_congr rfl fun r _ => ?_
  refine congrArg₂ (· * ·) ?_ ?_
  · show FloatOps.sitofp (F := Ideal) .f32
        ((IntOp.cmpi .eq (broadcastTo S2000x1000 (shapeCast S2000x1 v15 shapeCasts_S2000x1_S2000x1) broadcasts_S2000x1_S2000x1000 (ix2 r g))
          (iota .tc S2000x1000 32 [1] iota_S2000x1000_d1_w32 (ix2 r g))).setWidth 32) = _
    rw [colBcast_apply, shapeCast_self, iota_single_apply, onehot_word]
    rfl
  · show max (shapeCast S2000x128 v5 shapeCasts_S2000x128_S2000x128 (ix2 r j)
          * broadcastTo S2000x128 (shapeCast S2000x1 v3 shapeCasts_S2000x1_S2000x1) broadcasts_S2000x1_S2000x128 (ix2 r j)
          + broadcastTo S2000x128 (shapeCast S1x128 v9 shapeCasts_S1x128_S1x128) broadcasts_S1x128_S2000x128 (ix2 r j))
        (Ideal.ofBits .f32 0x00000000#32) = _
    rw [colBcast_apply, rowBcast_apply, shapeCast_self, shapeCast_self, shapeCast_self, Ideal.ofBits_zero_f32]

/-- The accumulator's start: zeros. -/
theorem pool_pay1_apply (i : S1000x128.Idx) : k3_pay1 (F := Ideal) i = 0 := by
  unfold k3_pay1
  rw [shapeCast_self]
  show Ideal.ofBits .f32 0x00000000#32 = 0
  exact Ideal.ofBits_zero_f32

end Cert.KernelIdeal.Val

end
-- ==== Proof.Val3Blk.lean ====
/-
  The pooling region's input blocks as rows of the arrays the region finds.

  Point `t` of the grid of 50 reads rows `2000 t … 2000 t + 1999` of the aggregate, of the per-node factor column and of the
  graph-number column; the bias row, the counts, the head's weights and its bias are whole-array blocks, the same at every point.
-/
import proofs.«404431_j37108517437514_3_alg».proof.Proof.FrR3
import proofs.«404431_j37108517437514_3_alg».proof.Proof.Spec
import Idealize.ShloMosaic.Lib.ValueIdx
import Idealize.ShloMosaic.Lib.Pipeline.Value

set_option maxRecDepth 16384

noncomputable section

namespace Cert.KernelIdeal.Val

open Cert.KernelIdeal Cert.KernelIdeal.Gen GCN Idealize.ShloMosaic Idealize.ShloMosaic.TcCoe Idealize.ShloMosaic.ValueIdx

open Cert.KernelIdeal.Fr

variable (V : (c : Dev nD) → (b : Ref sig .tc) → Buf (Elt Ideal) ((c : Thread nD τ).loc b))

/-- A grid point as a tile number. -/
def tileOf (t : Fin cfg3.N) : Fin 50 := ⟨t.val, Nat.lt_of_lt_of_eq t.isLt (show cfg3.N = 50 from N_3)⟩

/-- The printed index maps, decided over the grid: the three tiled windows move one block of rows per point; the others
    stay at block 0. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

/-- The aggregate's block at point `t`: rows `2000 t + r`. -/
theorem aggBlk_apply (c : Dev nD) (t : Fin cfg3.N) (r : Fin 2000) (q : Fin 128) :
    (iblk3 V c 0 t : Vec Ideal S2000x128 .f32) (ix2 r q)
      = (V c main_v56 : S100000x128.Idx → EReal) (ix2 (rowOf (tileOf t) r) q) := by
  obtain ⟨e0, e1, -⟩ := idx_facts3 t
  unfold iblk3
  rw [View.read_apply]
  show V c main_v56 _ = V c main_v56 _
  congr 1
  funext a
  apply Fin.ext
  match a with
  | ⟨0, _⟩ => show win3_0.index t 0 * 2000 + 1 * r.val = 2000 * t.val + r.val; rw [e0]; omega
  | ⟨1, _⟩ => show win3_0.index t 1 * 128 + 1 * q.val = q.val; rw [e1]; omega

/-- The factor column's block at point `t`: rows `2000 t + r`. -/
theorem dvBlk_apply (c : Dev nD) (t : Fin cfg3.N) (r : Fin 2000) :
    (iblk3 V c 2 t : Vec Ideal S2000x1 .f32) (ix2 r (0 : Fin 1))
      = (V c main_v17 : S100000x1.Idx → EReal) (ix2 (rowOf (tileOf t) r) (0 : Fin 1)) := by
  obtain ⟨-, -, -, -, e4, e5, e6, e7, -⟩ := idx_facts3 t
  unfold iblk3
  rw [View.read_apply]
  show V c main_v17 _ = V c main_v17 _
  congr 1
  funext a
  apply Fin.ext
  match a with
  | ⟨0, _⟩ => show win3_2.index t 0 * 2000 + 1 * r.val = 2000 * t.val + r.val; rw [e4]; omega
  | ⟨1, _⟩ => show win3_2.index t 1 * 1 + 1 * 0 = 0; rw [e5]

/-- The graph-number column's block at point `t`: rows `2000 t + r`. -/
theorem btBlk_apply (c : Dev nD) (t : Fin cfg3.N) (r : Fin 2000) :
    (iblk3 V c 3 t : Vec Ideal S2000x1 .i32) (ix2 r (0 : Fin 1))
      = (V c main_v18 : S100000x1.Idx → BitVec 32) (ix2 (rowOf (tileOf t) r) (0 : Fin 1)) := by
  obtain ⟨-, -, -, -, e4, e5, e6, e7, -⟩ := idx_facts3 t
  unfold iblk3
  rw [View.read_apply]
  show V c main_v18 _ = V c main_v18 _
  congr 1
  funext a
  apply Fin.ext
  match a with
  | ⟨0, _⟩ => show win3_3.index t 0 * 2000 + 1 * r.val = 2000 * t.val + r.val; rw [e6]; omega
  | ⟨1, _⟩ => show win3_3.index t 1 * 1 + 1 * 0 = 0; rw [e7]

/-- The bias row is one block, the same at every point. -/
theorem biasBlk_eq (c : Dev nD) (t : Fin cfg3.N) :
    (iblk3 V c 1 t : Vec Ideal S1x128 .f32) = (V c main_v62 : S1x128.Idx → EReal) := by
  obtain ⟨-, -, e0, e1, -⟩ := idx_facts3 t
  funext y
  unfold iblk3
  rw [View.read_apply]
  show V c main_v62 _ = V c main_v62 _
  congr 1
  funext a
  apply Fin.ext
  match a with
  | ⟨0, _⟩ => show win3_1.index t 0 * 1 + 1 * (y 0).val = (y 0).val; rw [e0]; omega
  | ⟨1, _⟩ => show win3_1.index t 1 * 128 + 1 * (y 1).val = (y 1).val; rw [e1]; omega

/-- The counts column is one block, the same at every point. -/
theorem cntBlk_eq (c : Dev nD) (t : Fin cfg3.N) :
    (iblk3 V c 4 t : Vec Ideal S1000x1 .f32) = (V c main_v61 : S1000x1.Idx → EReal) := by
  obtain ⟨-, -, -, -, -, -, -, -, e0, e1, -⟩ := idx_facts3 t
  funext y
  unfold iblk3
  rw [View.read_apply]
  show V c main_v61 _ = V c main_v61 _
  congr 1
  funext a
  apply Fin.ext
  match a with
  | ⟨0, _⟩ => show win3_4.index t 0 * 1000 + 1 * (y 0).val = (y 0).val; rw [e0]; omega
  | ⟨1, _⟩ => show win3_4.index t 1 * 1 + 1 * (y 1).val = (y 1).val; rw [e1]; omega

/-- The head's weights are one block, the same at every point. -/
theorem wlBlk_eq (c : Dev nD) (t : Fin cfg3.N) :
    (iblk3 V c 5 t : Vec Ideal S128x10 .f32) = (V c main_arg9 : S128x10.Idx → EReal) := by
  obtain ⟨-, -, -, -, -, -, -, -, -, -, e0, e1, -⟩ := idx_facts3 t
  funext y
  unfold iblk3
  rw [View.read_apply]
  show V c main_arg9 _ = V c main_arg9 _
  congr 1
  funext a
  apply Fin.ext
  match a with
  | ⟨0, _⟩ => show win3_5.index t 0 * 128 + 1 * (y 0).val = (y 0).val; rw [e0]; omega
  | ⟨1, _⟩ => show win3_5.index t 1 * 10 + 1 * (y 1).val = (y 1).val; rw [e1]; omega

/-- The head's bias row is one block, the same at every point. -/
theorem blBlk_eq (c : Dev nD) (t : Fin cfg3.N) :
    (iblk3 V c 6 t : Vec Ideal S1x10 .f32) = (V c main_v63 : S1x10.Idx → EReal) := by
  obtain ⟨-, -, -, -, -, -, -, -, -, -, -, -, e0, e1, -⟩ := idx_facts3 t
  funext y
  unfold iblk3
  rw [View.read_apply]
  show V c main_v63 _ = V c main_v63 _
  congr 1
  funext a
  apply Fin.ext
  match a with
  | ⟨0, _⟩ => show win3_6.index t 0 * 1 + 1 * (y 0).val = (y 0).val; rw [e0]; omega
  | ⟨1, _⟩ => show win3_6.index t 1 * 10 + 1 * (y 1).val = (y 1).val; rw [e1]; omega

end Cert.KernelIdeal.Val

end
-- ==== Proof.Val3.lean ====
/-
  The pooling region's result array.

  The accumulator after point `n` holds, at (g, j), the sum over the tiles 0 … n of the tile's one-hot product: by induction on the
  point, each point adding its tile. After the last point that is the whole pooled sum; the closing payload divides by the clamped
  counts and applies the head, and the output window — one whole-array block, written back at the last point only — ends
  holding exactly that.
-/
import proofs.«404431_j37108517437514_3_alg».proof.Proof.FrR3
import proofs.«404431_j37108517437514_3_alg».proof.Proof.Spec
import proofs.«404431_j37108517437514_3_alg».proof.Proof.Val3Pay
import proofs.«404431_j37108517437514_3_alg».proof.Proof.Val3Blk
import Idealize.ShloMosaic.Lib.ValueIdx
import Idealize.ShloMosaic.Lib.Pipeline.Value
import Mathlib.Algebra.BigOperators.Fin

set_option maxRecDepth 16384

noncomputable section

namespace Cert.KernelIdeal.Val

open Cert.KernelIdeal Cert.KernelIdeal.Gen GCN Idealize.ShloMosaic Idealize.ShloMosaic.TcCoe Idealize.ShloMosaic.ValueIdx

open Cert.KernelIdeal.Fr

variable (V : (c : Dev nD) → (b : Ref sig .tc) → Buf (Elt Ideal) ((c : Thread nD τ).loc b))

/-! ## The pooled sums, tile by tile -/

/-- The third aggregate the region finds; the rows it pools are this scaled by the node's factor, biased, cut at zero. -/
abbrev agg3 (c : Dev nD) : Fin 100000 → Fin 128 → EReal := rd2 (V c main_v56 : S100000x128.Idx → EReal)
/-- The per-node factor the region finds. -/
abbrev dv3 (c : Dev nD) : Fin 100000 → EReal := col (V c main_v17 : S100000x1.Idx → EReal)
/-- The bias row the region finds. -/
abbrev bias3 (c : Dev nD) : Fin 128 → EReal := row (V c main_v62 : S1x128.Idx → EReal)
/-- The activated rows. -/
abbrev act3 (c : Dev nD) : Fin 100000 → Fin 128 → EReal :=
  fun n j => max (agg3 V c n j * dv3 V c n + bias3 V c j) 0

/-- The graph numbers the region pools by. -/
abbrev bt3 (c : Dev nD) : Fin 100000 → BitVec 32 := col (V c main_v18 : S100000x1.Idx → BitVec 32)

/-- Tile `t`'s contribution to graph `g`'s pooled sum. -/
def tileSum (h : Fin 100000 → Fin 128 → EReal) (bt : Fin 100000 → BitVec 32) (g : Fin 1000) (j : Fin 128) (t : Fin 50) : EReal :=
  ∑ r : Fin 2000, oneHot (bt (rowOf t r)) g * h (rowOf t r) j

/-- The pooled sum over the tiles 0 … n. -/
def partSum (h : Fin 100000 → Fin 128 → EReal) (bt : Fin 100000 → BitVec 32) (g : Fin 1000) (j : Fin 128) (n : ℕ) : EReal :=
  ∑ t ∈ Finset.range (n + 1), if ht : t < 50 then tileSum h bt g j ⟨t, ht⟩ else 0

/-- Over all fifty tiles it is the pooled sum. -/
theorem partSum_last (h : Fin 100000 → Fin 128 → EReal) (bt : Fin 100000 → BitVec 32) (g : Fin 1000) (j : Fin 128) :
    partSum h bt g j 49 = poolK h bt g j := by
  unfold partSum poolK
  show ∑ t ∈ Finset.range 50, _ = _
  rw [Finset.sum_range]
  refine Finset.sum_congr rfl fun t _ => ?_
  rw [dif_pos t.isLt]
  rfl

/-- One point adds its tile to what the accumulator held. -/
theorem point_apply (c : Dev nD) (t : Fin cfg3.N) (a : Vec Ideal S1000x128 .f32) (g : Fin 1000) (j : Fin 128) :
    k3_pay2 (F := Ideal) (iblk3 V c 2 t) (iblk3 V c 0 t) (iblk3 V c 1 t) (iblk3 V c 3 t) a (ix2 g j)
      = a (ix2 g j) + tileSum (act3 V c) (bt3 V c) g j (tileOf t) := by
  refine (pool_pay2_apply (iblk3 V c 2 t) (iblk3 V c 0 t) (iblk3 V c 1 t) (iblk3 V c 3 t) a g j).trans ?_
  refine congrArg (a (ix2 g j) + ·) (Finset.sum_congr rfl fun r _ => ?_)
  rw [aggBlk_apply, dvBlk_apply, btBlk_apply, biasBlk_eq]

/-- The accumulator after point `n`: the pooled sum over the tiles 0 … n. -/
theorem acc3_apply (c : Dev nD) : ∀ (n : ℕ) (hn : n < cfg3.N) (g : Fin 1000) (j : Fin 128),
    acc3 V c n hn (ix2 g j) = partSum (act3 V c) (bt3 V c) g j n
  | 0, hn, g, j => by
    show k3_pay2 (F := Ideal) (iblk3 V c 2 ⟨0, hn⟩) (iblk3 V c 0 ⟨0, hn⟩) (iblk3 V c 1 ⟨0, hn⟩) (iblk3 V c 3 ⟨0, hn⟩)
      (k3_pay1 (F := Ideal)) (ix2 g j) = _
    rw [point_apply, pool_pay1_apply, zero_add]
    unfold partSum
    rw [Finset.sum_range_one, dif_pos (by decide)]
    rfl
  | n + 1, hn, g, j => by
    show k3_pay2 (F := Ideal) (iblk3 V c 2 ⟨n + 1, hn⟩) (iblk3 V c 0 ⟨n + 1, hn⟩) (iblk3 V c 1 ⟨n + 1, hn⟩)
      (iblk3 V c 3 ⟨n + 1, hn⟩) (acc3 V c n (Nat.lt_of_succ_lt hn)) (ix2 g j) = _
    have hn' : n + 1 < 50 := Nat.lt_of_lt_of_eq hn (show cfg3.N = 50 from N_3)
    rw [point_apply, acc3_apply c n (Nat.lt_of_succ_lt hn) g j]
    unfold partSum
    rw [Finset.sum_range_succ _ (n + 1), dif_pos hn']
    rfl

/-! ## The output window -/

/-- The last point of the grid. -/
def last3 : Fin cfg3.N := ⟨49, by rw [show cfg3.N = 50 from N_3]; decide⟩

/-- What the last point stores, entry by entry: the head of the mean pool. -/
theorem out_last_apply (c : Dev nD) (g : Fin 1000) (o : Fin 10) :
    (out3_7 V c last3 : Vec Ideal S1000x10 .f32) (ix2 g o)
      = G3 (rd2 (V c main_v56 : S100000x128.Idx → EReal)) (row (V c main_v62 : S1x128.Idx → EReal))
          (col (V c main_v17 : S100000x1.Idx → EReal)) (col (V c main_v18 : S100000x1.Idx → BitVec 32))
          (col (V c main_v61 : S1000x1.Idx → EReal)) (rd2 (V c main_arg9 : S128x10.Idx → EReal))
          (row (V c main_v63 : S1x10.Idx → EReal)) g o := by
  unfold out3_7
  refine (pool_pay3_apply (iblk3 V c 4 last3) (acc3 V c last3.val last3.isLt) (iblk3 V c 5 last3) (iblk3 V c 6 last3) g o).trans ?_
  rw [cntBlk_eq, wlBlk_eq, blBlk_eq]
  unfold G3 head
  refine congrArg (· + _) (Finset.sum_congr rfl fun j _ => ?_)
  rw [acc3_apply V c last3.val last3.isLt g j]
  show Ideal.div (partSum (act3 V c) (bt3 V c) g j 49) _ * _ = _
  rw [partSum_last]

/-- The one write-back, at the last point, writes what that point stored: the window's one block is the whole array. -/
theorem flushed7_eq (c : Dev nD) (t : Fin cfg3.N) (hf : (cfg3.win 7).flush t = true) :
    (dat3 V c).flushed 7 t = ((cfg3.win 7).blk t).view.read (Elt Ideal) (out3_7 V c last3) := by
  have hN : cfg3.N = 50 := N_3
  have h1 : t.val = 49 := by have := (flush3_7 t).mp hf; have := t.isLt; omega
  obtain rfl : t = last3 := Fin.ext h1
  obtain ⟨-, -, -, -, -, -, -, -, -, -, -, -, -, -, e0, e1⟩ := idx_facts3 last3
  show (cfg3.win 7).cut (grid3.coords last3) ((dat3 V c).after 7 last3) = _
  rw [after3_7]
  funext y
  rw [View.read_apply]
  show out3_7 V c last3 _ = out3_7 V c last3 _
  congr 1
  funext a
  apply Fin.ext
  match a with
  | ⟨0, _⟩ => show (y 0).val = win3_7.index last3 0 * 1000 + 1 * (y 0).val; rw [e0]; omega
  | ⟨1, _⟩ => show (y 1).val = win3_7.index last3 1 * 10 + 1 * (y 1).val; rw [e1]; omega

/-- Every index of the output array lies in the last point's block. -/
theorem cover7 (i : S1000x10.Idx) : i ∈ ((cfg3.win 7).blk last3).view.set := by
  obtain ⟨-, -, -, -, -, -, -, -, -, -, -, -, -, -, e0, e1⟩ := idx_facts3 last3
  show i ∈ ((View.whole main_v64).slice (win3_7.rect last3)).set
  rw [View.set_slice_whole, Rect.mem_set_unit]
  intro a
  have h0 : (i 0).val < 1000 := (i 0).isLt
  have h1 : (i 1).val < 10 := (i 1).isLt
  match a with
  | ⟨0, _⟩ =>
    show win3_7.index last3 0 * 1000 ≤ (i 0).val ∧ (i 0).val < win3_7.index last3 0 * 1000 + 1000
    rw [e0]; omega
  | ⟨1, _⟩ =>
    show win3_7.index last3 1 * 10 ≤ (i 1).val ∧ (i 1).val < win3_7.index last3 1 * 10 + 10
    rw [e1]; omega

/-- The output array after the region is what the last point stored. -/
theorem arr3_eq (c : Dev nD) : (dat3 V c).arrAt 7 cfg3.N = out3_7 V c last3 :=
  (dat3 V c).arrAt_eq_of_cover 7 (out3_7 V c last3) (flushed7_eq V c)
    fun i => ⟨last3, (flush3_7 last3).mpr rfl, cover7 i⟩

/-- THE REGION'S RESULT: the head of the mean pool of the activated third aggregate. -/
theorem final3 (c : Dev nD) :
    rd2 ((dat3 V c).arrAt 7 cfg3.N : S1000x10.Idx → EReal)
      = G3 (rd2 (V c main_v56 : S100000x128.Idx → EReal)) (row (V c main_v62 : S1x128.Idx → EReal))
          (col (V c main_v17 : S100000x1.Idx → EReal)) (col (V c main_v18 : S100000x1.Idx → BitVec 32))
          (col (V c main_v61 : S1000x1.Idx → EReal)) (rd2 (V c main_arg9 : S128x10.Idx → EReal))
          (row (V c main_v63 : S1x10.Idx → EReal)) := by
  funext g o
  show ((dat3 V c).arrAt 7 cfg3.N : S1000x10.Idx → EReal) (ix2 g o) = _
  rw [arr3_eq]
  exact out_last_apply V c g o

end Cert.KernelIdeal.Val

end
-- ==== Proof.Names.lean ====
/-
  Names for the index vectors and per-node quantities both programs compute from the edge list and the graph numbers by
  the same host operations: the wrapped source column, the raw and the wrapped destination columns, the per-node factor
  `1 / sqrt (max degree 1)` (zero where the degree is zero), and the per-graph node counts. They are named after the reference's
  stages so that neither program's proof opens the operations that compute them.
-/
import proofs.«404431_j37108517437514_3_alg».proof.Proof.RefReadP
import proofs.«404431_j37108517437514_3_alg».proof.Proof.Spec

noncomputable section

namespace GCN

open Idealize.ShloMosaic Cert.ReferenceIdeal Cert.ReferenceIdeal.ReadP

/-- The edge list `[2, 1600000]` and the graph numbers `[100000]` as the programs hold them. -/
abbrev EdgeList : Type := (⟨S2x1600000, .i32⟩ : BufTy).Contents (Elt Ideal)
abbrev GraphIds : Type := (⟨S100000, .i32⟩ : BufTy).Contents (Elt Ideal)

/-- Edge `e`'s source number, negative numbers wrapped by 100000 (1600000 given edges, then one self loop per node). -/
def SRC (ei : EdgeList) : Fin 1700000 → BitVec 32 := col (val_main_v38 (F := Ideal) ei)
/-- Edge `e`'s destination number as given. -/
def DST (ei : EdgeList) : Fin 1700000 → BitVec 32 := col (val_main_v44 (F := Ideal) ei)
/-- Edge `e`'s destination number, negative numbers wrapped by 100000. -/
def DSTW (ei : EdgeList) : Fin 1700000 → BitVec 32 := col (val_main_v29 (F := Ideal) ei)
/-- Node `n`'s factor. -/
def DV (ei : EdgeList) : Fin 100000 → EReal := rd1 (val_main_v16 (F := Ideal) ei)
/-- Graph `g`'s node count. -/
def CNT (bt : GraphIds) : Fin 1000 → EReal := rd1 (val_main_v92 (F := Ideal) bt)
/-- Node `n`'s graph number. -/
def BT (bt : GraphIds) : Fin 100000 → BitVec 32 := rd1 bt

end GCN

end
-- ==== Proof.LibRowScatter.lean ====
/-
  A row scatter-add read at an index, over the extended reals.

  jax's `segment_sum(upd, ids, N)` of updates `upd : [n, C]` lowers to a `stablehlo.scatter` with an `add` body whose scatter
  indices are the column `[n, 1]` of row numbers: operand axis 0 is the one inserted window axis and the one scattered axis,
  update axis 1 is the one window axis and carries the whole row. Update element `(e, p)` lands on operand element `(r, p)`
  exactly when the `e`-th row number, read as a signed integer and NOT clamped, is `r`; a row number outside `[0, N)` drops
  its row. Result element `(r, q)` is then the operand's plus the sum of `upd (e, q)` over the rows `e` numbered `r`.
-/
import Mathlib.Algebra.BigOperators.Group.Finset.Defs
import Idealize.ShloMosaic.Lib.ValueIdx
import Idealize.ShloMosaic.PureOps.Ideal

noncomputable section

namespace Idealize.ShloMosaic.RowScatter

open Idealize.ShloMosaic Idealize.ShloMosaic.ValueIdx

/-- The dimension numbers of a row scatter into a table `[N, C]` of updates `[n, C]` by a column `[n, 1]` of row numbers;
    their conditions `wf` are decided on a program's literal shapes. -/
abbrev rowDims (N C n : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- On the row axis the window starts at the update row's number, read signed off the column of row numbers: the axis is the
    one the map names, and the scatter-indices index read is the update's row with `0` on the index vector's axis. -/
theorem start_row {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) :
    (rowDims N C n wf).start (ix2 e p) idx 0 = (idx (ix2 e (0 : Fin 1))).toInt := by
  unfold ScatterDims.start
  rw [dif_pos (show (0 : Fin 2) ∈ (rowDims N C n wf).scatterDimsToOperandDims from List.mem_singleton.mpr rfl)]
  have hsi : (rowDims N C n wf).siIdx (ix2 e p) ⟨List.idxOf (0 : Fin 2) (rowDims N C n wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero: the map does not name that axis. -/
theorem start_col {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) :
    (rowDims N C n wf).start (ix2 e p) idx 1 = 0 := by
  unfold ScatterDims.start
  have h1 : ¬ (1 : Fin 2) ∈ ([0] : List (Fin 2)) := by decide
  rw [dif_neg (show ¬ (1 : Fin 2) ∈ (rowDims N C n wf).scatterDimsToOperandDims from h1)]

/-- The row axis is the inserted window axis: its window coordinate is zero. -/
theorem window_row {N C n : Nat}
    (wf : ScatterDims.WF ⟨2, ![N, C]⟩ ⟨2, ![n, 1]⟩ ⟨2, ![n, C]⟩ [1] [0] [0] 1) (e : Fin n) (p : Fin C) :
    (rowDims N C n wf).window (ix2 e p) 0 = 0 := by
  unfold ScatterDims.window
  have h0 : ¬ (0 : Fin 2) ∈ ([1] : List (Fin 2)) := by decide
  rw [dif_neg (show ¬ (0 : Fin 2) ∈ (rowDims N C n wf).sKept from h0)]

/-- The column axis is the one kept operand axis: its window coordinate is the update's own column. -/
theorem window_col {N C n : Nat}
    (wf : ScatterDims.WF ⟨2, ![N, C]⟩ ⟨2, ![n, 1]⟩ ⟨2, ![n, C]⟩ [1] [0] [0] 1) (e : Fin n) (p : Fin C) :
    (rowDims N C n wf).window (ix2 e p) 1 = p.val := by
  unfold ScatterDims.window
  rw [dif_pos (show (1 : Fin 2) ∈ (rowDims N C n wf).sKept from List.mem_singleton.mpr rfl)]
  rfl

/-- Where an update element lands: `(e, p)` lands on `(r, q)` exactly when row `e`'s number, read signed, is `r`, and the
    columns agree. -/
theorem resultIdx?_eq_some_iff {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) (r : Fin N) (q : Fin C) :
    (rowDims N C n wf).resultIdx? (ix2 e p) idx = some (ix2 r q)
      ↔ (idx (ix2 e (0 : Fin 1))).toInt = (r.val : Int) ∧ p = q := by
  have hs0 := start_row wf idx e p
  have hs1 := start_col wf idx e p
  have hw0 := window_row wf e p
  have hw1 := window_col wf e p
  unfold ScatterDims.resultIdx?
  constructor
  · intro h
    split at h
    · rename_i hb
      have hf := Option.some.inj h
      have h0 := congrArg Fin.val (congrFun hf 0)
      have h1 := congrArg Fin.val (congrFun hf 1)
      have hb0 := (hb 0).1
      simp only [hs0, hw0] at h0 hb0
      simp only [hs1, hw1] at h1
      change ((idx (ix2 e (0 : Fin 1))).toInt + ((0 : Nat) : Int)).toNat = r.val at h0
      change ((0 : Int) + (p.val : Int)).toNat = q.val at h1
      refine ⟨by omega, Fin.ext (by omega)⟩
    · exact absurd h (by simp)
  · rintro ⟨hr, rfl⟩
    have hb : ∀ a, 0 ≤ (rowDims N C n wf).start (ix2 e p) idx a + (rowDims N C n wf).window (ix2 e p) a
        ∧ (rowDims N C n wf).start (ix2 e p) idx a + (rowDims N C n wf).window (ix2 e p) a
          < (⟨2, ![N, C]⟩ : Shape).size a := by
      intro a
      match a with
      | ⟨0, _⟩ =>
        have hN : r.val < N := r.isLt
        show 0 ≤ (rowDims N C n wf).start (ix2 e p) idx 0 + (rowDims N C n wf).window (ix2 e p) 0
          ∧ (rowDims N C n wf).start (ix2 e p) idx 0 + (rowDims N C n wf).window (ix2 e p) 0 < (N : Int)
        rw [hs0, hw0, hr]; omega
      | ⟨1, _⟩ =>
        have hC : p.val < C := p.isLt
        show 0 ≤ (rowDims N C n wf).start (ix2 e p) idx 1 + (rowDims N C n wf).window (ix2 e p) 1
          ∧ (rowDims N C n wf).start (ix2 e p) idx 1 + (rowDims N C n wf).window (ix2 e p) 1 < (C : Int)
        rw [hs1, hw1]; omega
    rw [dif_pos hb]
    congr 1
    funext a
    refine Fin.ext ?_
    match a with
    | ⟨0, _⟩ =>
      show ((rowDims N C n wf).start (ix2 e p) idx 0 + (rowDims N C n wf).window (ix2 e p) 0).toNat = r.val
      rw [hs0, hw0, hr]; omega
    | ⟨1, _⟩ =>
      show ((rowDims N C n wf).start (ix2 e p) idx 1 + (rowDims N C n wf).window (ix2 e p) 1).toNat = p.val
      rw [hs1, hw1]; omega

/-- THE ROW SCATTER-ADD READ AT `(r, q)`: the operand's element plus the sum, over the update rows `e` whose row number read
    signed is `r`, of the update's element `(e, q)`. The update elements landing on `(r, q)` are exactly the `(e, q)` with
    row `e` numbered `r`, one for each such row: the sum over them is re-indexed by the row. -/
theorem scatterAdd_rows_apply {N C n w : Nat}
    (wf : ScatterDims.WF ⟨2, ![N, C]⟩ ⟨2, ![n, 1]⟩ ⟨2, ![n, C]⟩ [1] [0] [0] 1)
    (x : (⟨2, ![N, C]⟩ : Shape).Idx → EReal) (idx : IVec ⟨2, ![n, 1]⟩ w)
    (upd : (⟨2, ![n, C]⟩ : Shape).Idx → EReal) (r : Fin N) (q : Fin C) :
    Ideal.hostScatterAdd (rowDims N C n wf) x idx upd (ix2 r q)
      = x (ix2 r q) + ∑ e ∈ Finset.univ.filter (fun e : Fin n => (idx (ix2 e (0 : Fin 1))).toInt = (r.val : Int)),
          upd (ix2 e q) := by
  unfold Ideal.hostScatterAdd
  congr 1
  symm
  refine Finset.sum_nbij' (fun e : Fin n => ix2 e q) (fun j => (j 0 : Fin n)) ?_ ?_ ?_ ?_ ?_
  · intro e he
    rw [Finset.mem_filter] at he ⊢
    exact ⟨Finset.mem_univ _, (resultIdx?_eq_some_iff wf idx e q r q).mpr ⟨he.2, rfl⟩⟩
  · intro j hj
    obtain ⟨e, p, rfl⟩ : ∃ (e : Fin n) (p : Fin C), j = ix2 e p := ⟨j 0, j 1, eq_ix2 j⟩
    rw [Finset.mem_filter] at hj
    exact Finset.mem_filter.mpr ⟨Finset.mem_univ e, ((resultIdx?_eq_some_iff wf idx e p r q).mp hj.2).1⟩
  · intro e _
    rfl
  · intro j hj
    obtain ⟨e, p, rfl⟩ : ∃ (e : Fin n) (p : Fin C), j = ix2 e p := ⟨j 0, j 1, eq_ix2 j⟩
    rw [Finset.mem_filter] at hj
    have hpq := ((resultIdx?_eq_some_iff wf idx e p r q).mp hj.2).2
    subst hpq
    rfl
  · intro e _
    rfl

end Idealize.ShloMosaic.RowScatter

end
-- ==== Proof.LibRowGather.lean ====
/-
  A row gather read at an index.

  jnp's `table[idx]` of a matrix `table : [N, C]` at a vector of row numbers lowers to a `stablehlo.gather` whose
  start indices are the column `[n, 1]` of row numbers: operand axis 0 is collapsed and is the one start-indexed axis,
  axis 1 of the result is the one offset axis and carries the whole row (slice sizes `[1, C]`). Result element
  `(k, q)` is then the table's entry `(r, q)`, where `r` is the `k`-th row number read as a signed integer and
  clamped into `[0, N - 1]`: a row gather never reads outside the table, a negative row number reads row 0 and one
  past the end reads the last row.
-/
import Idealize.ShloMosaic.Lib.ValueIdx

noncomputable section

namespace Idealize.ShloMosaic.RowGather

open Idealize.ShloMosaic Idealize.ShloMosaic.ValueIdx

variable {α : Type}

/-- The dimension numbers of a row gather from a table `[N, C]` by a column `[n, 1]` of row numbers into `[n, C]`; their
    conditions `wf` are decided on a program's literal shapes. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, q)`: the table at row `idx[k, 0]`, read signed and clamped into `[0, N - 1]`, and
    column `q`. On the row axis the start is the clamped row number and nothing is added to it (the axis is collapsed and
    there is no batching axis); on the column axis the start is zero (the axis is not start-indexed) and the offset is
    the result's own column. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (k : Fin n) (q : Fin C) :
    Host.gather (rowDims N C n wf) x idx (ix2 k q)
      = x (ix2 ⟨min (idx (ix2 k (0 : Fin 1))).toInt.toNat (N - 1), by omega⟩ q) := by
  unfold Host.gather
  congr 1
  funext a
  refine Fin.ext ?_
  match a with
  | ⟨0, _⟩ =>
    show (rowDims N C n wf).start (ix2 k q) idx 0 + (rowDims N C n wf).batchCoord (ix2 k q) 0
        + (rowDims N C n wf).offCoord (ix2 k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    have hsi : (rowDims N C n wf).siIdx (ix2 k q) ⟨List.idxOf (0 : Fin 2) (rowDims N C n wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowDims N C n wf).start (ix2 k q) idx 1 + (rowDims N C n wf).batchCoord (ix2 k q) 1
        + (rowDims N C n wf).offCoord (ix2 k q) 1 = q.val
    rw [GatherDims.batchCoord_eq_zero _ _ _ List.not_mem_nil]
    unfold GatherDims.start
    have h1 : ¬ (1 : Fin 2) ∈ ([0] : List (Fin 2)) := by decide
    rw [dif_neg (show ¬ (1 : Fin 2) ∈ (rowDims N C n wf).startIndexMap from h1)]
    unfold GatherDims.offCoord
    rw [dif_pos ((GatherDims.mem_sKept _ _).mpr ⟨h1, List.not_mem_nil⟩), Nat.zero_add]
    rfl

end Idealize.ShloMosaic.RowGather

end
-- ==== Proof.LibKeepdims.lean ====
/-
  Two keepdims broadcasts read at an index, for any extents and any element type.

  A rank-2 array given a unit axis by a shape cast and then broadcast along that axis to rank 3 reads, at (p, q, s), the
  operand at the two coordinates it had: a per-(p, q) value spread over the last axis (`[n, a] → [n, a, 1] → [n, a, c]`),
  and a per-(p, s) value spread over the middle axis (`[n, c] → [n, 1, c] → [n, a, c]`). The shape cast keeps the
  row-major position and the broadcast reads coordinate 0 on the unit axis.
-/
import Idealize.ShloMosaic.Lib.Pipeline.Value
import Idealize.ShloMosaic.Lib.ValueIdx

namespace Cert.Keepdims

open Idealize.ShloMosaic Idealize.ShloMosaic.ValueIdx

variable {α : Type}

/-- `[n, a] → [n, a, 1] → [n, a, c]`: the value at (p, q), whatever the last coordinate. -/
theorem spreadLast_apply {n a c : ℕ} (x : (⟨2, ![n, a]⟩ : Shape).Idx → α)
    (h1 : (⟨2, ![n, a]⟩ : Shape).ShapeCasts ⟨3, ![n, a, 1]⟩) (h2 : (⟨3, ![n, a, 1]⟩ : Shape).Broadcasts ⟨3, ![n, a, c]⟩)
    (p : Fin n) (q : Fin a) (s : Fin c) :
    broadcastTo ⟨3, ![n, a, c]⟩ (shapeCast ⟨3, ![n, a, 1]⟩ x h1) h2 (ix3 p q s) = x (ix2 p q) := by
  refine (broadcastTo_apply _ h2 (ix3 p q s) (ix3 p q (0 : Fin 1)) fun ax => ?_).trans ?_
  · match ax with
    | ⟨0, _⟩ =>
      show p.val = if n = 1 then 0 else p.val
      split
      · have := p.isLt; omega
      · rfl
    | ⟨1, _⟩ =>
      show q.val = if a = 1 then 0 else q.val
      split
      · have := q.isLt; omega
      · rfl
    | ⟨2, _⟩ => rfl
  · exact shapeCast_apply x h1 _ _ (by
      rw [Shape.rowMajor_val_two, Shape.rowMajor_val_three]
      show p.val * a + q.val = (p.val * a + q.val) * 1 + 0
      rw [Nat.mul_one, Nat.add_zero])

/-- `[n, c] → [n, 1, c] → [n, a, c]`: the value at (p, s), whatever the middle coordinate. -/
theorem spreadMid_apply {n a c : ℕ} (x : (⟨2, ![n, c]⟩ : Shape).Idx → α)
    (h1 : (⟨2, ![n, c]⟩ : Shape).ShapeCasts ⟨3, ![n, 1, c]⟩) (h2 : (⟨3, ![n, 1, c]⟩ : Shape).Broadcasts ⟨3, ![n, a, c]⟩)
    (p : Fin n) (q : Fin a) (s : Fin c) :
    broadcastTo ⟨3, ![n, a, c]⟩ (shapeCast ⟨3, ![n, 1, c]⟩ x h1) h2 (ix3 p q s) = x (ix2 p s) := by
  refine (broadcastTo_apply _ h2 (ix3 p q s) (ix3 p (0 : Fin 1) s) fun ax => ?_).trans ?_
  · match ax with
    | ⟨0, _⟩ =>
      show p.val = if n = 1 then 0 else p.val
      split
      · have := p.isLt; omega
      · rfl
    | ⟨1, _⟩ => rfl
    | ⟨2, _⟩ =>
      show s.val = if c = 1 then 0 else s.val
      split
      · have := s.isLt; omega
      · rfl
  · exact shapeCast_apply x h1 _ _ (by
      rw [Shape.rowMajor_val_two, Shape.rowMajor_val_three]
      show p.val * c + s.val = (p.val * 1 + 0) * c + s.val
      rw [Nat.mul_one, Nat.add_zero])

end Cert.Keepdims
-- ==== Proof.KHost.lean ====
/-
  The kernel's host stretches read in the common language, for arbitrary contents of the TensorCore's buffers on entry.

  Between its four regions the kernel runs short stretches of host operations: the edge columns and the per-node factor
  (the same chains of operations the reference runs), reshapes of vectors into one-column or one-row matrices, and, per
  layer, a message-passing step: a row gather of the region's output by the wrapped source column, a conversion that is
  the identity over the extended reals, and a row scatter-add by the raw destination column into zeros. Each is read
  here entry by entry as the functions of Spec.lean.
-/
import proofs.«404431_j37108517437514_3_alg».proof.Proof.Names
import proofs.«404431_j37108517437514_3_alg».proof.Proof.Spec
import proofs.«404431_j37108517437514_3_alg».proof.Proof.RefReadP
import proofs.«404431_j37108517437514_3_alg».proof.Proof.Gen.KernelIdeal.Launch
import proofs.«404431_j37108517437514_3_alg».proof.Proof.LibRowScatter
import proofs.«404431_j37108517437514_3_alg».proof.Proof.LibRowGather
import proofs.«404431_j37108517437514_3_alg».proof.Proof.LibKeepdims
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

set_option maxRecDepth 4096

noncomputable section

namespace GCN.K

open Cert.KernelIdeal Cert.KernelIdeal.Gen
open Idealize.ShloMosaic Idealize.ShloMosaic.TcCoe Idealize.ShloMosaic.ValueIdx
open Idealize.SL.Sem

/-- A column of edge numbers with negative numbers wrapped by 100000. -/
def wrapCol (v : (⟨1, ![1700000]⟩ : Shape).Idx → BitVec 32) : Fin 1700000 → BitVec 32 :=
  fun e => if (v (ix1 e)).toInt < 0 then v (ix1 e) + 100000#32 else v (ix1 e)

/-- A column of edge numbers as given. -/
def rawCol (v : (⟨1, ![1700000]⟩ : Shape).Idx → BitVec 32) : Fin 1700000 → BitVec 32 :=
  fun e => v (ix1 e)

variable (W : Valuation Cert.KernelIdeal.τ Cert.KernelIdeal.sig (Elt Ideal))

/-! ## The first stretch: the edge columns and the per-node factor are the reference's stages -/

open StableHlo in
theorem v3_eq : StableHlo.after hostOps0 W main_v3 = Cert.ReferenceIdeal.ReadP.val_main_v3 (F := Ideal) (W main_arg1) := by
  show StableHlo.after hostOps0 W (Proc.devRef .tc main_v3) = _
  after_results
  rfl
open StableHlo in
theorem v6_eq : StableHlo.after hostOps0 W main_v6 = Cert.ReferenceIdeal.ReadP.val_main_v6 (F := Ideal) (W main_arg1) := by
  show StableHlo.after hostOps0 W (Proc.devRef .tc main_v6) = _
  after_results
  rfl
open StableHlo in
theorem v12_eq : StableHlo.after hostOps0 W main_v12 = Cert.ReferenceIdeal.ReadP.val_main_v12 (F := Ideal) (W main_arg1) := by
  show StableHlo.after hostOps0 W (Proc.devRef .tc main_v12) = _
  after_results
  rfl
open StableHlo in
theorem v15_eq : StableHlo.after hostOps0 W main_v15 = Cert.ReferenceIdeal.ReadP.val_main_v15 (F := Ideal) (W main_arg1) := by
  show StableHlo.after hostOps0 W (Proc.devRef .tc main_v15) = _
  after_results
  rfl
open StableHlo in
theorem cst3_eq : StableHlo.after hostOps0 W main_cst_3 = Cert.ReferenceIdeal.ReadP.val_main_cst_3 (F := Ideal) := by
  show StableHlo.after hostOps0 W (Proc.devRef .tc main_cst_3) = _
  after_results
  rfl
/-- The selection of the second stretch, over any contents. -/
theorem where_eq : StableHlo.after hostOps0_1 W main_v16
    = select (W main_v12) (W main_v15) (broadcastInDim S100000 ![] bcast_S_S100000 (W main_cst_3)) := by
  show StableHlo.after hostOps0_1 W (Proc.devRef .tc main_v16) = _
  open StableHlo in after_results
  rfl
theorem v16_eq : StableHlo.after hostOps0_1 (StableHlo.after hostOps0 W) main_v16 = Cert.ReferenceIdeal.ReadP.val_main_v16 (F := Ideal) (W main_arg1) := by
  refine (where_eq (StableHlo.after hostOps0 W)).trans ?_
  rw [v12_eq, v15_eq, cst3_eq]
  rfl

/-! ## Reshapes of a vector into a one-column or a one-row matrix -/

/-- A vector spread to a one-column matrix reads, at (e, 0), the vector at e. -/
theorem bc_col {α : Type} {n : Nat} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e (0 : Fin 1)) = v (ix1 e) := by
  refine broadcastInDim_apply _ h v _ _ (fun a => ?_)
  match a with
  | ⟨0, _⟩ =>
    show e.val = if n = 1 then 0 else e.val
    split
    · have := e.isLt; omega
    · rfl

/-- A vector cast to a one-column matrix reads, at (e, 0), the vector at e: the row-major position is kept. -/
theorem cast_col {α : Type} {n : Nat} (h : (⟨1, ![n]⟩ : Shape).ShapeCasts ⟨2, ![n, 1]⟩)
    (v : (⟨1, ![n]⟩ : Shape).Idx → α) (e : Fin n) :
    shapeCast ⟨2, ![n, 1]⟩ v h (ix2 e (0 : Fin 1)) = v (ix1 e) := by
  refine shapeCast_apply v h _ _ ?_
  rw [Shape.rowMajor_val_two, Shape.rowMajor_val_one]
  show e.val = e.val * 1 + 0
  omega

/-- A vector cast to a one-row matrix reads, at (0, q), the vector at q. -/
theorem cast_row {α : Type} {m : Nat} (h : (⟨1, ![m]⟩ : Shape).ShapeCasts ⟨2, ![1, m]⟩)
    (v : (⟨1, ![m]⟩ : Shape).Idx → α) (q : Fin m) :
    shapeCast ⟨2, ![1, m]⟩ v h (ix2 (0 : Fin 1) q) = v (ix1 q) := by
  refine shapeCast_apply v h _ _ ?_
  rw [Shape.rowMajor_val_two, Shape.rowMajor_val_one]
  show q.val = 0 * m + q.val
  omega

open StableHlo in
theorem v17_col : col (StableHlo.after hostOps0_2 W main_v17) = rd1 (W main_v16) := by
  funext n
  show StableHlo.after hostOps0_2 W (Proc.devRef .tc main_v17) (ix2 n (0 : Fin 1)) = _
  after_results
  exact cast_col shapeCasts_S100000_S100000x1 _ n
open StableHlo in
theorem v18_col : col (StableHlo.after hostOps0_2 W main_v18) = rd1 (W main_arg2) := by
  funext n
  show StableHlo.after hostOps0_2 W (Proc.devRef .tc main_v18) (ix2 n (0 : Fin 1)) = _
  after_results
  exact cast_col shapeCasts_S100000_S100000x1 _ n

/-! ## Message passing: a row gather by the wrapped source column, then a row scatter-add by the raw destination column -/

theorem scat_eq : (Host.scatterAdd (F := Ideal) (φ := .f32) (w := 32) scatter_S100000x128_S1700000x1_S1700000x128_1_0_0_1)
    = Ideal.hostScatterAdd (RowScatter.rowDims 100000 128 1700000 scatter_S100000x128_S1700000x1_S1700000x128_1_0_0_1_wf) := rfl
theorem gath_eq : (Host.gather (α := EReal) (w := 32) gather_S100000x128_S1700000x1_S1700000x128_1_0_n_n_0_1_1128)
    = Host.gather (RowGather.rowDims 100000 128 1700000 gather_S100000x128_S1700000x1_S1700000x128_1_0_n_n_0_1_1128_wf) := rfl

/-- A row gather reads the table at the clamped row number. -/
theorem gath_apply (x : (⟨2, ![100000, 128]⟩ : Shape).Idx → EReal) (idx : IVec ⟨2, ![1700000, 1]⟩ 32) (e : Fin 1700000) (j : Fin 128)
    (b : BitVec 32) (hb : idx (ix2 e (0 : Fin 1)) = b) :
    Host.gather (RowGather.rowDims 100000 128 1700000 gather_S100000x128_S1700000x1_S1700000x128_1_0_n_n_0_1_1128_wf) x idx (ix2 e j)
      = x (ix2 (cl b) j) := by
  subst hb
  exact (RowGather.gather_rows_apply (by decide) gather_S100000x128_S1700000x1_S1700000x128_1_0_n_n_0_1_1128_wf x idx e j).trans rfl

/-- The signed comparison with zero reads the sign. -/
theorem slt_zero_iff (b : BitVec 32) : IntOp.cmpi .slt b 0#32 = 1 ↔ b.toInt < 0 := by
  unfold IntOp.cmpi
  rw [show (1 : BitVec 1) = 1#1 from rfl, StableHlo.Predicate.ofBool_eq_one_iff]
  show decide (b.toInt < (0#32).toInt) = true ↔ _
  rw [decide_eq_true_iff, BitVec.toInt_zero]

/-- The signed comparison with zero, the addition of 100000 and the selection between the two, at one edge. -/
theorem wrap_apply (s : (⟨1, ![1700000]⟩ : Shape).Idx → BitVec 32) (e : Fin 1700000) :
    (select (cmpi .slt s (broadcastInDim S1700000 ![] bcast_S_S1700000 (constantI S_ 32 0#32)))
      (addi s (broadcastInDim S1700000 ![] bcast_S_S1700000 (constantI S_ 32 100000#32))) s) (ix1 e) = wrapCol s e := by
  show Scalar.select (IntOp.cmpi .slt (s (ix1 e)) 0#32) (IntOp.addi (s (ix1 e)) 100000#32) (s (ix1 e)) = _
  unfold wrapCol
  generalize s (ix1 e) = b
  unfold Scalar.select IntOp.addi
  by_cases hb : b.toInt < 0
  · rw [if_pos ((slt_zero_iff b).mpr hb), if_pos hb]
  · rw [if_neg (mt (slt_zero_iff b).mp hb), if_neg hb]

/-- One message-passing step over any table and any two columns of edge numbers, read at (n, j). -/
theorem mp_apply (x : (⟨2, ![100000, 128]⟩ : Shape).Idx → EReal) (s d : (⟨1, ![1700000]⟩ : Shape).Idx → BitVec 32)
    (n : Fin 100000) (j : Fin 128) :
    Host.scatterAdd (F := Ideal) (φ := .f32) scatter_S100000x128_S1700000x1_S1700000x128_1_0_0_1
      (broadcastInDim S100000x128 ![] bcast_S_S100000x128 (constant (F := Ideal) S_ .f32 0x00000000#32))
      (broadcastInDim S1700000x1 ![0] bcast_S1700000_S1700000x1_0 d)
      (extf (F := Ideal) (φ := .bf16) .f32 (Host.gather gather_S100000x128_S1700000x1_S1700000x128_1_0_n_n_0_1_1128 x
          (broadcastInDim S1700000x1 ![0] bcast_S1700000_S1700000x1_0
            (select (cmpi .slt s (broadcastInDim S1700000 ![] bcast_S_S1700000 (constantI S_ 32 0#32)))
              (addi s (broadcastInDim S1700000 ![] bcast_S_S1700000 (constantI S_ 32 100000#32))) s))) bitsLt_bf16_f32) (ix2 n j)
    = aggK (rd2 x) (wrapCol s) (rawCol d) n j := by

  rw [scat_eq, gath_eq]
  refine (RowScatter.scatterAdd_rows_apply scatter_S100000x128_S1700000x1_S1700000x128_1_0_0_1_wf _ _ _ n j).trans ?_
  unfold aggK
  refine congrArg₂ (· + ·) ?_ (Finset.sum_congr ?_ ?_)
  · exact Ideal.ofBits_zero_f32
  · unfold seg rawCol
    refine Finset.filter_congr (fun e _ => ?_)
    rw [bc_col]
  · intro e _
    exact gath_apply x _ e j _ ((bc_col _ _ e).trans (wrap_apply s e))

open StableHlo in
theorem agg1 : rd2 (StableHlo.after hostOps1 W main_v30) = aggK (rd2 (W main_v19)) (wrapCol (W main_v3)) (rawCol (W main_v6)) := by
  funext n j
  show StableHlo.after hostOps1 W (Proc.devRef .tc main_v30) (ix2 n j) = _
  after_results
  exact mp_apply (W main_v19) (W main_v3) (W main_v6) n j
open StableHlo in
theorem bias1 : row (StableHlo.after hostOps1 W main_v31) = rd1 (W main_arg4) := by
  funext q
  show StableHlo.after hostOps1 W (Proc.devRef .tc main_v31) (ix2 (0 : Fin 1) q) = _
  after_results
  exact cast_row shapeCasts_S128_S1x128 _ q

open StableHlo in
theorem agg2 : rd2 (StableHlo.after hostOps2 W main_v43) = aggK (rd2 (W main_v32)) (wrapCol (W main_v3)) (rawCol (W main_v6)) := by
  funext n j
  show StableHlo.after hostOps2 W (Proc.devRef .tc main_v43) (ix2 n j) = _
  after_results
  exact mp_apply (W main_v32) (W main_v3) (W main_v6) n j
open StableHlo in
theorem bias2 : row (StableHlo.after hostOps2 W main_v44) = rd1 (W main_arg6) := by
  funext q
  show StableHlo.after hostOps2 W (Proc.devRef .tc main_v44) (ix2 (0 : Fin 1) q) = _
  after_results
  exact cast_row shapeCasts_S128_S1x128 _ q
open StableHlo in
theorem agg3 : rd2 (StableHlo.after hostOps3 W main_v56) = aggK (rd2 (W main_v45)) (wrapCol (W main_v3)) (rawCol (W main_v6)) := by
  funext n j
  show StableHlo.after hostOps3 W (Proc.devRef .tc main_v56) (ix2 n j) = _
  after_results
  exact mp_apply (W main_v45) (W main_v3) (W main_v6) n j
/-- The scatter of ones by the graph numbers is the reference's stage. -/
theorem v60_eq : StableHlo.after hostOps3 W main_v60 = Cert.ReferenceIdeal.ReadP.val_main_v92 (F := Ideal) (W main_arg2) := by
  show StableHlo.after hostOps3 W (Proc.devRef .tc main_v60) = _
  open StableHlo in after_results
  rfl
open StableHlo in
theorem cnt3 : col (StableHlo.after hostOps3 W main_v61) = rd1 (Cert.ReferenceIdeal.ReadP.val_main_v92 (F := Ideal) (W main_arg2)) := by
  funext g
  show StableHlo.after hostOps3 W (Proc.devRef .tc main_v61) (ix2 g (0 : Fin 1)) = _
  after_results
  refine (cast_col shapeCasts_S1000_S1000x1 _ g).trans ?_
  refine congrFun (?_ : _ = Cert.ReferenceIdeal.ReadP.val_main_v92 (F := Ideal) (W main_arg2)) (ix1 g)
  rfl
open StableHlo in
theorem bias3 : row (StableHlo.after hostOps3 W main_v62) = rd1 (W main_arg8) := by
  funext q
  show StableHlo.after hostOps3 W (Proc.devRef .tc main_v62) (ix2 (0 : Fin 1) q) = _
  after_results
  exact cast_row shapeCasts_S128_S1x128 _ q
open StableHlo in
theorem biasl : row (StableHlo.after hostOps3 W main_v63) = rd1 (W main_arg10) := by
  funext q
  show StableHlo.after hostOps3 W (Proc.devRef .tc main_v63) (ix2 (0 : Fin 1) q) = _
  after_results
  exact cast_row shapeCasts_S10_S1x10 _ q

/-! ## The names of Names.lean through the two column readers -/

theorem SRC_eq (x1 : EdgeList) : SRC x1 = wrapCol (Cert.ReferenceIdeal.ReadP.val_main_v3 (F := Ideal) x1) := by
  funext e
  show Cert.ReferenceIdeal.ReadP.val_main_v38 (F := Ideal) x1 (ix2 e (0 : Fin 1)) = _
  unfold Cert.ReferenceIdeal.ReadP.val_main_v38
  refine (bc_col _ _ e).trans ?_
  exact wrap_apply (Cert.ReferenceIdeal.ReadP.val_main_v3 (F := Ideal) x1) e
theorem DST_eq (x1 : EdgeList) : DST x1 = rawCol (Cert.ReferenceIdeal.ReadP.val_main_v6 (F := Ideal) x1) := by
  funext e
  show Cert.ReferenceIdeal.ReadP.val_main_v44 (F := Ideal) x1 (ix2 e (0 : Fin 1)) = _
  unfold Cert.ReferenceIdeal.ReadP.val_main_v44
  exact bc_col _ _ e
theorem DSTW_eq (x1 : EdgeList) : DSTW x1 = wrapCol (Cert.ReferenceIdeal.ReadP.val_main_v6 (F := Ideal) x1) := by
  funext e
  show Cert.ReferenceIdeal.ReadP.val_main_v29 (F := Ideal) x1 (ix2 e (0 : Fin 1)) = _
  unfold Cert.ReferenceIdeal.ReadP.val_main_v29
  refine (bc_col _ _ e).trans ?_
  exact wrap_apply (Cert.ReferenceIdeal.ReadP.val_main_v6 (F := Ideal) x1) e

end GCN.K

end
-- ==== Proof.RefVal.lean ====
/-
  The reference's result in the common language: its stages read one at a time, from the edge columns and the edge weight
  through the three layers to the pooled head.
-/
import proofs.«404431_j37108517437514_3_alg».proof.Proof.Names
import proofs.«404431_j37108517437514_3_alg».proof.Proof.Spec
import proofs.«404431_j37108517437514_3_alg».proof.Proof.RefReadP
import proofs.«404431_j37108517437514_3_alg».proof.Proof.LibRowScatter
import proofs.«404431_j37108517437514_3_alg».proof.Proof.LibRowGather
import Idealize.ShloMosaic.Lib.StableHlo.Predicate
import Idealize.ShloMosaic.Lib.IdealHost

noncomputable section

namespace GCN

open Idealize.ShloMosaic Idealize.ShloMosaic.ValueIdx Cert.ReferenceIdeal Cert.ReferenceIdeal.ReadP

/-! ## Indices -/

/-- A column's row index, in the two spellings the library uses. -/
theorem ixP_eq {n : Nat} (p : Fin n) : StableHlo.Predicate.ixP p = ix2 p (0 : Fin 1) := by
  funext a
  match a with
  | ⟨0, _⟩ => rfl
  | ⟨1, _⟩ => rfl

/-- A vector's index, in the two spellings the library uses. -/
theorem ofFin_eq {n : Nat} (p : Fin n) : Shape.Idx.ofFin p = ix1 p := by
  funext a
  match a with
  | ⟨0, _⟩ => rfl

/-! ## The edge columns

The reference computes the wrapped source column four times and the raw destination column four times, each time by the
same operations: the copies are one function of the edge list. -/

theorem v22_eq (x1 : EdgeList) : val_main_v22 (F := Ideal) x1 = val_main_v38 (F := Ideal) x1 := rfl
theorem v56_eq (x1 : EdgeList) : val_main_v56 (F := Ideal) x1 = val_main_v38 (F := Ideal) x1 := rfl
theorem v74_eq (x1 : EdgeList) : val_main_v74 (F := Ideal) x1 = val_main_v38 (F := Ideal) x1 := rfl
theorem v9_eq (x1 : EdgeList) : val_main_v9 (F := Ideal) x1 = val_main_v44 (F := Ideal) x1 := rfl
theorem v62_eq (x1 : EdgeList) : val_main_v62 (F := Ideal) x1 = val_main_v44 (F := Ideal) x1 := rfl
theorem v80_eq (x1 : EdgeList) : val_main_v80 (F := Ideal) x1 = val_main_v44 (F := Ideal) x1 := rfl

/-! ## The edge weight -/

/-- A gather of the per-node factor by a column of node numbers reads the factor of the clamped node. -/
theorem dv_gather (x1 : EdgeList) (c : (⟨S1700000x1, .i32⟩ : BufTy).Contents (Elt Ideal)) (e : Fin 1700000) :
    Host.gather gather_S100000_S1700000x1_S1700000_n_0_n_n_0_1_1 (val_main_v16 (F := Ideal) x1) c (ix1 e)
      = DV x1 (cl (c (ix2 e (0 : Fin 1)))) := by
  have h := StableHlo.Predicate.gather_take gather_S100000_S1700000x1_S1700000_n_0_n_n_0_1_1 rfl rfl rfl rfl
    (val_main_v16 (F := Ideal) x1) c e (by omega)
  rw [ofFin_eq, ofFin_eq] at h
  refine h.trans ?_
  refine congrArg (fun k => val_main_v16 (F := Ideal) x1 (ix1 k)) (a₂ := cl (c (ix2 e (0 : Fin 1)))) (Fin.ext ?_)
  show min (c (StableHlo.Predicate.ixP e)).toInt.toNat (100000 - 1) = min (c (ix2 e (0 : Fin 1))).toInt.toNat 99999
  rw [ixP_eq]

/-- The weight of edge `e`: the product of the factors of the two nodes its gathers read. -/
theorem v31_apply' (x1 : EdgeList) (e : Fin 1700000) :
    val_main_v31 (F := Ideal) x1 (ix1 e) = nrm (DV x1) (SRC x1) (DSTW x1) e := by
  rw [val_main_v31_apply, Ideal.mulf_def]
  unfold val_main_v23 val_main_v30
  rw [dv_gather, dv_gather, v22_eq]
  rfl

/-! ## The wrapped destination column on the edges whose destination is not negative -/

/-- A word that reads as a non-negative integer is not below zero in the signed order. -/
theorem slt_zero_of_nonneg (a : BitVec 32) (h : 0 ≤ a.toInt) : IntOp.cmpi .slt a 0#32 = 0#1 := by
  unfold IntOp.cmpi
  have hs : a.slt 0#32 = false := by
    simp only [BitVec.slt, BitVec.toInt_zero]
    exact decide_eq_false (by omega)
  rw [hs]
  rfl

theorem hdst (x1 : EdgeList) : ∀ e, 0 ≤ (DST x1 e).toInt → DSTW x1 e = DST x1 e := by
  intro e he
  have hD : DST x1 e = val_main_v6 (F := Ideal) x1 (idx_main_v44 (ix2 e (0 : Fin 1))) := val_main_v44_apply x1 _
  have hW : DSTW x1 e = val_main_v28 (F := Ideal) x1 (idx_main_v44 (ix2 e (0 : Fin 1))) := val_main_v29_apply x1 _
  rw [hD] at he ⊢
  rw [hW, val_main_v28_apply, val_main_v25_apply]
  have h24 : val_main_v24 (F := Ideal) (idx_main_v44 (ix2 e (0 : Fin 1))) = 0#32 := by
    rw [val_main_v24_apply]
    rfl
  rw [h24, slt_zero_of_nonneg _ he]
  exact select_zero _ _

/-! ## The per-node factor is a real number -/

/-- The reciprocal square root of an extended real that is at least one is a real number. -/
theorem rsqrt_real (y : EReal) (hy : 1 ≤ y) : ∃ r : ℝ, Ideal.rsqrt y = (r : EReal) := by
  induction y using EReal.rec with
  | bot => exact absurd hy (by rw [← EReal.coe_one]; exact not_le.mpr (EReal.bot_lt_coe 1))
  | top => exact ⟨0, rfl⟩
  | coe r =>
    have hr : (1 : ℝ) ≤ r := by exact_mod_cast hy
    refine ⟨(Real.sqrt r)⁻¹, ?_⟩
    show (if r < 0 then (⊥ : EReal) else if r = 0 then ⊤ else ((Real.sqrt r)⁻¹ : ℝ)) = _
    rw [if_neg (by linarith), if_neg (by linarith)]

theorem DV_real (x1 : EdgeList) : Real1 (DV x1) := by
  intro n
  show ∃ r : ℝ, val_main_v16 (F := Ideal) x1 (ix1 n) = (r : EReal)
  rw [val_main_v16_apply]
  unfold Scalar.select
  split
  · rw [val_main_v15_apply, val_main_v14_apply, Ideal.hostUnary_rsqrt_def, Ideal.maximumf_def]
    refine rsqrt_real _ ?_
    have h13 : val_main_v13 (F := Ideal) (ix1 n) = 1 := by
      rw [val_main_v13_apply, val_main_cst_2_apply, Ideal.ofBits_def, Ideal.ofBits_one_f32]
    rw [h13]
    exact le_max_right _ _
  · refine ⟨0, ?_⟩
    rw [val_main_call0_v1_apply, val_main_call0_v0_apply, val_main_cst_3_apply, Ideal.ofBits_def, Ideal.ofBits_zero_f32]
    rfl

/-! ## Indices from their coordinates -/

theorem idx1_ext {n : Nat} (i : (⟨1, ![n]⟩ : Shape).Idx) (k : Fin n) (h : (i 0).val = k.val) : i = ix1 k := by
  funext a
  match a with
  | ⟨0, _⟩ => exact Fin.ext h

theorem idx2_ext {a b : Nat} (i : (⟨2, ![a, b]⟩ : Shape).Idx) (p : Fin a) (q : Fin b) (h0 : (i 0).val = p.val)
    (h1 : (i 1).val = q.val) : i = ix2 p q := by
  funext c
  match c with
  | ⟨0, _⟩ => exact Fin.ext h0
  | ⟨1, _⟩ => exact Fin.ext h1

/-! ## One round of weighted message passing -/

/-- A row gather of a node table by a column of node numbers reads the clamped node's row. -/
theorem row_gather (h : FVec Ideal S100000x128 .f32) (c : IVec S1700000x1 32) (e : Fin 1700000) (j : Fin 128) :
    Host.gather gather_S100000x128_S1700000x1_S1700000x128_1_0_n_n_0_1_1128 h c (ix2 e j)
      = h (ix2 (cl (c (ix2 e (0 : Fin 1)))) j) := by
  have hd : gather_S100000x128_S1700000x1_S1700000x128_1_0_n_n_0_1_1128
      = RowGather.rowDims 100000 128 1700000 Facts₀.gather_S100000x128_S1700000x1_S1700000x128_1_0_n_n_0_1_1128_wf := rfl
  rw [hd, RowGather.gather_rows_apply (by omega)]
  rfl

/-- The gather by the source column, the product with the edge weights and the scatter-add by the destination column into a
    zero table are the weighted aggregate of the table's rows. -/
theorem agg_read (x1 : EdgeList) (h z : FVec Ideal S100000x128 .f32) (wc : FVec Ideal S1700000x128 .f32)
    (H : Fin 100000 → Fin 128 → EReal)
    (hH : ∀ n j, h (ix2 n j) = H n j) (hz : ∀ i, z i = 0)
    (hw : ∀ e j, wc (ix2 e j) = nrm (DV x1) (SRC x1) (DSTW x1) e) (n : Fin 100000) (j : Fin 128) :
    Host.scatterAdd (F := Ideal) scatter_S100000x128_S1700000x1_S1700000x128_1_0_0_1 z (val_main_v44 (F := Ideal) x1)
        (mulf (F := Ideal) (Host.gather gather_S100000x128_S1700000x1_S1700000x128_1_0_n_n_0_1_1128 h (val_main_v38 (F := Ideal) x1)) wc)
        (ix2 n j)
      = aggR H (nrm (DV x1) (SRC x1) (DSTW x1)) (SRC x1) (DST x1) n j := by
  have hd : scatter_S100000x128_S1700000x1_S1700000x128_1_0_0_1
      = RowScatter.rowDims 100000 128 1700000 Facts₀.scatter_S100000x128_S1700000x1_S1700000x128_1_0_0_1_wf := rfl
  unfold Host.scatterAdd
  rw [Ideal.hostScatterAdd_def, hd, RowScatter.scatterAdd_rows_apply, hz]
  unfold aggR
  refine congrArg (fun t => (0 : EReal) + t) ?_
  refine Finset.sum_congr rfl ?_
  intro e _
  rw [mulf_apply, hw, row_gather, hH]
  rfl

/-- A zero constant broadcast over a table is zero everywhere. -/
theorem v43_zero (i : S100000x128.Idx) : val_main_v43 (F := Ideal) i = 0 := by
  rw [val_main_v43_apply, val_main_cst_9_apply, Ideal.ofBits_def, Ideal.ofBits_zero_f32]
theorem v61_zero (i : S100000x128.Idx) : val_main_v61 (F := Ideal) i = 0 := by
  rw [val_main_v61_apply, val_main_cst_12_apply, Ideal.ofBits_def, Ideal.ofBits_zero_f32]
theorem v79_zero (i : S100000x128.Idx) : val_main_v79 (F := Ideal) i = 0 := by
  rw [val_main_v79_apply, val_main_cst_15_apply, Ideal.ofBits_def, Ideal.ofBits_zero_f32]
theorem v86_zero (i : S1000x128.Idx) : val_main_v86 (F := Ideal) i = 0 := by
  rw [val_main_v86_apply, val_main_cst_16_apply, Ideal.ofBits_def, Ideal.ofBits_zero_f32]
theorem call1_zero (i : S100000x128.Idx) : val_main_call1_v0 (F := Ideal) i = 0 := by
  rw [val_main_call1_v0_apply, val_main_call1_cst_apply, Ideal.ofBits_def, Ideal.ofBits_zero_f32]
theorem call2_zero (i : S100000x128.Idx) : val_main_call2_v0 (F := Ideal) i = 0 := by
  rw [val_main_call2_v0_apply, val_main_call2_cst_apply, Ideal.ofBits_def, Ideal.ofBits_zero_f32]
theorem call3_zero (i : S100000x128.Idx) : val_main_call3_v0 (F := Ideal) i = 0 := by
  rw [val_main_call3_v0_apply, val_main_call3_cst_apply, Ideal.ofBits_def, Ideal.ofBits_zero_f32]

/-- The edge weights broadcast along the rows of the gathered table. -/
theorem v41_read (x1 : EdgeList) (e : Fin 1700000) (j : Fin 128) :
    val_main_v41 (F := Ideal) x1 (ix2 e j) = nrm (DV x1) (SRC x1) (DSTW x1) e := by
  rw [val_main_v41_apply, val_main_v40_apply, idx1_ext (idx_main_v40 (idx_main_v41 (ix2 e j))) e rfl, v31_apply']
theorem v59_read (x1 : EdgeList) (e : Fin 1700000) (j : Fin 128) :
    val_main_v59 (F := Ideal) x1 (ix2 e j) = nrm (DV x1) (SRC x1) (DSTW x1) e := by
  rw [val_main_v59_apply, val_main_v58_apply, idx1_ext (idx_main_v58 (idx_main_v59 (ix2 e j))) e rfl, v31_apply']
theorem v77_read (x1 : EdgeList) (e : Fin 1700000) (j : Fin 128) :
    val_main_v77 (F := Ideal) x1 (ix2 e j) = nrm (DV x1) (SRC x1) (DSTW x1) e := by
  rw [val_main_v77_apply, val_main_v76_apply, idx1_ext (idx_main_v76 (idx_main_v77 (ix2 e j))) e rfl, v31_apply']

/-- A bias vector broadcast over the rows of a table. -/
theorem v47_read (x4 : (⟨S128, .f32⟩ : BufTy).Contents (Elt Ideal)) (n : Fin 100000) (j : Fin 128) :
    val_main_v47 (F := Ideal) x4 (ix2 n j) = x4 (ix1 j) := by
  rw [val_main_v47_apply, val_main_v46_apply, idx1_ext (idx_main_v46 (idx_main_v47 (ix2 n j))) j rfl]
theorem v65_read (x6 : (⟨S128, .f32⟩ : BufTy).Contents (Elt Ideal)) (n : Fin 100000) (j : Fin 128) :
    val_main_v65 (F := Ideal) x6 (ix2 n j) = x6 (ix1 j) := by
  rw [val_main_v65_apply, val_main_v64_apply, idx1_ext (idx_main_v64 (idx_main_v65 (ix2 n j))) j rfl]
theorem v83_read (x8 : (⟨S128, .f32⟩ : BufTy).Contents (Elt Ideal)) (n : Fin 100000) (j : Fin 128) :
    val_main_v83 (F := Ideal) x8 (ix2 n j) = x8 (ix1 j) := by
  rw [val_main_v83_apply, val_main_v82_apply, idx1_ext (idx_main_v82 (idx_main_v83 (ix2 n j))) j rfl]

/-! ## The three layers -/

theorem v32_read (x0 : (⟨S100000x64, .f32⟩ : BufTy).Contents (Elt Ideal)) (x3 : (⟨S64x128, .f32⟩ : BufTy).Contents (Elt Ideal)) (n : Fin 100000) (j : Fin 128) :
    val_main_v32 (F := Ideal) x0 x3 (ix2 n j) = mm (rd2 x0) (rd2 x3) n j := by
  rw [val_main_v32_apply]
  refine Finset.sum_congr rfl ?_
  intro k _
  rw [idx2_ext (lidx_main_v32 (ix2 n j) k) n k rfl rfl, idx2_ext (ridx_main_v32 (ix2 n j) k) k j rfl rfl]

theorem v49_read (x0 : (⟨S100000x64, .f32⟩ : BufTy).Contents (Elt Ideal)) (x1 : EdgeList) (x3 : (⟨S64x128, .f32⟩ : BufTy).Contents (Elt Ideal)) (x4 : (⟨S128, .f32⟩ : BufTy).Contents (Elt Ideal)) (n : Fin 100000) (j : Fin 128) :
    val_main_v49 (F := Ideal) x0 x1 x3 x4 (ix2 n j) = (layerR (rd2 x0) (rd2 x3) (rd1 x4) (nrm (DV x1) (SRC x1) (DSTW x1)) (SRC x1) (DST x1)) n j := by
  rw [val_main_v49_apply, val_main_v48_apply, Ideal.maximumf_def, Ideal.addf_def, call1_zero, v47_read]
  unfold val_main_v45 val_main_v42 val_main_v39
  rw [agg_read x1 _ _ _ _ (v32_read x0 x3) v43_zero (v41_read x1)]
  rfl

theorem v50_read (x0 : (⟨S100000x64, .f32⟩ : BufTy).Contents (Elt Ideal)) (x1 : EdgeList) (x3 : (⟨S64x128, .f32⟩ : BufTy).Contents (Elt Ideal)) (x4 : (⟨S128, .f32⟩ : BufTy).Contents (Elt Ideal)) (x5 : (⟨S128x128, .f32⟩ : BufTy).Contents (Elt Ideal)) (n : Fin 100000) (j : Fin 128) :
    val_main_v50 (F := Ideal) x0 x1 x3 x4 x5 (ix2 n j) = mm (layerR (rd2 x0) (rd2 x3) (rd1 x4) (nrm (DV x1) (SRC x1) (DSTW x1)) (SRC x1) (DST x1)) (rd2 x5) n j := by
  rw [val_main_v50_apply]
  refine Finset.sum_congr rfl ?_
  intro k _
  rw [idx2_ext (lidx_main_v50 (ix2 n j) k) n k rfl rfl, idx2_ext (ridx_main_v50 (ix2 n j) k) k j rfl rfl, v49_read]

theorem v67_read (x0 : (⟨S100000x64, .f32⟩ : BufTy).Contents (Elt Ideal)) (x1 : EdgeList) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (n : Fin 100000) (j : Fin 128) :
    val_main_v67 (F := Ideal) x0 x1 x3 x4 x5 x6 (ix2 n j) = (layerR (layerR (rd2 x0) (rd2 x3) (rd1 x4) (nrm (DV x1) (SRC x1) (DSTW x1)) (SRC x1) (DST x1)) (rd2 x5) (rd1 x6) (nrm (DV x1) (SRC x1) (DSTW x1)) (SRC x1) (DST x1)) n j := by
  rw [val_main_v67_apply, val_main_v66_apply, Ideal.maximumf_def, Ideal.addf_def, call2_zero, v65_read]
  unfold val_main_v63 val_main_v60 val_main_v57
  rw [v62_eq, v56_eq, agg_read x1 _ _ _ _ (v50_read x0 x1 x3 x4 x5) v61_zero (v59_read x1)]
  rfl

theorem v68_read (x0 : (⟨S100000x64, .f32⟩ : BufTy).Contents (Elt Ideal)) (x1 : EdgeList) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (n : Fin 100000) (j : Fin 128) :
    val_main_v68 (F := Ideal) x0 x1 x3 x4 x5 x6 x7 (ix2 n j) = mm (layerR (layerR (rd2 x0) (rd2 x3) (rd1 x4) (nrm (DV x1) (SRC x1) (DSTW x1)) (SRC x1) (DST x1)) (rd2 x5) (rd1 x6) (nrm (DV x1) (SRC x1) (DSTW x1)) (SRC x1) (DST x1)) (rd2 x7) n j := by
  rw [val_main_v68_apply]
  refine Finset.sum_congr rfl ?_
  intro k _
  rw [idx2_ext (lidx_main_v68 (ix2 n j) k) n k rfl rfl, idx2_ext (ridx_main_v68 (ix2 n j) k) k j rfl rfl, v67_read]

theorem v85_read (x0 : (⟨S100000x64, .f32⟩ : BufTy).Contents (Elt Ideal)) (x1 : EdgeList) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (n : Fin 100000) (j : Fin 128) :
    val_main_v85 (F := Ideal) x0 x1 x3 x4 x5 x6 x7 x8 (ix2 n j) = (layerR (layerR (layerR (rd2 x0) (rd2 x3) (rd1 x4) (nrm (DV x1) (SRC x1) (DSTW x1)) (SRC x1) (DST x1)) (rd2 x5) (rd1 x6) (nrm (DV x1) (SRC x1) (DSTW x1)) (SRC x1) (DST x1)) (rd2 x7) (rd1 x8) (nrm (DV x1) (SRC x1) (DSTW x1)) (SRC x1) (DST x1)) n j := by
  rw [val_main_v85_apply, val_main_v84_apply, Ideal.maximumf_def, Ideal.addf_def, call3_zero, v83_read]
  unfold val_main_v81 val_main_v78 val_main_v75
  rw [v80_eq, v74_eq, agg_read x1 _ _ _ _ (v68_read x0 x1 x3 x4 x5 x6 x7) v79_zero (v77_read x1)]
  rfl

/-! ## The mean pool and the head -/

/-- The graph-number column. -/
theorem v87_read (x2 : GraphIds) (n : Fin 100000) : val_main_v87 (F := Ideal) x2 (ix2 n (0 : Fin 1)) = BT x2 n := by
  rw [val_main_v87_apply, idx1_ext (idx_main_v87 (ix2 n (0 : Fin 1))) n rfl]
  rfl

theorem v88_read (x0 : (⟨S100000x64, .f32⟩ : BufTy).Contents (Elt Ideal)) (x1 : EdgeList) (x2 : GraphIds) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (g : Fin 1000) (j : Fin 128) :
    val_main_v88 (F := Ideal) x0 x1 x2 x3 x4 x5 x6 x7 x8 (ix2 g j) = poolR (layerR (layerR (layerR (rd2 x0) (rd2 x3) (rd1 x4) (nrm (DV x1) (SRC x1) (DSTW x1)) (SRC x1) (DST x1)) (rd2 x5) (rd1 x6) (nrm (DV x1) (SRC x1) (DSTW x1)) (SRC x1) (DST x1)) (rd2 x7) (rd1 x8) (nrm (DV x1) (SRC x1) (DSTW x1)) (SRC x1) (DST x1)) (BT x2) g j := by
  have hd : scatter_S1000x128_S100000x1_S100000x128_1_0_0_1
      = RowScatter.rowDims 1000 128 100000 Facts₀.scatter_S1000x128_S100000x1_S100000x128_1_0_0_1_wf := rfl
  unfold val_main_v88 Host.scatterAdd
  rw [Ideal.hostScatterAdd_def, hd, RowScatter.scatterAdd_rows_apply, v86_zero]
  unfold poolR
  refine congrArg (fun t => (0 : EReal) + t) ?_
  refine Finset.sum_congr (Finset.filter_congr fun n _ => by rw [v87_read]) ?_
  intro n _
  exact v85_read x0 x1 x3 x4 x5 x6 x7 x8 n j

/-- The clamped node count of a graph, broadcast along its row. -/
theorem v96_read (x2 : GraphIds) (g : Fin 1000) (j : Fin 128) :
    val_main_v96 (F := Ideal) x2 (ix2 g j) = max (CNT x2 g) 1 := by
  rw [val_main_v96_apply, val_main_v95_apply, idx1_ext (idx_main_v95 (idx_main_v96 (ix2 g j))) g rfl, val_main_v94_apply,
    Ideal.maximumf_def, val_main_v93_apply, val_main_cst_19_apply, Ideal.ofBits_def, Ideal.ofBits_one_f32]
  rfl

theorem v100_read (x10 : (⟨S10, .f32⟩ : BufTy).Contents (Elt Ideal)) (g : Fin 1000) (o : Fin 10) :
    val_main_v100 (F := Ideal) x10 (ix2 g o) = x10 (ix1 o) := by
  rw [val_main_v100_apply, val_main_v99_apply, idx1_ext (idx_main_v99 (idx_main_v100 (ix2 g o))) o rfl]

theorem ref_eq (x0 : (⟨S100000x64, .f32⟩ : BufTy).Contents (Elt Ideal)) (x1 : EdgeList) (x2 : GraphIds) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x10, .f32⟩ : BufTy).Contents (Elt Ideal)) (x10 : (⟨S10, .f32⟩ : BufTy).Contents (Elt Ideal)) :
    rd2 (val_main_v101 (F := Ideal) x0 x1 x2 x3 x4 x5 x6 x7 x8 x9 x10)
      = outR (rd2 x0) (SRC x1) (DST x1) (DSTW x1) (DV x1) (BT x2) (CNT x2) (rd2 x3) (rd1 x4) (rd2 x5) (rd1 x6)
          (rd2 x7) (rd1 x8) (rd2 x9) (rd1 x10) := by
  funext g o
  show val_main_v101 (F := Ideal) x0 x1 x2 x3 x4 x5 x6 x7 x8 x9 x10 (ix2 g o) = _
  rw [val_main_v101_apply, Ideal.addf_def, v100_read, val_main_v98_apply]
  unfold outR head
  refine congrArg (fun t => t + x10 (ix1 o)) ?_
  refine Finset.sum_congr rfl ?_
  intro k _
  rw [idx2_ext (lidx_main_v98 (ix2 g o) k) g k rfl rfl, idx2_ext (ridx_main_v98 (ix2 g o) k) k o rfl rfl,
    val_main_v97_apply, Ideal.hostDivf_def, v88_read, v96_read]

end GCN

end
-- ==== Proof.Finite.lean ====
/-
  From the precondition to real entries. The precondition compares the absolute value of every entry of each of the nine
  float inputs with +infinity and takes the conjunction of all the comparisons. Over the extended reals an entry `x` with
  `max x (-x) < ⊤` is neither `⊤` nor `⊥`, so it is a real number.
-/
import proofs.«404431_j37108517437514_3_alg».proof.Pre_finite_inputs
import proofs.«404431_j37108517437514_3_alg».proof.Proof.Gen.Pre_finite_inputs
import proofs.«404431_j37108517437514_3_alg».proof.Proof.Spec
import Idealize.ShloMosaic.Lib.ReduceAll
import Idealize.ShloMosaic.PureOps.Ideal.Laws

noncomputable section

namespace GCN

open Idealize.ShloMosaic

/-- The shape of a scalar has one index. -/
instance subsingleton_scalar_idx : Subsingleton (⟨0, ![]⟩ : Shape).Idx := ⟨fun a b => funext fun d => d.elim0⟩

/-- The pattern `0x7F800000` read as an f32 is +infinity. -/
theorem inf_bits : Ideal.ofBits .f32 0x7F800000#32 = (⊤ : EReal) := by
  simp [Ideal.ofBits, Ideal.ieee]

/-- An extended real whose absolute value is below +infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- `all (|a| < +inf)` over an array of any shape: when the conjunction is 1, every entry of `a` is a real number. -/
theorem real_of_all_abs_lt_inf {s : Shape} {axes : List (Fin s.rank)}
    (hb : (⟨0, ![]⟩ : Shape).BroadcastsInDim s (![] : Fin 0 → Fin s.rank)) (hr : s.ReducesTo axes ⟨0, ![]⟩)
    (hu : 0 < (⟨0, ![]⟩ : Shape).numel) (a : FVec Ideal s .f32) (init : IVec ⟨0, ![]⟩ 1) (j : (⟨0, ![]⟩ : Shape).Idx)
    (e : Host.reduce IntOp.andi
        (cmpf .olt (Host.absf a) (broadcastInDim s ![] hb (constant (F := Ideal) ⟨0, ![]⟩ .f32 0x7F800000#32))) init hr hu j = 1#1)
    (i : s.Idx) : ∃ r : ℝ, a i = (r : EReal) := by
  have hi := Host.reduce_andi_all _ init hr hu j e i
  dsimp only [cmpf, Host.absf, broadcastInDim, constant] at hi
  rw [Ideal.hostAbsf_def, Ideal.cmpf_def, Ideal.absf_def, Ideal.ofBits_def, inf_bits] at hi
  refine real_of_abs_lt_top (a i) (Classical.byContradiction fun hn => ?_)
  rw [show Ideal.cmp .olt (max (a i) (-a i)) ⊤ = BitVec.ofBool (decide (max (a i) (-a i) < ⊤)) from rfl,
    decide_eq_false hn] at hi
  exact absurd hi (by decide)

open Cert.Pre_finite_inputs in
/-- The precondition holds of the eleven argument arrays: then every entry of each of the nine float arrays — the node
    features, the three layers' weights and biases, the head's weights and bias — is a real number. -/
theorem real_of_pre [Cert.Pre_finite_inputs.Facts]
    (a0 : FVec Ideal S100000x64 .f32) (a1 : IVec S2x1600000 32) (a2 : IVec S100000 32) (a3 : FVec Ideal S64x128 .f32)
    (a4 : FVec Ideal S128 .f32) (a5 : FVec Ideal S128x128 .f32) (a6 : FVec Ideal S128 .f32) (a7 : FVec Ideal S128x128 .f32)
    (a8 : FVec Ideal S128 .f32) (a9 : FVec Ideal S128x10 .f32) (a10 : FVec Ideal S10 .f32)
    (h : Cert.Pre_finite_inputs.fn (F := Ideal) a0 a1 a2 a3 a4 a5 a6 a7 a8 a9 a10 = fun _ => 1#1) :
    Real2 (rd2 a0) ∧ Real2 (rd2 a3) ∧ Real1 (rd1 a4) ∧ Real2 (rd2 a5) ∧ Real1 (rd1 a6) ∧ Real2 (rd2 a7) ∧ Real1 (rd1 a8)
      ∧ Real2 (rd2 a9) ∧ Real1 (rd1 a10) := by
  have h0 := congrFun h ValueIdx.ix0
  dsimp only [Cert.Pre_finite_inputs.fn, Cert.Pre_finite_inputs.fn_part1, Cert.Pre_finite_inputs.fn_part2, andi] at h0
  -- the conjunction, taken apart from its last conjunct to its first
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨fun i j => real_of_all_abs_lt_inf _ _ _ a0 _ _ e0 (ValueIdx.ix2 i j),
    fun i j => real_of_all_abs_lt_inf _ _ _ a3 _ _ e3 (ValueIdx.ix2 i j),
    fun i => real_of_all_abs_lt_inf _ _ _ a4 _ _ e4 (ValueIdx.ix1 i),
    fun i j => real_of_all_abs_lt_inf _ _ _ a5 _ _ e5 (ValueIdx.ix2 i j),
    fun i => real_of_all_abs_lt_inf _ _ _ a6 _ _ e6 (ValueIdx.ix1 i),
    fun i j => real_of_all_abs_lt_inf _ _ _ a7 _ _ e7 (ValueIdx.ix2 i j),
    fun i => real_of_all_abs_lt_inf _ _ _ a8 _ _ e8 (ValueIdx.ix1 i),
    fun i j => real_of_all_abs_lt_inf _ _ _ a9 _ _ e9 (ValueIdx.ix2 i j),
    fun i => real_of_all_abs_lt_inf _ _ _ a10 _ _ e10 (ValueIdx.ix1 i)⟩

end GCN

end
-- ==== Proof.MathReal.lean ====
/-
  Real-valued arrays inside the extended reals: the coercion of a finite sum, and the operations that keep an array real
  (finite sums, products, matrix products, weighted message passing, bias and positive part).
-/
import proofs.«404431_j37108517437514_3_alg».proof.Proof.Spec
import Mathlib.Algebra.BigOperators.Ring.Finset

noncomputable section

namespace GCN

/-- The coercion of a finite sum of real numbers is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is real. -/
theorem real_sum {ι : Type} (s : Finset ι) (f : ι → EReal) (hf : ∀ i, ∃ r : ℝ, f i = (r : EReal)) :
    ∃ r : ℝ, ∑ i ∈ s, f i = (r : EReal) := by
  choose g hg using hf
  refine ⟨∑ i ∈ s, g i, ?_⟩
  rw [coe_sum]
  exact Finset.sum_congr rfl fun i _ => hg i

/-- A product of two real entries is real. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- A sum of two real entries is real. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

/-- The positive part of a real entry is real. -/
theorem real_max_zero {a : EReal} (ha : ∃ r : ℝ, a = (r : EReal)) : ∃ r : ℝ, max a 0 = (r : EReal) := by
  obtain ⟨r, rfl⟩ := ha
  rcases le_total (r : EReal) 0 with h | h
  · exact ⟨0, by rw [max_eq_right h]; rfl⟩
  · exact ⟨r, by rw [max_eq_left h]⟩

/-- A matrix product of real arrays is real. -/
theorem real_mm {K M : Nat} {h : Fin 100000 → Fin K → EReal} {w : Fin K → Fin M → EReal}
    (hh : Real2 h) (hw : Real2 w) : Real2 (mm h w) := by
  intro n j
  unfold mm
  exact real_sum _ _ fun k => real_mul (hh n k) (hw k j)

/-- The symmetric normalisation of real factors is real. -/
theorem real_nrm {dv : Fin 100000 → EReal} (hdv : Real1 dv) (src dstW : Fin 1700000 → BitVec 32) :
    Real1 (nrm dv src dstW) := by
  intro e
  unfold nrm
  exact real_mul (hdv _) (hdv _)

/-- Weighted message passing of a real array with real weights is real. -/
theorem real_aggR {h : Fin 100000 → Fin 128 → EReal} {wgt : Fin 1700000 → EReal}
    (hh : Real2 h) (hw : Real1 wgt) (src dst : Fin 1700000 → BitVec 32) : Real2 (aggR h wgt src dst) := by
  intro n j
  unfold aggR
  rw [zero_add]
  exact real_sum _ _ fun e => real_mul (hh _ j) (hw e)

/-- Bias and positive part keep an array real. -/
theorem real_biasRelu {a : Fin 100000 → Fin 128 → EReal} {b : Fin 128 → EReal}
    (ha : Real2 a) (hb : Real1 b) : Real2 (biasRelu a b) := by
  intro n j
  unfold biasRelu
  exact real_max_zero (real_add (ha n j) (hb j))

/-- A reference layer keeps an array real. -/
theorem real_layerR {K : Nat} {h : Fin 100000 → Fin K → EReal} {w : Fin K → Fin 128 → EReal} {b : Fin 128 → EReal}
    {wgt : Fin 1700000 → EReal} (hh : Real2 h) (hw : Real2 w) (hb : Real1 b) (hwgt : Real1 wgt)
    (src dst : Fin 1700000 → BitVec 32) : Real2 (layerR h w b wgt src dst) := by
  unfold layerR
  exact real_biasRelu (real_aggR (real_mm hh hw) hwgt src dst) hb

end GCN

end
-- ==== Proof.MathMP.lean ====
/-
  The message-passing law. Scaling every node's row by its factor before the edges gather it, and the aggregate of node `n`
  by `dv n` afterwards, is message passing with the edge weights `dv (source) · dv (destination)`: an edge that lands on
  node `n` has destination `n`. The step is distributivity, a law of the real numbers; the entries are real by hypothesis.
-/
import proofs.«404431_j37108517437514_3_alg».proof.Proof.Spec
import proofs.«404431_j37108517437514_3_alg».proof.Proof.MathReal
import Mathlib.Algebra.BigOperators.Ring.Finset

noncomputable section

namespace GCN

/-- An edge that lands on node `n` has the wrapped destination row `n`: its destination number is `n`, which is not
    negative and lies inside the table. -/
theorem cl_dstW_of_mem_seg {dst dstW : Fin 1700000 → BitVec 32} (hdst : ∀ e, 0 ≤ (dst e).toInt → dstW e = dst e)
    {n : Fin 100000} {e : Fin 1700000} (he : e ∈ seg dst n) : cl (dstW e) = n := by
  have h1 : (dst e).toInt = (n.val : Int) := by
    unfold seg at he
    exact (Finset.mem_filter.mp he).2
  have h2 : dstW e = dst e := hdst e (by rw [h1]; exact Int.natCast_nonneg _)
  rw [h2]
  apply Fin.ext
  show min (dst e).toInt.toNat 99999 = n.val
  rw [h1, Int.toNat_natCast]
  have := n.isLt
  omega

/-- The message-passing law, entry by entry. -/
theorem aggK_scale_mul {h : Fin 100000 → Fin 128 → EReal} {dv : Fin 100000 → EReal} (hh : Real2 h) (hdv : Real1 dv)
    (src dst dstW : Fin 1700000 → BitVec 32) (hdst : ∀ e, 0 ≤ (dst e).toInt → dstW e = dst e)
    (n : Fin 100000) (j : Fin 128) :
    aggK (scaleRows h dv) src dst n j * dv n = aggR h (nrm dv src dstW) src dst n j := by
  choose hr hhr using hh
  choose dr hdr using hdv
  unfold aggK aggR
  rw [zero_add, zero_add]
  have hL : ∑ e ∈ seg dst n, scaleRows h dv (cl (src e)) j
      = ∑ e ∈ seg dst n, ((hr (cl (src e)) j * dr (cl (src e)) : ℝ) : EReal) := by
    refine Finset.sum_congr rfl fun e _ => ?_
    unfold scaleRows
    rw [hhr, hdr, ← EReal.coe_mul]
  have hR : ∑ e ∈ seg dst n, h (cl (src e)) j * nrm dv src dstW e
      = ∑ e ∈ seg dst n, ((hr (cl (src e)) j * dr (cl (src e)) * dr n : ℝ) : EReal) := by
    refine Finset.sum_congr rfl fun e he => ?_
    unfold nrm
    rw [cl_dstW_of_mem_seg hdst he, hhr, hdr, hdr n, ← EReal.coe_mul, ← EReal.coe_mul, mul_assoc]
  rw [hL, hR, hdr n, ← coe_sum, ← coe_sum, ← EReal.coe_mul, Finset.sum_mul]

/-- One layer's step: the kernel's scaled aggregate, biased and cut at zero, is the reference's weighted aggregate, biased and
    cut at zero. -/
theorem step {h : Fin 100000 → Fin 128 → EReal} {dv : Fin 100000 → EReal} (hh : Real2 h) (hdv : Real1 dv)
    (src dst dstW : Fin 1700000 → BitVec 32) (hdst : ∀ e, 0 ≤ (dst e).toInt → dstW e = dst e) (b : Fin 128 → EReal) :
    (fun n k => max (aggK (scaleRows h dv) src dst n k * dv n + b k) 0)
      = biasRelu (aggR h (nrm dv src dstW) src dst) b := by
  funext n k
  unfold biasRelu
  rw [aggK_scale_mul hh hdv src dst dstW hdst n k]

end GCN

end
-- ==== Proof.MathPool.lean ====
/-
  The pooled sums. Fifty one-hot matrix products over tiles of 2000 nodes, added up, are the segment sum over all 100000
  nodes: the tiles enumerate the nodes, a one-hot weight is 0 or 1, and `0 · x = 0`, `1 · x = x` hold for every extended real.
-/
import proofs.«404431_j37108517437514_3_alg».proof.Proof.Spec
import Mathlib.Algebra.BigOperators.Group.Finset.Basic
import Mathlib.Algebra.BigOperators.Group.Finset.Sigma
import Mathlib.Data.Fintype.Prod

noncomputable section

namespace GCN

/-- Tiles of 2000 rows enumerate the 100000 nodes: `(t, r) ↦ 2000 t + r`. -/
def tileEquiv : Fin 50 × Fin 2000 ≃ Fin 100000 where
  toFun p := rowOf p.1 p.2
  invFun n := (⟨n.val / 2000, by have := n.isLt; omega⟩, ⟨n.val % 2000, by omega⟩)
  left_inv := by
    rintro ⟨t, r⟩
    have ht := t.isLt
    have hr := r.isLt
    apply Prod.ext
    · apply Fin.ext
      show (2000 * t.val + r.val) / 2000 = t.val
      omega
    · apply Fin.ext
      show (2000 * t.val + r.val) % 2000 = r.val
      omega
  right_inv := by
    intro n
    apply Fin.ext
    show 2000 * (n.val / 2000) + n.val % 2000 = n.val
    omega

/-- A graph number below 1000, written in 32 bits and read signed, is itself. -/
theorem toInt_ofNat_small (g : Fin 1000) : (BitVec.ofNat 32 g.val).toInt = (g.val : Int) := by
  have hg := g.isLt
  have hm : g.val % 2 ^ 32 = g.val := Nat.mod_eq_of_lt (by omega)
  rw [BitVec.toInt_eq_toNat_cond, BitVec.toNat_ofNat, hm, if_pos (by omega)]

/-- The one-hot weight tests the graph number read signed. -/
theorem oneHot_eq (b : BitVec 32) (g : Fin 1000) : oneHot b g = if b.toInt = (g.val : Int) then 1 else 0 := by
  unfold oneHot
  refine if_congr ?_ rfl rfl
  rw [← BitVec.toInt_inj, toInt_ofNat_small]

/-- A one-hot weight times an entry is the entry or zero. -/
theorem oneHot_mul (b : BitVec 32) (g : Fin 1000) (x : EReal) :
    oneHot b g * x = if b.toInt = (g.val : Int) then x else 0 := by
  rw [oneHot_eq]
  by_cases hb : b.toInt = (g.val : Int)
  · rw [if_pos hb, if_pos hb, one_mul]
  · rw [if_neg hb, if_neg hb, zero_mul]

/-- The tiled one-hot products are the segment sum, for every array. -/
theorem poolK_eq_poolR (h : Fin 100000 → Fin 128 → EReal) (bt : Fin 100000 → BitVec 32) (g : Fin 1000) (j : Fin 128) :
    poolK h bt g j = poolR h bt g j := by
  unfold poolK poolR
  rw [zero_add, Finset.sum_filter]
  calc ∑ t : Fin 50, ∑ r : Fin 2000, oneHot (bt (rowOf t r)) g * h (rowOf t r) j
      = ∑ p ∈ (Finset.univ : Finset (Fin 50)) ×ˢ (Finset.univ : Finset (Fin 2000)),
          oneHot (bt (rowOf p.1 p.2)) g * h (rowOf p.1 p.2) j :=
        (Finset.sum_product' Finset.univ Finset.univ
          (fun (t : Fin 50) (r : Fin 2000) => oneHot (bt (rowOf t r)) g * h (rowOf t r) j)).symm
    _ = ∑ p : Fin 50 × Fin 2000, oneHot (bt (tileEquiv p)) g * h (tileEquiv p) j := by
        rw [Finset.univ_product_univ]
        rfl
    _ = ∑ n : Fin 100000, oneHot (bt n) g * h n j :=
        Fintype.sum_equiv tileEquiv _ _ (fun _ => rfl)
    _ = ∑ n : Fin 100000, if (bt n).toInt = (g.val : Int) then h n j else 0 :=
        Finset.sum_congr rfl (fun n _ => oneHot_mul _ _ _)

/-- The head depends on the pooled sums only. -/
theorem poolK_eq_poolR_fun (h : Fin 100000 → Fin 128 → EReal) (bt : Fin 100000 → BitVec 32) :
    poolK h bt = poolR h bt := by
  funext g j
  exact poolK_eq_poolR h bt g j

end GCN

end
-- ==== Proof.Math.lean ====
/-
  The two arrangements of the three-layer graph convolution agree on real inputs.

  The kernel scales each node's features by its factor `dv` before the edges gather them and scales the aggregate by `dv` again
  afterwards; the reference multiplies every gathered row by the edge's weight `dv (source) · dv (destination)`. For an edge that
  lands on node `n` the destination's factor is `dv n`, so the two agree by distributivity — a law of the real numbers, which is
  why every array that enters a product is shown to hold real numbers. The pooled sums agree because a one-hot matrix product
  over tiles is the segment sum.
-/
import proofs.«404431_j37108517437514_3_alg».proof.Proof.Spec
import proofs.«404431_j37108517437514_3_alg».proof.Proof.MathReal
import proofs.«404431_j37108517437514_3_alg».proof.Proof.MathMP
import proofs.«404431_j37108517437514_3_alg».proof.Proof.MathPool
import Mathlib.Algebra.BigOperators.Ring.Finset
import Mathlib.Algebra.Order.BigOperators.Group.Finset

noncomputable section

namespace GCN

/-- The first layer's pre-scaled features are the scaled matrix product. -/
theorem G0_eq (x : Fin 100000 → Fin 64 → EReal) (w : Fin 64 → Fin 128 → EReal) (dv : Fin 100000 → EReal) :
    G0 x w dv = scaleRows (mm x w) dv := rfl

/-- A later layer's pre-scaled features are the scaled matrix product of the scaled, biased, cut aggregate. -/
theorem G1_eq (a : Fin 100000 → Fin 128 → EReal) (b : Fin 128 → EReal) (w : Fin 128 → Fin 128 → EReal)
    (dv : Fin 100000 → EReal) :
    G1 a b w dv = scaleRows (mm (fun n k => max (a n k * dv n + b k) 0) w) dv := rfl

/-- THE CLAIM OF THIS MODULE. `hdst`: an edge that lands somewhere (its destination number is not negative) has its wrapped
    destination number equal to the raw one. -/
theorem outK_eq_outR
    (x : Fin 100000 → Fin 64 → EReal) (src dst dstW : Fin 1700000 → BitVec 32) (dv : Fin 100000 → EReal)
    (bt : Fin 100000 → BitVec 32) (cnt : Fin 1000 → EReal)
    (w1 : Fin 64 → Fin 128 → EReal) (b1 : Fin 128 → EReal) (w2 : Fin 128 → Fin 128 → EReal) (b2 : Fin 128 → EReal)
    (w3 : Fin 128 → Fin 128 → EReal) (b3 : Fin 128 → EReal) (wl : Fin 128 → Fin 10 → EReal) (bl : Fin 10 → EReal)
    (hx : Real2 x) (hdv : Real1 dv) (hw1 : Real2 w1) (hb1 : Real1 b1) (hw2 : Real2 w2) (hb2 : Real1 b2)
    (hw3 : Real2 w3) (hb3 : Real1 b3)
    (hdst : ∀ e, 0 ≤ (dst e).toInt → dstW e = dst e) :
    outK x src dst dv bt cnt w1 b1 w2 b2 w3 b3 wl bl = outR x src dst dstW dv bt cnt w1 b1 w2 b2 w3 b3 wl bl := by
  have hW : Real1 (nrm dv src dstW) := real_nrm hdv src dstW
  -- the three layers, from the inside out
  have hL1 : Real2 (layerR x w1 b1 (nrm dv src dstW) src dst) := real_layerR hx hw1 hb1 hW src dst
  have hL2 : Real2 (layerR (layerR x w1 b1 (nrm dv src dstW) src dst) w2 b2 (nrm dv src dstW) src dst) :=
    real_layerR hL1 hw2 hb2 hW src dst
  have e1 : (fun n k => max (aggK (G0 x w1 dv) src dst n k * dv n + b1 k) 0)
      = layerR x w1 b1 (nrm dv src dstW) src dst := by
    rw [G0_eq]
    exact step (real_mm hx hw1) hdv src dst dstW hdst b1
  have e2 : (fun n k => max (aggK (G1 (aggK (G0 x w1 dv) src dst) b1 w2 dv) src dst n k * dv n + b2 k) 0)
      = layerR (layerR x w1 b1 (nrm dv src dstW) src dst) w2 b2 (nrm dv src dstW) src dst := by
    rw [G1_eq, e1]
    exact step (real_mm hL1 hw2) hdv src dst dstW hdst b2
  have e3 : (fun n k => max (aggK (G1 (aggK (G1 (aggK (G0 x w1 dv) src dst) b1 w2 dv) src dst) b2 w3 dv) src dst n k * dv n
        + b3 k) 0)
      = layerR (layerR (layerR x w1 b1 (nrm dv src dstW) src dst) w2 b2 (nrm dv src dstW) src dst) w3 b3
          (nrm dv src dstW) src dst := by
    rw [G1_eq, e2]
    exact step (real_mm hL2 hw3) hdv src dst dstW hdst b3
  unfold outK outR G3
  rw [e3, poolK_eq_poolR_fun]

end GCN

end
-- ==== Proof.Alg.lean ====
/-
  The kernel program's result in the common language, and the certificate's claims.

  The result array is what region 3's write-backs leave; read back through the four regions' final arrays and the host
  stretches between them it is `GCN.outK` of the argument arrays — three rounds of (matrix product, scaling by the per-node
  factor, unweighted message passing), then the pooled mean and the head. The reference's result is `GCN.outR` of the same
  arrays, and on real inputs the two are equal (`GCN.outK_eq_outR`: the per-node factor distributes over a node's in-edges,
  and a one-hot matrix product over tiles is a segment sum).
-/
import proofs.«404431_j37108517437514_3_alg».proof.Defs
import proofs.«404431_j37108517437514_3_alg».proof.Proof.Gen.Kernel
import proofs.«404431_j37108517437514_3_alg».proof.Proof.Gen.KernelIdeal
import proofs.«404431_j37108517437514_3_alg».proof.Proof.Gen.ReferenceIdeal
import proofs.«404431_j37108517437514_3_alg».proof.Proof.Gen.Pre_finite_inputs
import proofs.«404431_j37108517437514_3_alg».proof.Proof.FrRun
import proofs.«404431_j37108517437514_3_alg».proof.Proof.FrRunK
import proofs.«404431_j37108517437514_3_alg».proof.Proof.Val0
import proofs.«404431_j37108517437514_3_alg».proof.Proof.Val1
import proofs.«404431_j37108517437514_3_alg».proof.Proof.Val2
import proofs.«404431_j37108517437514_3_alg».proof.Proof.Val3
import proofs.«404431_j37108517437514_3_alg».proof.Proof.KHost
import proofs.«404431_j37108517437514_3_alg».proof.Proof.RefVal
import proofs.«404431_j37108517437514_3_alg».proof.Proof.Finite
import proofs.«404431_j37108517437514_3_alg».proof.Proof.Math

set_option maxRecDepth 16384

noncomputable section

namespace Cert.Proof.Alg

open Idealize.ShloMosaic Idealize.ShloMosaic.TcCoe Idealize.SL.Sem GCN

section KernelSide

open Cert.KernelIdeal Cert.KernelIdeal.Gen Cert.KernelIdeal.Fr Cert.KernelIdeal.Val

variable (m : (ℓ : Loc nD τ sig) → Buf (Elt Ideal) ℓ) (ρ : Dev nD → PrngReg) (c : Dev nD)

/-- The edge list and the graph numbers as launched. -/
abbrev ei : EdgeList := m ((c.tc : Thread nD τ).loc main_arg1)
abbrev gi : GraphIds := m ((c.tc : Thread nD τ).loc main_arg2)

/-- The source and destination vectors as the first host stretch leaves them: the reference's stages of the launched edge list. -/
theorem at_src1 : W1 m ρ c main_v3 = Cert.ReferenceIdeal.ReadP.val_main_v3 (F := Ideal) (ei m c) := GCN.K.v3_eq (W0 m ρ c)
theorem at_dst1 : W1 m ρ c main_v6 = Cert.ReferenceIdeal.ReadP.val_main_v6 (F := Ideal) (ei m c) := GCN.K.v6_eq (W0 m ρ c)
/-- They reach every later stretch unchanged: no later item writes them. -/
theorem at_src4 : GCN.K.wrapCol (W4 m ρ c main_v3) = SRC (ei m c) := by
  rw [show W4 m ρ c main_v3 = W1 m ρ c main_v3 from (W4_keep m ρ c main_v3 (by decide)).trans <| (W3_of m ρ c main_v3 (by decide)).trans <| (W2_of m ρ c main_v3 (by decide)), at_src1, ← GCN.K.SRC_eq]
theorem at_src6 : GCN.K.wrapCol (W6 m ρ c main_v3) = SRC (ei m c) := by
  rw [show W6 m ρ c main_v3 = W1 m ρ c main_v3 from (W6_keep m ρ c main_v3 (by decide)).trans <| (W5_of m ρ c main_v3 (by decide)).trans <| (W4_keep m ρ c main_v3 (by decide)).trans <| (W3_of m ρ c main_v3 (by decide)).trans <| (W2_of m ρ c main_v3 (by decide)), at_src1, ← GCN.K.SRC_eq]
theorem at_src8 : GCN.K.wrapCol (W8 m ρ c main_v3) = SRC (ei m c) := by
  rw [show W8 m ρ c main_v3 = W1 m ρ c main_v3 from (W8_keep m ρ c main_v3 (by decide)).trans <| (W7_of m ρ c main_v3 (by decide)).trans <| (W6_keep m ρ c main_v3 (by decide)).trans <| (W5_of m ρ c main_v3 (by decide)).trans <| (W4_keep m ρ c main_v3 (by decide)).trans <| (W3_of m ρ c main_v3 (by decide)).trans <| (W2_of m ρ c main_v3 (by decide)), at_src1, ← GCN.K.SRC_eq]
theorem at_dst4 : GCN.K.rawCol (W4 m ρ c main_v6) = DST (ei m c) := by
  rw [show W4 m ρ c main_v6 = W1 m ρ c main_v6 from (W4_keep m ρ c main_v6 (by decide)).trans <| (W3_of m ρ c main_v6 (by decide)).trans <| (W2_of m ρ c main_v6 (by decide)), at_dst1, ← GCN.K.DST_eq]
theorem at_dst6 : GCN.K.rawCol (W6 m ρ c main_v6) = DST (ei m c) := by
  rw [show W6 m ρ c main_v6 = W1 m ρ c main_v6 from (W6_keep m ρ c main_v6 (by decide)).trans <| (W5_of m ρ c main_v6 (by decide)).trans <| (W4_keep m ρ c main_v6 (by decide)).trans <| (W3_of m ρ c main_v6 (by decide)).trans <| (W2_of m ρ c main_v6 (by decide)), at_dst1, ← GCN.K.DST_eq]
theorem at_dst8 : GCN.K.rawCol (W8 m ρ c main_v6) = DST (ei m c) := by
  rw [show W8 m ρ c main_v6 = W1 m ρ c main_v6 from (W8_keep m ρ c main_v6 (by decide)).trans <| (W7_of m ρ c main_v6 (by decide)).trans <| (W6_keep m ρ c main_v6 (by decide)).trans <| (W5_of m ρ c main_v6 (by decide)).trans <| (W4_keep m ρ c main_v6 (by decide)).trans <| (W3_of m ρ c main_v6 (by decide)).trans <| (W2_of m ρ c main_v6 (by decide)), at_dst1, ← GCN.K.DST_eq]

/-- The per-node factor's column, as every region finds it. -/
theorem at_dv3 : col (V3 m ρ c main_v17) = DV (ei m c) := by
  refine (GCN.K.v17_col (W2 m ρ c)).trans ?_
  show rd1 (W2 m ρ c main_v16) = rd1 (Cert.ReferenceIdeal.ReadP.val_main_v16 (F := Ideal) (ei m c))
  rw [show W2 m ρ c main_v16 = Cert.ReferenceIdeal.ReadP.val_main_v16 (F := Ideal) (ei m c) from GCN.K.v16_eq (W0 m ρ c)]
theorem at_dv5 : col (V5 m ρ c main_v17) = DV (ei m c) := by
  rw [show V5 m ρ c main_v17 = V3 m ρ c main_v17 from (W5_of m ρ c main_v17 (by decide)).trans <| (W4_keep m ρ c main_v17 (by decide))]; exact at_dv3 m ρ c
theorem at_dv7 : col (V7 m ρ c main_v17) = DV (ei m c) := by
  rw [show V7 m ρ c main_v17 = V3 m ρ c main_v17 from (W7_of m ρ c main_v17 (by decide)).trans <| (W6_keep m ρ c main_v17 (by decide)).trans <| (W5_of m ρ c main_v17 (by decide)).trans <| (W4_keep m ρ c main_v17 (by decide))]; exact at_dv3 m ρ c
theorem at_dv9 : col (V9 m ρ c main_v17) = DV (ei m c) := by
  rw [show V9 m ρ c main_v17 = V3 m ρ c main_v17 from (W9_of m ρ c main_v17 (by decide)).trans <| (W8_keep m ρ c main_v17 (by decide)).trans <| (W7_of m ρ c main_v17 (by decide)).trans <| (W6_keep m ρ c main_v17 (by decide)).trans <| (W5_of m ρ c main_v17 (by decide)).trans <| (W4_keep m ρ c main_v17 (by decide))]; exact at_dv3 m ρ c
/-- The graph numbers' column, as region 3 finds it. -/
theorem at_bt9 : col (V9 m ρ c main_v18) = BT (gi m c) := by
  rw [show V9 m ρ c main_v18 = V3 m ρ c main_v18 from (W9_of m ρ c main_v18 (by decide)).trans <| (W8_keep m ρ c main_v18 (by decide)).trans <| (W7_of m ρ c main_v18 (by decide)).trans <| (W6_keep m ρ c main_v18 (by decide)).trans <| (W5_of m ρ c main_v18 (by decide)).trans <| (W4_keep m ρ c main_v18 (by decide))]
  refine (GCN.K.v18_col (W2 m ρ c)).trans ?_
  show rd1 (W2 m ρ c main_arg2) = rd1 (gi m c)
  rw [show W2 m ρ c main_arg2 = gi m c from (W2_of m ρ c main_arg2 (by decide)).trans <| (W1_of m ρ c main_arg2 (by decide))]

/-- Region 0 leaves the first layer's pre-scaled features. -/
theorem at_feat1 : rd2 (W4 m ρ c main_v19) = G0 (rd2 (m ((c.tc : Thread nD τ).loc main_arg0))) (rd2 (m ((c.tc : Thread nD τ).loc main_arg3))) (DV (ei m c)) := by
  rw [show W4 m ρ c main_v19 = (dat0 (V3 m ρ) c).arrAt 3 cfg0.N from W4_arr m ρ c 3, final0 (V3 m ρ) c,
    (show V3 m ρ c main_arg0 = m ((c.tc : Thread nD τ).loc main_arg0) from (W3_of m ρ c main_arg0 (by decide)).trans <| (W2_of m ρ c main_arg0 (by decide)).trans <| (W1_of m ρ c main_arg0 (by decide))), (show V3 m ρ c main_arg3 = m ((c.tc : Thread nD τ).loc main_arg3) from (W3_of m ρ c main_arg3 (by decide)).trans <| (W2_of m ρ c main_arg3 (by decide)).trans <| (W1_of m ρ c main_arg3 (by decide))), at_dv3]
/-- The first unweighted aggregate and the first bias row, as region 1 finds them. -/
theorem at_agg1 : rd2 (V5 m ρ c main_v30) = aggK (G0 (rd2 (m ((c.tc : Thread nD τ).loc main_arg0))) (rd2 (m ((c.tc : Thread nD τ).loc main_arg3))) (DV (ei m c))) (SRC (ei m c)) (DST (ei m c)) := by
  refine (GCN.K.agg1 (W4 m ρ c)).trans ?_
  rw [at_feat1, at_src4, at_dst4]
theorem at_bias1 : row (V5 m ρ c main_v31) = rd1 (m ((c.tc : Thread nD τ).loc main_arg4)) := by
  refine (GCN.K.bias1 (W4 m ρ c)).trans ?_
  rw [show W4 m ρ c main_arg4 = (m ((c.tc : Thread nD τ).loc main_arg4)) from (W4_keep m ρ c main_arg4 (by decide)).trans <| (W3_of m ρ c main_arg4 (by decide)).trans <| (W2_of m ρ c main_arg4 (by decide)).trans <| (W1_of m ρ c main_arg4 (by decide))]
/-- Region 1 leaves the second layer's pre-scaled features. -/
theorem at_feat2 : rd2 (W6 m ρ c main_v32) = G1 (aggK (G0 (rd2 (m ((c.tc : Thread nD τ).loc main_arg0))) (rd2 (m ((c.tc : Thread nD τ).loc main_arg3))) (DV (ei m c))) (SRC (ei m c)) (DST (ei m c)))
    (rd1 (m ((c.tc : Thread nD τ).loc main_arg4))) (rd2 (m ((c.tc : Thread nD τ).loc main_arg5))) (DV (ei m c)) := by
  rw [show W6 m ρ c main_v32 = (dat1 (V5 m ρ) c).arrAt 4 cfg1.N from W6_arr m ρ c 4, final1 (V5 m ρ) c,
    at_agg1, at_bias1, (show V5 m ρ c main_arg5 = m ((c.tc : Thread nD τ).loc main_arg5) from (W5_of m ρ c main_arg5 (by decide)).trans <| (W4_keep m ρ c main_arg5 (by decide)).trans <| (W3_of m ρ c main_arg5 (by decide)).trans <| (W2_of m ρ c main_arg5 (by decide)).trans <| (W1_of m ρ c main_arg5 (by decide))), at_dv5]
theorem at_agg2 : rd2 (V7 m ρ c main_v43) = aggK (G1 (aggK (G0 (rd2 (m ((c.tc : Thread nD τ).loc main_arg0))) (rd2 (m ((c.tc : Thread nD τ).loc main_arg3))) (DV (ei m c))) (SRC (ei m c)) (DST (ei m c)))
    (rd1 (m ((c.tc : Thread nD τ).loc main_arg4))) (rd2 (m ((c.tc : Thread nD τ).loc main_arg5))) (DV (ei m c))) (SRC (ei m c)) (DST (ei m c)) := by
  refine (GCN.K.agg2 (W6 m ρ c)).trans ?_
  rw [at_feat2, at_src6, at_dst6]
theorem at_bias2 : row (V7 m ρ c main_v44) = rd1 (m ((c.tc : Thread nD τ).loc main_arg6)) := by
  refine (GCN.K.bias2 (W6 m ρ c)).trans ?_
  rw [show W6 m ρ c main_arg6 = (m ((c.tc : Thread nD τ).loc main_arg6)) from (W6_keep m ρ c main_arg6 (by decide)).trans <| (W5_of m ρ c main_arg6 (by decide)).trans <| (W4_keep m ρ c main_arg6 (by decide)).trans <| (W3_of m ρ c main_arg6 (by decide)).trans <| (W2_of m ρ c main_arg6 (by decide)).trans <| (W1_of m ρ c main_arg6 (by decide))]
/-- Region 2 leaves the third layer's pre-scaled features. -/
theorem at_feat3 : rd2 (W8 m ρ c main_v45) = G1 (aggK (G1 (aggK (G0 (rd2 (m ((c.tc : Thread nD τ).loc main_arg0))) (rd2 (m ((c.tc : Thread nD τ).loc main_arg3))) (DV (ei m c))) (SRC (ei m c)) (DST (ei m c)))
    (rd1 (m ((c.tc : Thread nD τ).loc main_arg4))) (rd2 (m ((c.tc : Thread nD τ).loc main_arg5))) (DV (ei m c))) (SRC (ei m c)) (DST (ei m c)))
    (rd1 (m ((c.tc : Thread nD τ).loc main_arg6))) (rd2 (m ((c.tc : Thread nD τ).loc main_arg7))) (DV (ei m c)) := by
  rw [show W8 m ρ c main_v45 = (dat2 (V7 m ρ) c).arrAt 4 cfg2.N from W8_arr m ρ c 4, final2 (V7 m ρ) c,
    at_agg2, at_bias2, (show V7 m ρ c main_arg7 = m ((c.tc : Thread nD τ).loc main_arg7) from (W7_of m ρ c main_arg7 (by decide)).trans <| (W6_keep m ρ c main_arg7 (by decide)).trans <| (W5_of m ρ c main_arg7 (by decide)).trans <| (W4_keep m ρ c main_arg7 (by decide)).trans <| (W3_of m ρ c main_arg7 (by decide)).trans <| (W2_of m ρ c main_arg7 (by decide)).trans <| (W1_of m ρ c main_arg7 (by decide))), at_dv7]
theorem at_agg3 : rd2 (V9 m ρ c main_v56) = aggK (G1 (aggK (G1 (aggK (G0 (rd2 (m ((c.tc : Thread nD τ).loc main_arg0))) (rd2 (m ((c.tc : Thread nD τ).loc main_arg3))) (DV (ei m c))) (SRC (ei m c)) (DST (ei m c)))
    (rd1 (m ((c.tc : Thread nD τ).loc main_arg4))) (rd2 (m ((c.tc : Thread nD τ).loc main_arg5))) (DV (ei m c))) (SRC (ei m c)) (DST (ei m c)))
    (rd1 (m ((c.tc : Thread nD τ).loc main_arg6))) (rd2 (m ((c.tc : Thread nD τ).loc main_arg7))) (DV (ei m c))) (SRC (ei m c)) (DST (ei m c)) := by
  refine (GCN.K.agg3 (W8 m ρ c)).trans ?_
  rw [at_feat3, at_src8, at_dst8]
theorem at_bias3 : row (V9 m ρ c main_v62) = rd1 (m ((c.tc : Thread nD τ).loc main_arg8)) := by
  refine (GCN.K.bias3 (W8 m ρ c)).trans ?_
  rw [show W8 m ρ c main_arg8 = (m ((c.tc : Thread nD τ).loc main_arg8)) from (W8_keep m ρ c main_arg8 (by decide)).trans <| (W7_of m ρ c main_arg8 (by decide)).trans <| (W6_keep m ρ c main_arg8 (by decide)).trans <| (W5_of m ρ c main_arg8 (by decide)).trans <| (W4_keep m ρ c main_arg8 (by decide)).trans <| (W3_of m ρ c main_arg8 (by decide)).trans <| (W2_of m ρ c main_arg8 (by decide)).trans <| (W1_of m ρ c main_arg8 (by decide))]
theorem at_biasl : row (V9 m ρ c main_v63) = rd1 (m ((c.tc : Thread nD τ).loc main_arg10)) := by
  refine (GCN.K.biasl (W8 m ρ c)).trans ?_
  rw [show W8 m ρ c main_arg10 = (m ((c.tc : Thread nD τ).loc main_arg10)) from (W8_keep m ρ c main_arg10 (by decide)).trans <| (W7_of m ρ c main_arg10 (by decide)).trans <| (W6_keep m ρ c main_arg10 (by decide)).trans <| (W5_of m ρ c main_arg10 (by decide)).trans <| (W4_keep m ρ c main_arg10 (by decide)).trans <| (W3_of m ρ c main_arg10 (by decide)).trans <| (W2_of m ρ c main_arg10 (by decide)).trans <| (W1_of m ρ c main_arg10 (by decide))]
theorem at_cnt9 : col (V9 m ρ c main_v61) = CNT (gi m c) := by
  refine (GCN.K.cnt3 (W8 m ρ c)).trans ?_
  rw [show W8 m ρ c main_arg2 = gi m c from (W8_keep m ρ c main_arg2 (by decide)).trans <| (W7_of m ρ c main_arg2 (by decide)).trans <| (W6_keep m ρ c main_arg2 (by decide)).trans <| (W5_of m ρ c main_arg2 (by decide)).trans <| (W4_keep m ρ c main_arg2 (by decide)).trans <| (W3_of m ρ c main_arg2 (by decide)).trans <| (W2_of m ρ c main_arg2 (by decide)).trans <| (W1_of m ρ c main_arg2 (by decide))]
  rfl

/-- THE KERNEL'S RESULT: what region 3's write-backs leave is `outK` of the launched arrays. -/
theorem kernel_result : rd2 ((dat3 (V9 m ρ) c).arrAt 7 cfg3.N)
    = outK (rd2 (m ((c.tc : Thread nD τ).loc main_arg0))) (SRC (ei m c)) (DST (ei m c)) (DV (ei m c)) (BT (gi m c)) (CNT (gi m c))
        (rd2 (m ((c.tc : Thread nD τ).loc main_arg3))) (rd1 (m ((c.tc : Thread nD τ).loc main_arg4))) (rd2 (m ((c.tc : Thread nD τ).loc main_arg5))) (rd1 (m ((c.tc : Thread nD τ).loc main_arg6)))
        (rd2 (m ((c.tc : Thread nD τ).loc main_arg7))) (rd1 (m ((c.tc : Thread nD τ).loc main_arg8))) (rd2 (m ((c.tc : Thread nD τ).loc main_arg9))) (rd1 (m ((c.tc : Thread nD τ).loc main_arg10))) := by
  rw [final3 (V9 m ρ) c, at_agg3, at_bias3, at_dv9, at_bt9, at_cnt9, (show V9 m ρ c main_arg9 = m ((c.tc : Thread nD τ).loc main_arg9) from (W9_of m ρ c main_arg9 (by decide)).trans <| (W8_keep m ρ c main_arg9 (by decide)).trans <| (W7_of m ρ c main_arg9 (by decide)).trans <| (W6_keep m ρ c main_arg9 (by decide)).trans <| (W5_of m ρ c main_arg9 (by decide)).trans <| (W4_keep m ρ c main_arg9 (by decide)).trans <| (W3_of m ρ c main_arg9 (by decide)).trans <| (W2_of m ρ c main_arg9 (by decide)).trans <| (W1_of m ρ c main_arg9 (by decide))), at_biasl]
  rfl

end KernelSide

/-! ## The claims -/

theorem frame_k : Cert.frame_Kernel := fun m ρ _ =>
  (θ_run Cert.Kernel.defs _ _).mono (fun _ h c => (h c).2) (Cert.Kernel.Fr.run_main (F := Bits) m ρ)
theorem frame_ki : Cert.frame_KernelIdeal := fun m ρ _ =>
  (θ_run Cert.KernelIdeal.defs _ _).mono (fun _ h c => (h c).2) (Cert.KernelIdeal.Fr.run_main (F := Ideal) m ρ)
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- The reference's last stage of the launched arrays IS what the kernel's last region leaves, entry by entry: the reference's
    stage is `outR`, the kernel's array is `outK`, and on real inputs the two are equal. -/
theorem value_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) = fun _ => 1#1) :
    Cert.ReferenceIdeal.ReadP.val_main_v101 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      = (Cert.KernelIdeal.Fr.dat3 (Cert.KernelIdeal.Fr.V9 m ρ) c).arrAt 7 Cert.KernelIdeal.cfg3.N := by
  obtain ⟨hx, hw1, hb1, hw2, hb2, hw3, hb3, -, -⟩ := GCN.real_of_pre _ _ _ _ _ _ _ _ _ _ _ hpre
  funext i
  obtain ⟨g, o, rfl⟩ : ∃ (g : Fin 1000) (o : Fin 10), i = ValueIdx.ix2 g o := ⟨i 0, i 1, ValueIdx.eq_ix2 i⟩
  have hk := congrFun (congrFun (kernel_result m ρ c) g) o
  have hr := congrFun (congrFun (GCN.ref_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) g) o
  have hm := congrFun (congrFun (GCN.outK_eq_outR (rd2 (m ((c.tc : Thread Cert.KernelIdeal.nD Cert.KernelIdeal.τ).loc Cert.KernelIdeal.main_arg0))) (SRC (m ((c.tc : Thread Cert.KernelIdeal.nD Cert.KernelIdeal.τ).loc Cert.KernelIdeal.main_arg1))) (DST (m ((c.tc : Thread Cert.KernelIdeal.nD Cert.KernelIdeal.τ).loc Cert.KernelIdeal.main_arg1))) (DSTW (m ((c.tc : Thread Cert.KernelIdeal.nD Cert.KernelIdeal.τ).loc Cert.KernelIdeal.main_arg1))) (DV (m ((c.tc : Thread Cert.KernelIdeal.nD Cert.KernelIdeal.τ).loc Cert.KernelIdeal.main_arg1))) (BT (m ((c.tc : Thread Cert.KernelIdeal.nD Cert.KernelIdeal.τ).loc Cert.KernelIdeal.main_arg2))) (CNT (m ((c.tc : Thread Cert.KernelIdeal.nD Cert.KernelIdeal.τ).loc Cert.KernelIdeal.main_arg2)))
    (rd2 (m ((c.tc : Thread Cert.KernelIdeal.nD Cert.KernelIdeal.τ).loc Cert.KernelIdeal.main_arg3))) (rd1 (m ((c.tc : Thread Cert.KernelIdeal.nD Cert.KernelIdeal.τ).loc Cert.KernelIdeal.main_arg4))) (rd2 (m ((c.tc : Thread Cert.KernelIdeal.nD Cert.KernelIdeal.τ).loc Cert.KernelIdeal.main_arg5))) (rd1 (m ((c.tc : Thread Cert.KernelIdeal.nD Cert.KernelIdeal.τ).loc Cert.KernelIdeal.main_arg6))) (rd2 (m ((c.tc : Thread Cert.KernelIdeal.nD Cert.KernelIdeal.τ).loc Cert.KernelIdeal.main_arg7))) (rd1 (m ((c.tc : Thread Cert.KernelIdeal.nD Cert.KernelIdeal.τ).loc Cert.KernelIdeal.main_arg8))) (rd2 (m ((c.tc : Thread Cert.KernelIdeal.nD Cert.KernelIdeal.τ).loc Cert.KernelIdeal.main_arg9))) (rd1 (m ((c.tc : Thread Cert.KernelIdeal.nD Cert.KernelIdeal.τ).loc Cert.KernelIdeal.main_arg10)))
    hx (GCN.DV_real _) hw1 hb1 hw2 hb2 hw3 hb3 (GCN.hdst _)) g) o
  exact hr.trans (hm.symm.trans hk.symm)

set_option maxHeartbeats 1000000 in
/-- At the ideal instance the kernel's result array ends at what its last region leaves and the reference's at its last stage
    of arrays that agree with the kernel's: one array (`value_eq`), the float arrays holding real numbers by the precondition. -/
theorem algebraic : Cert.algebraic_KernelIdeal_ReferenceIdeal := by
  intro m ρ m' ρ' hpre hagree
  refine ⟨fun c => (Cert.KernelIdeal.Fr.dat3 (Cert.KernelIdeal.Fr.V9 m ρ) c).arrAt 7 Cert.KernelIdeal.cfg3.N,
    Cert.KernelIdeal.Fr.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10⟩ := hagree c
  rw [Cert.ReferenceIdeal.ReadP.val_main_v101_eq, e0, e1, e2, e3, e4, e5, e6, e7, e8, e9, e10]
  exact value_eq m ρ c (hpre c)

end Cert.Proof.Alg

end
-- ==== Proof.lean ====
/-
  The certificate of a three-layer graph convolution with a pooled linear head, kernel against reference, over the extended
  reals.

  The kernel is four pipelined calls among host operations: the first multiplies the node features by the first weight
  matrix and scales each row by the node's factor `dv = 1 / sqrt (max degree 1)`; the host gathers the scaled rows along the
  edges and adds them up per destination node; the second and third calls scale that aggregate by `dv` again, add the bias,
  cut at zero, multiply by the next weight matrix and scale by `dv`; the last call finishes the third layer the same way,
  accumulates the one-hot matrix product of graph numbers against the node rows over fifty tiles of 2000 nodes in a scratch
  buffer, and at the last tile divides by the clamped node counts and applies the linear head. The reference multiplies every
  gathered row by the edge weight `dv (source) · dv (destination)` instead, and pools by a segment sum.

  An edge that lands on node `n` has destination factor `dv n`, so the two arrangements agree by distributivity of a real
  factor over a finite sum of reals — every float input is finite by the precondition, and the factor is real by its
  definition —, and the one-hot product over tiles is the segment sum term by term. The three frames are the runs themselves:
  the kernel's four regions each run to the end at every grid point without a fault and write only their own output array,
  the host operations write only their own results, so the eleven argument arrays end as launched. The ideal pass rewrote
  nothing, so the kernel's idealization is its own text read at the extended reals.
-/
import proofs.«404431_j37108517437514_3_alg».proof.Defs
import proofs.«404431_j37108517437514_3_alg».proof.Proof.Gen.Kernel
import proofs.«404431_j37108517437514_3_alg».proof.Proof.Gen.KernelIdeal
import proofs.«404431_j37108517437514_3_alg».proof.Proof.Gen.ReferenceIdeal
import proofs.«404431_j37108517437514_3_alg».proof.Proof.Gen.Pre_finite_inputs
import proofs.«404431_j37108517437514_3_alg».proof.Proof.Alg

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Alg.frame_k, Alg.frame_ki, Alg.frame_ri, Alg.preserves, Alg.algebraic⟩

end Cert.Proof

end
